-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S128 .f32) (main_arg7 : FVec F S128x32 .f32) (main_arg8 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x128 .f32) (main_arg6 : FVec F S128 .f32) (main_arg7 : FVec F S128x32 .f32) (main_arg8 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S64 : Shape := ⟨1, ![64]⟩
abbrev S1x64 : Shape := ⟨2, ![1, 64]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S2x64x128 : Shape := ⟨3, ![2, 64, 128]⟩
abbrev S1x64x128 : Shape := ⟨3, ![1, 64, 128]⟩
abbrev S64x1 : Shape := ⟨2, ![64, 1]⟩
abbrev S1x32 : Shape := ⟨2, ![1, 32]⟩
abbrev S64x32 : Shape := ⟨2, ![64, 32]⟩

abbrev nBuf : Space → Nat
  | .hbm => 90
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000, .f32⟩
  | .hbm, ⟨33, _⟩ => ⟨S_, .f32⟩
  | .hbm, ⟨34, _⟩ => ⟨S64, .f32⟩
  | .hbm, ⟨35, _⟩ => ⟨S100000x1, .i32⟩
  | .hbm, ⟨36, _⟩ => ⟨S64, .f32⟩
  | .hbm, ⟨37, _⟩ => ⟨S64, .i32⟩
  | .hbm, ⟨38, _⟩ => ⟨S100000x1, .i32⟩
  | .hbm, ⟨39, _⟩ => ⟨S1x64, .i32⟩
  | .hbm, ⟨40, _⟩ => ⟨S100000x64, .i32⟩
  | .hbm, ⟨41, _⟩ => ⟨S100000x64, .i32⟩
  | .hbm, ⟨42, _⟩ => ⟨S100000x64, .i1⟩
  | .hbm, ⟨43, _⟩ => ⟨S100000x64, .bf16⟩
  | .hbm, ⟨44, _⟩ => ⟨S100000x128, .bf16⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .bf16⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .bf16⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .bf16⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S1x128, .f32⟩
  | .hbm, ⟨76, _⟩ => ⟨S2x64x128, .f32⟩
  | .hbm, ⟨77, _⟩ => ⟨S1x64x128, .f32⟩
  | .hbm, ⟨78, _⟩ => ⟨S64x128, .f32⟩
  | .hbm, ⟨79, _⟩ => ⟨S1x64x128, .f32⟩
  | .hbm, ⟨80, _⟩ => ⟨S64x128, .f32⟩
  | .hbm, ⟨81, _⟩ => ⟨S64x128, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64x1, .f32⟩
  | .hbm, ⟨86, _⟩ => ⟨S64x128, .f32⟩
  | .hbm, ⟨87, _⟩ => ⟨S64x128, .f32⟩
  | .hbm, ⟨88, _⟩ => ⟨S1x32, .f32⟩
  | .hbm, ⟨89, _⟩ => ⟨S64x32, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x64, .bf16⟩
  | .local _ .vmem, ⟨21, _⟩ => ⟨S5000x64, .bf16⟩
  | .local _ .vmem, ⟨22, _⟩ => ⟨S1x64x128, .f32⟩
  | .local _ .vmem, ⟨23, _⟩ => ⟨S1x64x128, .f32⟩
  | .local _ .vmem, ⟨24, _⟩ => ⟨S64x128, .f32⟩
  | .local _ .vmem, ⟨25, _⟩ => ⟨S128x32, .f32⟩
  | .local _ .vmem, ⟨26, _⟩ => ⟨S1x32, .f32⟩
  | .local _ .vmem, ⟨27, _⟩ => ⟨S64x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem1_0 : DmaSem sig := 25
abbrev cc3_sem2_0 : DmaSem sig := 26
abbrev cc3_sem3_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 10], ![false, false]⟩

def cc2_transform_0 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S5000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x64x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S_S64 : S_.BroadcastsInDim S64 (![] : Fin 0 → Fin S64.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  shapeCasts_S5000x64_S5000x64 : S5000x64.ShapeCasts S5000x64
  slices_S2x64x128_S1x64x128_0_0_0 : S2x64x128.Slices ![0, 0, 0] S1x64x128
  slices_S2x64x128_S1x64x128_1_0_0 : S2x64x128.Slices ![1, 0, 0] S1x64x128
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S32_S1x32 : S32.ShapeCasts S1x32
  shapeCasts_S64x128_S64x128 : S64x128.ShapeCasts S64x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S64x32_S64x32_0_0 : ∀ a, (![0, 0] : Fin 2 → Nat) a + S64x32.size a ≤ S64x32.size a
  h_S64x32 : 0 < S64x32.numel
  scatter_S100000_S1700000x1_S1700000_n_0_0_1_wf : ScatterDims.WF S100000 S1700000x1 S1700000 [] [0] [0] 1
  scatter_S64_S100000x1_S100000_n_0_0_1_wf : ScatterDims.WF S64 S100000x1 S100000 [] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x32_S64x32_1_0_0_1_n_n_wf : DotDims.WF S64x128 S128x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .bf16 = 32 ∨ (Rect.block (s := S100000x64) S5000x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x64x128.size a ≤ S2x64x128.size a
  hwx2_4 : ∀ i : grid2.Coords, EltTy.bits .f32 = 32 ∨ (Rect.block (s := S2x64x128) S1x64x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x32.size a ≤ S128x32.size a
  hwx3_1 : ∀ i : grid3.Coords, EltTy.bits .f32 = 32 ∨ (Rect.block (s := S128x32) S128x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v63) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S64x32.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S64 : Shape := ⟨1, ![64]⟩
abbrev S64x1 : Shape := ⟨2, ![64, 1]⟩
abbrev S64x32 : Shape := ⟨2, ![64, 32]⟩
abbrev S1x32 : Shape := ⟨2, ![1, 32]⟩

abbrev nBuf : Space → Nat
  | .hbm => 134
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S128x32, .f32⟩
  | 8 => ⟨S32, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S100000x128, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000, .f32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x128, .f32⟩
  | 101 => ⟨S1700000x1, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S_, .f32⟩
  | 115 => ⟨S64x128, .f32⟩
  | 116 => ⟨S100000x1, .i32⟩
  | 117 => ⟨S64x128, .f32⟩
  | 118 => ⟨S_, .f32⟩
  | 119 => ⟨S100000, .f32⟩
  | 120 => ⟨S_, .f32⟩
  | 121 => ⟨S64, .f32⟩
  | 122 => ⟨S100000x1, .i32⟩
  | 123 => ⟨S64, .f32⟩
  | 124 => ⟨S_, .f32⟩
  | 125 => ⟨S64, .f32⟩
  | 126 => ⟨S64, .f32⟩
  | 127 => ⟨S64x1, .f32⟩
  | _ => ⟨S100000x64, .f32⟩

abbrev hbmTy0_1 (i : Nat) : BufTy := match i % 128 with
  | 0 => ⟨S64x128, .f32⟩
  | 1 => ⟨S64x128, .f32⟩
  | 2 => ⟨S64x32, .f32⟩
  | 3 => ⟨S1x32, .f32⟩
  | 4 => ⟨S64x32, .f32⟩
  | 5 => ⟨S64x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_17 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  scatter_S100000_S1700000x1_S1700000_n_0_0_1_wf : ScatterDims.WF S100000 S1700000x1 S1700000 [] [0] [0] 1
  dot_S100000x64_S64x128_S100000x128_1_0_0_1_n_n_wf : DotDims.WF S100000x64 S64x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x32_S64x32_1_0_0_1_n_n_wf : DotDims.WF S64x128 S128x32 S64x32 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

class Facts : Prop extends Facts₀ where

variable [Facts]
-- ==== Proof.Spec.lean ====
/-
  A two-layer graph convolution with mean pooling and a linear head, as ONE function of the argument arrays, written over
  coordinates. Nodes are rows `n < 100000`; messages are `e < 1700000` (the edges followed by one self loop per node); a
  message carries a destination word `dst e` and a source word `sn e` (already counted from the end when negative).
    * `rowOf v`      — the row a gather reads at start word `v`: read signed, clamped into the rows.
    * `agg dst sn h` — `(n, k) ↦ 0 + ∑ over the messages e whose destination word reads n, h (rowOf (sn e)) k`:
                        what a scatter-add of the gathered rows leaves (a message whose destination is no row is dropped).
    * `scaled d h`   — every row times its node's coefficient; `act d b raw` — `max (raw · d + b) 0`.
    * `lin1`, `lin2` — the dense transforms, sums over the contracted axis.
    * `pool bt h`    — `(g, k) ↦ 0 + ∑ over the nodes whose graph word reads g, h n k`; `poolHalf` the same sum written
                        as the one-hot product over one half of the rows, ten blocks of 5000 rows, block by block.
    * `head`         — the mean (`/ max cnt 1`) through the last dense layer plus its bias.
  The laws: the scatter-add and the row gather read at an index; the LAYER LAW — a coefficient that is a non-negative
  real moves out of the aggregation, `∑ₑ h(sₑ)·(d(sₑ)·d(n)) = (∑ₑ h(sₑ)·d(sₑ))·d(n)`, on the extended reals, where multiplying by a
  non-negative real distributes over every sum —; and the POOLING LAW — the one-hot product summed over both halves is the
  sum over the nodes of the graph.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.Gcn

open Idealize.ShloMosaic Idealize.ShloMosaic.ValueIdx

/-- The f32 words `+0.0` and `1.0` as extended reals. -/
abbrev zero : EReal := Ideal.ofBits .f32 0x00000000#32
abbrev one : EReal := Ideal.ofBits .f32 0x3F800000#32

/-- The row a gather reads at the start word `v`: read signed and clamped into the 100000 rows. -/
def rowOf (v : BitVec 32) : Fin 100000 := ⟨min v.toInt.toNat (100000 - 1), by omega⟩

/-- An index word counted from the end when negative (what array indexing does before a gather). -/
def wrapNeg (v : BitVec 32) : BitVec 32 := Scalar.select (IntOp.cmpi .slt v 0#32) (IntOp.addi v 100000#32) v

/-- The messages whose destination word reads row `n`. -/
abbrev into (dst : Fin 1700000 → BitVec 32) (n : Fin 100000) : Finset (Fin 1700000) :=
  Finset.univ.filter fun e => (dst e).toInt = (n.val : ℤ)

/-- The nodes whose graph word reads `g`. -/
abbrev ofGraph (bt : Fin 100000 → BitVec 32) (g : Fin 64) : Finset (Fin 100000) :=
  Finset.univ.filter fun n => (bt n).toInt = (g.val : ℤ)

/-- The first dense transform. -/
def lin1 (x : Fin 100000 → Fin 64 → EReal) (W : Fin 64 → Fin 128 → EReal) (n : Fin 100000) (k : Fin 128) : EReal :=
  ∑ j : Fin 64, x n j * W j k

/-- The second dense transform. -/
def lin2 (h : Fin 100000 → Fin 128 → EReal) (W : Fin 128 → Fin 128 → EReal) (n : Fin 100000) (k : Fin 128) : EReal :=
  ∑ j : Fin 128, h n j * W j k

/-- Every row times its node's coefficient. -/
def scaled (d : Fin 100000 → EReal) (h : Fin 100000 → Fin 128 → EReal) (n : Fin 100000) (k : Fin 128) : EReal :=
  h n k * d n

/-- The aggregation: row `n` collects the source rows of the messages that land on it. -/
def agg (dst sn : Fin 1700000 → BitVec 32) (h : Fin 100000 → Fin 128 → EReal) (n : Fin 100000) (k : Fin 128) : EReal :=
  zero + ∑ e ∈ into dst n, h (rowOf (sn e)) k

/-- Destination-side coefficient, bias, rectifier. -/
def act (d : Fin 100000 → EReal) (b : Fin 128 → EReal) (raw : Fin 100000 → Fin 128 → EReal) (n : Fin 100000) (k : Fin 128) : EReal :=
  max (raw n k * d n + b k) zero

/-- The sum of the rows of each graph. -/
def pool (bt : Fin 100000 → BitVec 32) (h : Fin 100000 → Fin 128 → EReal) (g : Fin 64) (k : Fin 128) : EReal :=
  zero + ∑ n ∈ ofGraph bt g, h n k

/-- Row `r` of block `i` of half `c`. -/
def rowAt (c : Fin 2) (i : Fin 10) (r : Fin 5000) : Fin 100000 := ⟨(c.val * 10 + i.val) * 5000 + r.val, by omega⟩

/-- One half's pooled sum as the one-hot product, block after block: zero, then each block's `∑ᵣ oh(row, g) · h(row, k)` added. -/
def poolHalf (oh : Fin 100000 → Fin 64 → EReal) (h : Fin 100000 → Fin 128 → EReal) (c : Fin 2) (g : Fin 64) (k : Fin 128) : EReal :=
  zero + ∑ i : Fin 10, ∑ r : Fin 5000, oh (rowAt c i r) g * h (rowAt c i r) k

/-- The last dense layer with its bias. -/
def lin3 (p : Fin 64 → Fin 128 → EReal) (Wl : Fin 128 → Fin 32 → EReal) (bl : Fin 32 → EReal) (g : Fin 64) (o : Fin 32) : EReal :=
  (∑ k : Fin 128, p g k * Wl k o) + bl o

/-- The mean through the last dense layer, plus its bias. -/
def head (cnt : Fin 64 → EReal) (Wl : Fin 128 → Fin 32 → EReal) (bl : Fin 32 → EReal) (p : Fin 64 → Fin 128 → EReal)
    (g : Fin 64) (o : Fin 32) : EReal :=
  lin3 (fun g k => Ideal.div (p g k) (max (cnt g) one)) Wl bl g o

/-- The second layer's activations, from the arguments. -/
def hidden (x : Fin 100000 → Fin 64 → EReal) (W1 : Fin 64 → Fin 128 → EReal) (b1 : Fin 128 → EReal)
    (W2 : Fin 128 → Fin 128 → EReal) (b2 : Fin 128 → EReal) (dst sn : Fin 1700000 → BitVec 32) (d : Fin 100000 → EReal) :
    Fin 100000 → Fin 128 → EReal :=
  act d b2 (agg dst sn (scaled d (lin2 (act d b1 (agg dst sn (scaled d (lin1 x W1)))) W2)))

/-- THE RESULT, from the arguments: two graph-convolution layers, the mean over each graph, the linear head. -/
def out (x : Fin 100000 → Fin 64 → EReal) (W1 : Fin 64 → Fin 128 → EReal) (b1 : Fin 128 → EReal)
    (W2 : Fin 128 → Fin 128 → EReal) (b2 : Fin 128 → EReal) (Wl : Fin 128 → Fin 32 → EReal) (bl : Fin 32 → EReal)
    (dst sn : Fin 1700000 → BitVec 32) (d : Fin 100000 → EReal) (bt : Fin 100000 → BitVec 32) (cnt : Fin 64 → EReal)
    (g : Fin 64) (o : Fin 32) : EReal :=
  head cnt Wl bl (pool bt (hidden x W1 b1 W2 b2 dst sn d)) g o

/-! ## A scatter-add and a row gather read at an index -/

/-- A float scatter-add of a VECTOR of updates along the one axis of a vector, one start word per update (the indices a
    column): element `n` is the operand's plus the updates whose start word reads `n`. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e ∈ Finset.univ.filter (fun e : Fin E => (idx (ix2 e (0 : Fin 1))).toInt = (n.val : ℤ)), upd (ix1 e) := by
  have hstart : ∀ (j : (⟨1, ![E]⟩ : Shape).Idx) (a : Fin 1), d.start j idx a = (idx (ix2 (j 0) (0 : Fin 1))).toInt := by
    intro j a
    obtain rfl : a = 0 := Subsingleton.elim _ _
    unfold ScatterDims.start
    have hm : (0 : Fin 1) ∈ d.scatterDimsToOperandDims := by rw [hsd]; exact List.mem_singleton.mpr rfl
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hiv])]
      apply Fin.ext
      show List.idxOf (0 : Fin 1) d.scatterDimsToOperandDims = 0
      rw [hsd]; simp
  have hwin : ∀ (j : (⟨1, ![E]⟩ : Shape).Idx) (a : Fin 1), d.window j a = 0 := by
    intro j a
    obtain rfl : a = 0 := Subsingleton.elim _ _
    unfold ScatterDims.window
    rw [dif_neg]
    simp [ScatterDims.sKept, Shape.kept, hiw]
  have key : ∀ j : (⟨1, ![E]⟩ : Shape).Idx,
      d.resultIdx? j idx = some (ix1 n) ↔ (idx (ix2 (j 0) (0 : Fin 1))).toInt = (n.val : ℤ) := by
    intro j
    have hsz : ((⟨1, ![N]⟩ : Shape).size (0 : Fin 1) : ℤ) = (N : ℤ) := rfl
    unfold ScatterDims.resultIdx?
    constructor
    · intro h
      split at h
      · rename_i hc
        have h' := Option.some.inj h
        have h0 : (d.start j idx 0 + (d.window j 0 : ℤ)).toNat = n.val := congrArg (fun f => (f (0 : Fin 1)).val) h'
        have hc0 := hc 0
        rw [hstart j 0, hwin j 0] at h0 hc0
        simp only [Nat.cast_zero, add_zero] at h0 hc0
        omega
      · exact absurd h (by simp)
    · intro h
      have hc : ∀ a, 0 ≤ d.start j idx a + (d.window j a : ℤ) ∧ d.start j idx a + (d.window j a : ℤ) < ((⟨1, ![N]⟩ : Shape).size a : ℤ) := by
        intro a
        obtain rfl : a = 0 := Subsingleton.elim _ _
        rw [hstart, hwin, hsz, h]
        have := n.isLt
        simp only [Nat.cast_zero, add_zero]
        omega
      rw [dif_pos hc]
      congr 1
      funext a
      obtain rfl : a = 0 := Subsingleton.elim _ _
      apply Fin.ext
      show (d.start j idx 0 + (d.window j 0 : ℤ)).toNat = n.val
      rw [hstart, hwin, h]
      simp
  unfold Ideal.hostScatterAdd
  congr 1
  refine Finset.sum_bij' (fun j _ => j 0) (fun e _ => ix1 e) ?_ ?_ ?_ ?_ ?_
  · intro j hj
    exact Finset.mem_filter.mpr ⟨Finset.mem_univ _, (key j).mp (Finset.mem_filter.mp hj).2⟩
  · intro e he
    exact Finset.mem_filter.mpr ⟨Finset.mem_univ _, (key (ix1 e)).mpr (Finset.mem_filter.mp he).2⟩
  · intro j _
    exact (eq_ix1 j).symm
  · intro e _
    rfl
  · intro j _
    exact congrArg upd (eq_ix1 j)

/-- A float scatter-add of ROWS along the first axis of a matrix, one start word per row of updates: element `(n, k)` is
    the operand's plus the updates' column `k` over the rows whose start word reads `n`. -/
theorem scatterAdd_rows_apply {N E H w : Nat} (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1)
    (x : (⟨2, ![N, H]⟩ : Shape).Idx → EReal) (idx : IVec ⟨2, ![E, 1]⟩ w) (upd : (⟨2, ![E, H]⟩ : Shape).Idx → EReal)
    (n : Fin N) (k : Fin H) :
    Ideal.hostScatterAdd d x idx upd (ix2 n k)
      = x (ix2 n k) + ∑ e ∈ Finset.univ.filter (fun e : Fin E => (idx (ix2 e (0 : Fin 1))).toInt = (n.val : ℤ)), upd (ix2 e k) := by
  have huS : ∀ X ∈ d.uScatter, X = (0 : Fin 2) := by
    intro X hX
    simp only [ScatterDims.uScatter, Shape.kept, huw, List.mem_filter, List.mem_finRange, true_and, List.mem_singleton,
      decide_eq_true_eq] at hX
    match X with
    | ⟨0, _⟩ => rfl
    | ⟨1, _⟩ => exact absurd rfl hX
  have huW : ∀ X ∈ d.updateWindowDims, X = (1 : Fin 2) := by
    intro X hX; rw [huw] at hX; exact List.mem_singleton.mp hX
  have h0K : (0 : Fin 2) ∉ d.sKept := by
    simp [ScatterDims.sKept, Shape.kept, hiw]
  have h1K : (1 : Fin 2) ∈ d.sKept := by
    simp [ScatterDims.sKept, Shape.kept, hiw]
  have hstart0 : ∀ (j : (⟨2, ![E, H]⟩ : Shape).Idx), d.start j idx 0 = (idx (ix2 (j 0) (0 : Fin 1))).toInt := by
    intro j
    unfold ScatterDims.start
    have hm : (0 : Fin 2) ∈ d.scatterDimsToOperandDims := by rw [hsd]; exact List.mem_singleton.mpr rfl
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      exact congrArg (fun X => (j X).val) (huS _ (List.getElem_mem _))
    | ⟨1, _⟩ =>
      unfold ScatterDims.siIdx
      rw [dif_pos (by rw [hiv])]
      apply Fin.ext
      show List.idxOf (0 : Fin 2) d.scatterDimsToOperandDims = 0
      rw [hsd]; simp
  have hstart1 : ∀ (j : (⟨2, ![E, H]⟩ : Shape).Idx), d.start j idx 1 = 0 := by
    intro j
    unfold ScatterDims.start
    rw [dif_neg (by rw [hsd]; simp)]
  have hwin0 : ∀ (j : (⟨2, ![E, H]⟩ : Shape).Idx), d.window j 0 = 0 := by
    intro j
    unfold ScatterDims.window
    rw [dif_neg h0K]
  have hwin1 : ∀ (j : (⟨2, ![E, H]⟩ : Shape).Idx), d.window j 1 = (j 1).val := by
    intro j
    unfold ScatterDims.window
    rw [dif_pos h1K]
    exact congrArg (fun X => (j X).val) (huW _ (List.getElem_mem _))
  have key : ∀ j : (⟨2, ![E, H]⟩ : Shape).Idx,
      d.resultIdx? j idx = some (ix2 n k) ↔ ((idx (ix2 (j 0) (0 : Fin 1))).toInt = (n.val : ℤ) ∧ j 1 = k) := by
    intro j
    have hsz0 : ((⟨2, ![N, H]⟩ : Shape).size (0 : Fin 2) : ℤ) = (N : ℤ) := rfl
    have hsz1 : ((⟨2, ![N, H]⟩ : Shape).size (1 : Fin 2) : ℤ) = (H : ℤ) := rfl
    unfold ScatterDims.resultIdx?
    constructor
    · intro h
      split at h
      · rename_i hc
        have h' := Option.some.inj h
        have e0 : (d.start j idx 0 + (d.window j 0 : ℤ)).toNat = n.val := congrArg (fun f => (f (0 : Fin 2)).val) h'
        have e1 : (d.start j idx 1 + (d.window j 1 : ℤ)).toNat = k.val := congrArg (fun f => (f (1 : Fin 2)).val) h'
        have hc0 := hc 0
        rw [hstart0 j, hwin0 j] at e0 hc0
        rw [hstart1 j, hwin1 j] at e1
        simp only [Nat.cast_zero, add_zero, zero_add, Int.toNat_natCast] at e0 hc0 e1
        exact ⟨by omega, Fin.ext e1⟩
      · exact absurd h (by simp)
    · rintro ⟨h, hk⟩
      have hc : ∀ a, 0 ≤ d.start j idx a + (d.window j a : ℤ) ∧ d.start j idx a + (d.window j a : ℤ) < ((⟨2, ![N, H]⟩ : Shape).size a : ℤ) := by
        intro a
        match a with
        | ⟨0, _⟩ =>
          show 0 ≤ d.start j idx 0 + (d.window j 0 : ℤ) ∧ d.start j idx 0 + (d.window j 0 : ℤ) < ((⟨2, ![N, H]⟩ : Shape).size (0 : Fin 2) : ℤ)
          rw [hstart0, hwin0, hsz0, h]
          have := n.isLt
          simp only [Nat.cast_zero, add_zero]
          omega
        | ⟨1, _⟩ =>
          show 0 ≤ d.start j idx 1 + (d.window j 1 : ℤ) ∧ d.start j idx 1 + (d.window j 1 : ℤ) < ((⟨2, ![N, H]⟩ : Shape).size (1 : Fin 2) : ℤ)
          rw [hstart1, hwin1, hsz1]
          have h1 : (j 1).val < H := (j 1).isLt
          omega
      rw [dif_pos hc]
      congr 1
      funext a
      apply Fin.ext
      match a with
      | ⟨0, _⟩ =>
        show (d.start j idx 0 + (d.window j 0 : ℤ)).toNat = n.val
        rw [hstart0, hwin0, h]; simp
      | ⟨1, _⟩ =>
        show (d.start j idx 1 + (d.window j 1 : ℤ)).toNat = k.val
        rw [hstart1, hwin1, ← hk]; simp
  unfold Ideal.hostScatterAdd
  congr 1
  refine Finset.sum_bij' (fun j _ => j 0) (fun e _ => ix2 e k) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e k)).mpr ⟨(Finset.mem_filter.mp he).2, rfl⟩⟩
  · intro j hj
    have hk := ((key j).mp (Finset.mem_filter.mp hj).2).2
    show ix2 (j 0) k = j
    rw [← hk]; exact (eq_ix2 j).symm
  · intro e _
    rfl
  · intro j hj
    have hk := ((key j).mp (Finset.mem_filter.mp hj).2).2
    show upd j = upd (ix2 (j 0) k)
    rw [← hk]; exact congrArg upd (eq_ix2 j)

/-- A gather of whole ROWS of a matrix, one start word per result row: element `(e, k)` is the operand's column `k` at the
    row the start word reads, signed and clamped into the rows. -/
theorem gather_rows_apply {α : Type} {N E H w : Nat} (hN : 0 < N) (d : GatherDims ⟨2, ![N, H]⟩ ⟨2, ![E, 1]⟩ ⟨2, ![E, H]⟩)
    (hoff : d.offsetDims = [1]) (hcoll : d.collapsedSliceDims = [0]) (hob : d.operandBatchingDims = [])
    (hsim : d.startIndexMap = [0]) (hivd : d.indexVectorDim = 1) (hss : d.sliceSizes = ![1, H])
    (x : (⟨2, ![N, H]⟩ : Shape).Idx → α) (idx : IVec ⟨2, ![E, 1]⟩ w) (e : Fin E) (k : Fin H) :
    Host.gather d x idx (ix2 e k)
      = x (ix2 (⟨min (idx (ix2 e (0 : Fin 1))).toInt.toNat (N - 1), by omega⟩ : Fin N) k) := by
  have hbD : ∀ X ∈ d.batchDims, X = (0 : Fin 2) := by
    intro X hX
    simp only [GatherDims.batchDims, Shape.kept, hoff, List.mem_filter, List.mem_finRange, true_and, List.mem_singleton,
      decide_eq_true_eq] at hX
    match X with
    | ⟨0, _⟩ => rfl
    | ⟨1, _⟩ => exact absurd rfl hX
  have hoD : ∀ X ∈ d.offsetDims, X = (1 : Fin 2) := by
    intro X hX; rw [hoff] at hX; exact List.mem_singleton.mp hX
  have hb : ∀ a : Fin 2, a ∉ d.operandBatchingDims := by intro a; rw [hob]; exact List.not_mem_nil
  have h0K : (0 : Fin 2) ∉ d.sKept := by rw [GatherDims.mem_sKept, hcoll]; simp
  have h1K : (1 : Fin 2) ∈ d.sKept := by rw [GatherDims.mem_sKept, hcoll, hob]; simp
  unfold Host.gather
  congr 1
  funext a
  apply Fin.ext
  match a with
  | ⟨0, _⟩ =>
    show d.start (ix2 e k) idx 0 + d.batchCoord (ix2 e k) 0 + d.offCoord (ix2 e k) 0 = min (idx (ix2 e (0 : Fin 1))).toInt.toNat (N - 1)
    rw [GatherDims.batchCoord_eq_zero _ _ _ (hb 0), GatherDims.offCoord_eq_zero _ _ _ h0K]
    simp only [Nat.add_zero]
    unfold GatherDims.start
    have hm : (0 : Fin 2) ∈ d.startIndexMap := by rw [hsim]; exact List.mem_singleton.mpr rfl
    rw [dif_pos hm]
    have hsl : d.sliceSizes 0 = 1 := by rw [hss]; rfl
    rw [hsl]
    show min (idx _).toInt.toNat (N - 1) = _
    congr 3
    congr 1
    funext b
    match b with
    | ⟨0, _⟩ =>
      unfold GatherDims.siIdx
      rw [dif_neg (by rw [hivd]; simp)]
      unfold GatherDims.siCoord
      apply Fin.ext
      simp only [Fin.val_cast]
      exact congrArg (fun X => ((ix2 e k : (⟨2, ![E, H]⟩ : Shape).Idx) X).val) (hbD _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    show d.start (ix2 e k) idx 1 + d.batchCoord (ix2 e k) 1 + d.offCoord (ix2 e k) 1 = k.val
    rw [GatherDims.batchCoord_eq_zero _ _ _ (hb 1)]
    have hs1 : d.start (ix2 e k) idx 1 = 0 := by
      unfold GatherDims.start
      rw [dif_neg (by rw [hsim]; simp)]
    rw [hs1]
    simp only [Nat.add_zero, Nat.zero_add]
    unfold GatherDims.offCoord
    rw [dif_pos h1K]
    exact congrArg (fun X => ((ix2 e k : (⟨2, ![E, H]⟩ : Shape).Idx) X).val) (hoD _ (List.getElem_mem _))

/-! ## The words -/

/-- A destination word that reads a row is not negative, so counting it from the end changes nothing, and the row a
    gather reads at it is that row. -/
theorem rowOf_wrapNeg_of_toInt (v : BitVec 32) (n : Fin 100000) (h : v.toInt = (n.val : ℤ)) : rowOf (wrapNeg v) = n := by
  have hn : ¬ v.slt 0#32 = true := by
    rw [BitVec.slt_iff_toInt_lt, h]
    simp
  have hw : wrapNeg v = v := by
    unfold wrapNeg Scalar.select IntOp.cmpi
    rw [if_neg]
    simp [hn]
  rw [hw]
  apply Fin.ext
  show min v.toInt.toNat (100000 - 1) = n.val
  rw [h]
  have := n.isLt
  simp only [Int.toNat_natCast]
  omega

/-! ## The layer law -/

/-- Multiplying by a non-negative real distributes over a finite sum of extended reals. -/
theorem sum_mul_coe_nonneg {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- THE LAYER LAW. With coefficients that are non-negative reals, the aggregation of the rows weighted message by message
    by `d(source) · d(destination)` is the aggregation of the rows scaled by their own coefficient, times the destination's. -/
theorem layer_law (dst sn : Fin 1700000 → BitVec 32) (d : Fin 100000 → EReal)
    (hd : ∀ n, ∃ r : ℝ, 0 ≤ r ∧ d n = (r : EReal)) (h : Fin 100000 → Fin 128 → EReal) (n : Fin 100000) (k : Fin 128) :
    zero + ∑ e ∈ into dst n, h (rowOf (sn e)) k * (d (rowOf (sn e)) * d (rowOf (wrapNeg (dst e))))
      = agg dst sn (scaled d h) n k * d n := by
  obtain ⟨r, hr, hdn⟩ := hd n
  unfold agg scaled
  rw [show (zero : EReal) = 0 from Ideal.ofBits_zero_f32, zero_add, zero_add, hdn, sum_mul_coe_nonneg _ _ r hr]
  refine Finset.sum_congr rfl fun e he => ?_
  have hde : (dst e).toInt = (n.val : ℤ) := (Finset.mem_filter.mp he).2
  rw [rowOf_wrapNeg_of_toInt (dst e) n hde, hdn, mul_assoc]

/-! ## The pooling law -/

/-- A sum over the rows is the sum over the two halves, each half's ten blocks, each block's 5000 rows. -/
theorem sum_rows (F : Fin 100000 → EReal) :
    ∑ n : Fin 100000, F n = ∑ c : Fin 2, ∑ i : Fin 10, ∑ r : Fin 5000, F (rowAt c i r) := by
  let e : (Fin 2 × Fin 10) × Fin 5000 ≃ Fin 100000 :=
    ((finProdFinEquiv (m := 2) (n := 10)).prodCongr (Equiv.refl (Fin 5000))).trans (finProdFinEquiv (m := 2 * 10) (n := 5000))
  rw [← Equiv.sum_comp e F, Fintype.sum_prod_type, Fintype.sum_prod_type]
  refine Finset.sum_congr rfl fun c _ => Finset.sum_congr rfl fun i _ => Finset.sum_congr rfl fun r _ => ?_
  congr 1
  apply Fin.ext
  show r.val + 5000 * (i.val + 10 * c.val) = (c.val * 10 + i.val) * 5000 + r.val
  ring

/-- THE POOLING LAW. With `oh n g` one where node `n`'s graph word is `g` and zero elsewhere, the one-hot products summed
    over both halves of the rows are the sum over the nodes of the graph. -/
theorem pool_law (bt : Fin 100000 → BitVec 32) (oh : Fin 100000 → Fin 64 → EReal)
    (hoh : ∀ n g, oh n g = if bt n = BitVec.ofNat 32 g.val then (1 : EReal) else 0)
    (h : Fin 100000 → Fin 128 → EReal) (g : Fin 64) (k : Fin 128) :
    poolHalf oh h 0 g k + poolHalf oh h 1 g k = pool bt h g k := by
  have hword : ∀ n, bt n = BitVec.ofNat 32 g.val ↔ (bt n).toInt = (g.val : ℤ) := by
    intro n
    have hg : (BitVec.ofNat 32 g.val).toInt = (g.val : ℤ) := by
      have hlt := g.isLt
      have hn : (BitVec.ofNat 32 g.val).toNat = g.val := by rw [BitVec.toNat_ofNat]; omega
      rw [BitVec.toInt_eq_toNat_of_lt (by rw [hn]; omega), hn]
    constructor
    · intro e; rw [e, hg]
    · intro e; exact BitVec.eq_of_toInt_eq (by rw [e, hg])
  have hterm : ∀ n, oh n g * h n k = if (bt n).toInt = (g.val : ℤ) then h n k else 0 := by
    intro n
    rw [hoh n g]
    by_cases hb : bt n = BitVec.ofNat 32 g.val
    · rw [if_pos hb, if_pos ((hword n).mp hb), one_mul]
    · rw [if_neg hb, if_neg (fun e => hb ((hword n).mpr e)), zero_mul]
  unfold poolHalf pool
  rw [show (zero : EReal) = 0 from Ideal.ofBits_zero_f32, zero_add, zero_add, zero_add]
  simp only [hterm]
  rw [Finset.sum_filter, sum_rows (fun n => if (bt n).toInt = (g.val : ℤ) then h n k else 0), Fin.sum_univ_two]

/-- The degree coefficient of a count is a non-negative real: `where(deg > 0, rsqrt deg, 0)` at a natural number. -/
theorem coeff_nonneg_real (m : ℕ) :
    ∃ r : ℝ, 0 ≤ r ∧ Scalar.select (Ideal.cmp .ogt ((m : ℝ) : EReal) zero) (Ideal.rsqrt ((m : ℝ) : EReal)) zero = (r : EReal) := by
  rw [show (zero : EReal) = 0 from Ideal.ofBits_zero_f32]
  by_cases hm : m = 0
  · subst hm
    refine ⟨0, le_refl _, ?_⟩
    simp [Scalar.select, Ideal.cmp]
  · have hpos : (0 : ℝ) < (m : ℝ) := by exact_mod_cast Nat.pos_of_ne_zero hm
    refine ⟨(Real.sqrt (m : ℝ))⁻¹, inv_nonneg.mpr (Real.sqrt_nonneg _), ?_⟩
    have hc : Ideal.cmp .ogt ((m : ℝ) : EReal) 0 = 1#1 := by
      have : (0 : EReal) < ((m : ℝ) : EReal) := by exact_mod_cast hpos
      simp [Ideal.cmp, this, Nat.pos_of_ne_zero hm]
    rw [hc, ValueIdx.select_one, Ideal.rsqrt_coe, if_neg (not_lt.mpr hpos.le), if_neg hpos.ne']

end Cert.Gcn

end
-- ==== Proof.KRegion0.lean ====
/- The first call's result array, at the ideal values, from the arrays the call finds: row `n`, column `k` is the dense
   transform `∑ⱼ x(n, j) · W(j, k)` times the node's coefficient (the one-column array's entry at row `n`). -/
import proofs.«414723_j3659312136457_3_alg».proof.Proof.Gen.KernelIdeal.Frame
import proofs.«414723_j3659312136457_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-! The steps towards the first call's array, in a namespace of their own. -/
namespace Region0

/-! ## The first call's product, axis by axis -/

theorem lhs0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A block product into the zero accumulator, at row `r` and column `k`: the sum over the 64 contracted columns. -/
theorem matmul0_apply (a : FVec Ideal S5000x64 .bf16) (b : FVec Ideal S64x128 .bf16) (r : Fin 5000) (k : Fin 128) :
    matmul dot_S5000x64_S64x128_S5000x128_1_0_0_1_n_n none a b (constant S5000x128 .f32 0x00000000#32) (ix2 r k)
      = ∑ j : Fin 64, a (ix2 r j) * b (ix2 j k) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun j _ => ?_
  have hj := ValueIdx.contrEquiv1_symm_val dot_S5000x64_S64x128_S5000x128_1_0_0_1_n_n 64 rfl rfl j
  have el : dot_S5000x64_S64x128_S5000x128_1_0_0_1_n_n.lhsIdx (ix2 r k) ((ValueIdx.contrEquiv1 dot_S5000x64_S64x128_S5000x128_1_0_0_1_n_n 64 rfl rfl).symm j) = ix2 r j := funext fun a => Fin.ext (by
    match a with
    | ⟨0, _⟩ => exact lhs0_0 _ _
    | ⟨1, _⟩ => exact (lhs0_1 _ _).trans hj)
  have er : dot_S5000x64_S64x128_S5000x128_1_0_0_1_n_n.rhsIdx (ix2 r k) ((ValueIdx.contrEquiv1 dot_S5000x64_S64x128_S5000x128_1_0_0_1_n_n 64 rfl rfl).symm j) = ix2 j k := funext fun a => Fin.ext (by
    match a with
    | ⟨0, _⟩ => exact (rhs0_0 _ _).trans hj
    | ⟨1, _⟩ => exact rhs0_1 _ _)
  rw [el, er]

/-- The coefficient column spread over the 128 columns reads, at row `r`, its one entry of that row. -/
theorem spread0_apply (d : FVec Ideal S5000x1 .f32) (r : Fin 5000) (k : Fin 128) :
    broadcastTo S5000x128 d broadcasts_S5000x1_S5000x128 (ix2 r k) = d (ix2 r (0 : Fin 1)) := by
  refine broadcastTo_apply d broadcasts_S5000x1_S5000x128 (ix2 r k) (ix2 r (0 : Fin 1)) fun a => ?_
  match a with
  | ⟨0, _⟩ => rfl
  | ⟨1, _⟩ => rfl

/-- THE BODY'S ARITHMETIC at row `r`, column `k` of a block: the row of `x` against the column of `W`, times the row's coefficient. -/
theorem pay0_apply (x0 : Vec Ideal S5000x64 .f32) (x1 : Vec Ideal S64x128 .f32) (x2 : Vec Ideal S5000x1 .f32) (r : Fin 5000) (k : Fin 128) :
    k0_pay1 (F := Ideal) x0 x1 x2 (ix2 r k) = (∑ j : Fin 64, x0 (ix2 r j) * x1 (ix2 j k)) * x2 (ix2 r (0 : Fin 1)) := by
  unfold k0_pay1
  rw [truncf_apply, mulf_apply, matmul0_apply, spread0_apply, shapeCast_self, shapeCast_self]
  rfl

variable (V : (c : Dev nD) → (b : Ref sig .tc) → Buf (Elt Ideal) ((c : Thread nD τ).loc b))

/-! ## From blocks to the array -/

theorem hz0 : (![0, 0] : Fin 2 → Nat) = fun _ => 0 := funext fun a => by fin_cases a <;> rfl

/-- The index maps over the 20 grid points: the blocks of `x`, of the coefficient column and of the result move down
    the rows with the point; the weights' block is the whole matrix at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The blocks of the three operands at point `t`, named at their literal types. -/
abbrev xblk (c : Dev nD) (t : Fin cfg0.N) : Vec Ideal S5000x64 .f32 := iblk0 V c 0 t
abbrev wblk (c : Dev nD) (t : Fin cfg0.N) : Vec Ideal S64x128 .f32 := iblk0 V c 1 t
abbrev dblk (c : Dev nD) (t : Fin cfg0.N) : Vec Ideal S5000x1 .f32 := iblk0 V c 2 t

/-- Row `r` of `x`'s block at point `t` is row `5000·t + r` of `x`. -/
theorem xblk_apply (c : Dev nD) (t : Fin cfg0.N) (r : Fin 5000) (j : Fin 64) (n : Fin 100000)
    (hn : n.val = 5000 * t.val + r.val) :
    xblk V c t (ix2 r j) = V c main_arg0 (ix2 n j) := by
  obtain ⟨e0, e1, -⟩ := idx_facts0 t
  unfold xblk iblk0
  rw [View.read_apply]
  show V c main_arg0 _ = V c main_arg0 _
  congr 1
  funext a
  apply Fin.ext
  match a with
  | ⟨0, _⟩ => show win0_0.index t (0 : Fin 2) * 5000 + 1 * r.val = n.val; rw [e0, hn]; omega
  | ⟨1, _⟩ => show win0_0.index t (1 : Fin 2) * 64 + 1 * j.val = j.val; rw [e1]; omega

/-- The weights' block at every point is the whole matrix. -/
theorem wblk_apply (c : Dev nD) (t : Fin cfg0.N) (j : Fin 64) (k : Fin 128) :
    wblk V c t (ix2 j k) = V c main_arg3 (ix2 j k) := by
  obtain ⟨-, -, e0, e1, -⟩ := idx_facts0 t
  unfold wblk iblk0
  rw [View.read_apply]
  show V c main_arg3 _ = V c main_arg3 _
  congr 1
  funext a
  apply Fin.ext
  match a with
  | ⟨0, _⟩ => show win0_1.index t (0 : Fin 2) * 64 + 1 * j.val = j.val; rw [e0]; omega
  | ⟨1, _⟩ => show win0_1.index t (1 : Fin 2) * 128 + 1 * k.val = k.val; rw [e1]; omega

/-- Row `r` of the coefficient column's block at point `t` is row `5000·t + r` of the column. -/
theorem dblk_apply (c : Dev nD) (t : Fin cfg0.N) (r : Fin 5000) (n : Fin 100000)
    (hn : n.val = 5000 * t.val + r.val) :
    dblk V c t (ix2 r (0 : Fin 1)) = V c main_v15 (ix2 n (0 : Fin 1)) := by
  obtain ⟨-, -, -, -, e0, e1, -⟩ := idx_facts0 t
  unfold dblk iblk0
  rw [View.read_apply]
  show V c main_v15 _ = V c main_v15 _
  congr 1
  funext a
  apply Fin.ext
  match a with
  | ⟨0, _⟩ => show win0_2.index t (0 : Fin 2) * 5000 + 1 * r.val = n.val; rw [e0, hn]; omega
  | ⟨1, _⟩ => show win0_2.index t (1 : Fin 2) * 1 + 1 * (0 : Fin 1).val = (0 : Fin 1).val; rw [e1]; rfl

/-- The whole result as ONE function of the arrays the call finds: row by row, the dense transform times the row's coefficient. -/
def res0 (c : Dev nD) : S100000x128.Idx → EReal := fun i =>
  Gcn.scaled (fun n => V c main_v15 (ix2 n (0 : Fin 1)))
    (Gcn.lin1 (fun n j => V c main_arg0 (ix2 n j)) (fun j k => V c main_arg3 (ix2 j k)))
    ⟨(i 0).val, idx2_lt0 i⟩ ⟨(i 1).val, idx2_lt1 i⟩

/-- WHAT POINT `t` WRITES BACK is block `t` of that function: rows `5000·t … 5000·t + 4999`. -/
theorem flushed0_eq (c : Dev nD) (t : Fin cfg0.N) :
    (dat0 (F := Ideal) V c).flushed 3 t = ((cfg0.win 3).blk t).view.read (Elt Ideal) (res0 V c) := by
  show (cfg0.win 3).cut (grid0.coords t) ((dat0 (F := Ideal) V c).after 3 t) = _
  rw [after0_3]
  unfold out0_3
  rw [View.canon_unit_zero hz0]
  simp only [View.ld_unit_zero (S := S5000x64) hz0, View.ld_unit_zero (S := S64x128) hz0, View.ld_unit_zero (S := S5000x1) hz0]
  obtain ⟨-, -, -, -, -, -, e0, e1⟩ := idx_facts0 t
  funext y
  obtain ⟨r, k, rfl⟩ : ∃ (r : Fin 5000) (k : Fin 128), y = ix2 r k := ⟨y 0, y 1, eq_ix2 y⟩
  have hr : r.val < 5000 := r.isLt
  have ht : t.val < 20 := by have := t.isLt; have hN : cfg0.N = 20 := N_0; omega
  show k0_pay1 (F := Ideal) (xblk V c t) (wblk V c t) (dblk V c t) (ix2 r k) = res0 V c (((cfg0.win 3).blk t).view.emb (ix2 r k))
  refine (pay0_apply (xblk V c t) (wblk V c t) (dblk V c t) r k).trans ?_
  have hn : (⟨5000 * t.val + r.val, by omega⟩ : Fin 100000).val = 5000 * t.val + r.val := rfl
  rw [dblk_apply V c t r ⟨5000 * t.val + r.val, by omega⟩ hn]
  rw [Finset.sum_congr rfl fun j _ => by rw [xblk_apply V c t r j ⟨5000 * t.val + r.val, by omega⟩ hn, wblk_apply V c t j k]]
  unfold res0 Gcn.scaled Gcn.lin1
  have a0 : (⟨((((cfg0.win 3).blk t).view.emb (ix2 r k)) 0).val, idx2_lt0 _⟩ : Fin 100000) = ⟨5000 * t.val + r.val, by omega⟩ :=
    Fin.ext (by show win0_3.index t (0 : Fin 2) * 5000 + 1 * r.val = 5000 * t.val + r.val; rw [e0]; omega)
  have a1 : (⟨((((cfg0.win 3).blk t).view.emb (ix2 r k)) 1).val, idx2_lt1 _⟩ : Fin 128) = k :=
    Fin.ext (by show win0_3.index t (1 : Fin 2) * 128 + 1 * k.val = k.val; rw [e1]; omega)
  rw [a0, a1]

/-- An index of the result is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v27).slice (win0_3.rect t)).set ↔ _
  rw [View.set_slice_whole, Rect.mem_set_unit]
  exact Iff.rfl

/-- Row `n` is written by point `n / 5000`. -/
theorem cover0 (i : S100000x128.Idx) :
    ∃ t : Fin cfg0.N, (cfg0.win 3).flush t = true ∧ i ∈ ((cfg0.win 3).blk t).view.set := by
  have h0 : (i 0).val < 100000 := idx2_lt0 i
  have h1 : (i 1).val < 128 := idx2_lt1 i
  refine ⟨⟨(i 0).val / 5000, by rw [show cfg0.N = 20 from N_0]; omega⟩, flush0_3 _, ?_⟩
  obtain ⟨-, -, -, -, -, -, e0, e1⟩ := idx_facts0 ⟨(i 0).val / 5000, by rw [show cfg0.N = 20 from N_0]; omega⟩
  rw [mem_blk0]
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e1]; omega

/-- THE ARRAY the first call leaves is that function. -/
theorem final0 (c : Dev nD) : (dat0 (F := Ideal) V c).arrAt 3 cfg0.N = res0 V c :=
  (dat0 (F := Ideal) V c).arrAt_eq_of_cover 3 (res0 V c) (fun t _ => flushed0_eq V c t) cover0

end Region0

variable (V : (c : Dev nD) → (b : Ref sig .tc) → Buf (Elt Ideal) ((c : Thread nD τ).loc b))

/-- The array the first call leaves, index by index. -/
theorem region0_value (c : Dev nD) (n : Fin 100000) (k : Fin 128) :
    (dat0 (F := Ideal) V c).arrAt 3 cfg0.N (ix2 n k)
      = Gcn.scaled (fun n => V c main_v15 (ix2 n (0 : Fin 1)))
          (Gcn.lin1 (fun n j => V c main_arg0 (ix2 n j)) (fun j k => V c main_arg3 (ix2 j k))) n k := by
  rw [Region0.final0]
  rfl

end Cert.KernelIdeal.Regions

end
-- ==== Proof.KRegion1.lean ====
/- The second call's result array, at the ideal values, from the arrays the call finds: the aggregated rows times the
   node's coefficient, plus the bias, rectified; through the second dense transform; times the node's coefficient again. -/
import proofs.«414723_j3659312136457_3_alg».proof.Proof.Gen.KernelIdeal.Frame
import proofs.«414723_j3659312136457_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-! The steps towards the second call's array, in a namespace of their own. -/
namespace Region1

/-! ## The second call's product, axis by axis -/

theorem lhs1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at row `r` and column `k`: the sum over the 128 contracted columns. -/
theorem matmul1_apply (a : FVec Ideal S5000x128 .bf16) (b : FVec Ideal S128x128 .bf16) (r : Fin 5000) (k : Fin 128) :
    matmul dot_S5000x128_S128x128_S5000x128_1_0_0_1_n_n none a b (constant S5000x128 .f32 0x00000000#32) (ix2 r k)
      = ∑ j : Fin 128, a (ix2 r j) * b (ix2 j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun j _ => ?_
  have hj := ValueIdx.contrEquiv1_symm_val dot_S5000x128_S128x128_S5000x128_1_0_0_1_n_n 128 rfl rfl j
  have el : dot_S5000x128_S128x128_S5000x128_1_0_0_1_n_n.lhsIdx (ix2 r k) ((ValueIdx.contrEquiv1 dot_S5000x128_S128x128_S5000x128_1_0_0_1_n_n 128 rfl rfl).symm j) = ix2 r j := funext fun a => Fin.ext (by
    match a with
    | ⟨0, _⟩ => exact lhs1_0 _ _
    | ⟨1, _⟩ => exact (lhs1_1 _ _).trans hj)
  have er : dot_S5000x128_S128x128_S5000x128_1_0_0_1_n_n.rhsIdx (ix2 r k) ((ValueIdx.contrEquiv1 dot_S5000x128_S128x128_S5000x128_1_0_0_1_n_n 128 rfl rfl).symm j) = ix2 j k := funext fun a => Fin.ext (by
    match a with
    | ⟨0, _⟩ => exact (rhs1_0 _ _).trans hj
    | ⟨1, _⟩ => exact rhs1_1 _ _)
  rw [el, er]

/-- The coefficient column spread over the 128 columns reads, at row `r`, its one entry of that row. -/
theorem spreadCol1_apply (d : FVec Ideal S5000x1 .f32) (r : Fin 5000) (k : Fin 128) :
    broadcastTo S5000x128 d broadcasts_S5000x1_S5000x128 (ix2 r k) = d (ix2 r (0 : Fin 1)) := by
  refine broadcastTo_apply d broadcasts_S5000x1_S5000x128 (ix2 r k) (ix2 r (0 : Fin 1)) fun a => ?_
  match a with
  | ⟨0, _⟩ => rfl
  | ⟨1, _⟩ => rfl

/-- The bias row spread down the 5000 rows reads, at column `k`, its one entry of that column. -/
theorem spreadRow1_apply (b : FVec Ideal S1x128 .f32) (r : Fin 5000) (k : Fin 128) :
    broadcastTo S5000x128 b broadcasts_S1x128_S5000x128 (ix2 r k) = b (ix2 (0 : Fin 1) k) := by
  refine broadcastTo_apply b broadcasts_S1x128_S5000x128 (ix2 r k) (ix2 (0 : Fin 1) k) fun a => ?_
  match a with
  | ⟨0, _⟩ => rfl
  | ⟨1, _⟩ => rfl

/-- THE BODY'S ARITHMETIC at row `r`, column `k` of a block: the rectified row (each raw entry times the row's coefficient,
    plus the bias) against the column of the weights, times the row's coefficient. -/
theorem pay1_apply (x0 : Vec Ideal S5000x1 .f32) (x1 : Vec Ideal S5000x128 .f32) (x2 : Vec Ideal S1x128 .f32)
    (x3 : Vec Ideal S128x128 .f32) (x4 : Vec Ideal S5000x1 .f32) (r : Fin 5000) (k : Fin 128) :
    k1_pay1 (F := Ideal) x0 x1 x2 x3 x4 (ix2 r k)
      = (∑ j : Fin 128, max (x1 (ix2 r j) * x0 (ix2 r (0 : Fin 1)) + x2 (ix2 (0 : Fin 1) j)) Gcn.zero * x3 (ix2 j k)) * x4 (ix2 r (0 : Fin 1)) := by
  unfold k1_pay1
  simp only [shapeCast_self]
  rw [truncf_apply, mulf_apply, matmul1_apply, spreadCol1_apply]
  congr 1
  refine Finset.sum_congr rfl fun j _ => ?_
  rw [truncf_apply, truncf_apply, maximumf_apply, addf_apply, mulf_apply, spreadCol1_apply, spreadRow1_apply]
  rfl

variable (V : (c : Dev nD) → (b : Ref sig .tc) → Buf (Elt Ideal) ((c : Thread nD τ).loc b))

/-! ## From blocks to the array -/

theorem hz1 : (![0, 0] : Fin 2 → Nat) = fun _ => 0 := funext fun a => by fin_cases a <;> rfl

/-- The index maps over the 20 grid points: the blocks of the raw rows, of the coefficient column and of the result move
    down the rows with the point; the bias row's and the weights' blocks are the whole arrays at every point. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The blocks of the four operands at point `t`, named at their literal types. -/
abbrev rawblk (c : Dev nD) (t : Fin cfg1.N) : Vec Ideal S5000x128 .f32 := iblk1 V c 0 t
abbrev colblk (c : Dev nD) (t : Fin cfg1.N) : Vec Ideal S5000x1 .f32 := iblk1 V c 1 t
abbrev biasblk (c : Dev nD) (t : Fin cfg1.N) : Vec Ideal S1x128 .f32 := iblk1 V c 2 t
abbrev w2blk (c : Dev nD) (t : Fin cfg1.N) : Vec Ideal S128x128 .f32 := iblk1 V c 3 t

/-- Row `r` of the raw rows' block at point `t` is row `5000·t + r` of the raw array. -/
theorem rawblk_apply (c : Dev nD) (t : Fin cfg1.N) (r : Fin 5000) (j : Fin 128) (n : Fin 100000)
    (hn : n.val = 5000 * t.val + r.val) :
    rawblk V c t (ix2 r j) = V c main_v38 (ix2 n j) := by
  obtain ⟨e0, e1, -⟩ := idx_facts1 t
  unfold rawblk iblk1
  rw [View.read_apply]
  show V c main_v38 _ = V c main_v38 _
  congr 1
  funext a
  apply Fin.ext
  match a with
  | ⟨0, _⟩ => show win1_0.index t (0 : Fin 2) * 5000 + 1 * r.val = n.val; rw [e0, hn]; omega
  | ⟨1, _⟩ => show win1_0.index t (1 : Fin 2) * 128 + 1 * j.val = j.val; rw [e1]; omega

/-- Row `r` of the coefficient column's block at point `t` is row `5000·t + r` of the column. -/
theorem colblk_apply (c : Dev nD) (t : Fin cfg1.N) (r : Fin 5000) (n : Fin 100000)
    (hn : n.val = 5000 * t.val + r.val) :
    colblk V c t (ix2 r (0 : Fin 1)) = V c main_v15 (ix2 n (0 : Fin 1)) := by
  obtain ⟨-, -, e0, e1, -⟩ := idx_facts1 t
  unfold colblk iblk1
  rw [View.read_apply]
  show V c main_v15 _ = V c main_v15 _
  congr 1
  funext a
  apply Fin.ext
  match a with
  | ⟨0, _⟩ => show win1_1.index t (0 : Fin 2) * 5000 + 1 * r.val = n.val; rw [e0, hn]; omega
  | ⟨1, _⟩ => show win1_1.index t (1 : Fin 2) * 1 + 1 * (0 : Fin 1).val = (0 : Fin 1).val; rw [e1]; rfl

/-- The bias row's block at every point is the whole row. -/
theorem biasblk_apply (c : Dev nD) (t : Fin cfg1.N) (j : Fin 128) :
    biasblk V c t (ix2 (0 : Fin 1) j) = V c main_v39 (ix2 (0 : Fin 1) j) := by
  obtain ⟨-, -, -, -, e0, e1, -⟩ := idx_facts1 t
  unfold biasblk iblk1
  rw [View.read_apply]
  show V c main_v39 _ = V c main_v39 _
  congr 1
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 128 + 1 * j.val = j.val; rw [e1]; omega

/-- The weights' block at every point is the whole matrix. -/
theorem w2blk_apply (c : Dev nD) (t : Fin cfg1.N) (j : Fin 128) (k : Fin 128) :
    w2blk V c t (ix2 j k) = V c main_arg5 (ix2 j k) := by
  obtain ⟨-, -, -, -, -, -, e0, e1, -⟩ := idx_facts1 t
  unfold w2blk iblk1
  rw [View.read_apply]
  show V c main_arg5 _ = V c main_arg5 _
  congr 1
  funext a
  apply Fin.ext
  match a with
  | ⟨0, _⟩ => show win1_3.index t (0 : Fin 2) * 128 + 1 * j.val = j.val; rw [e0]; omega
  | ⟨1, _⟩ => show win1_3.index t (1 : Fin 2) * 128 + 1 * k.val = k.val; rw [e1]; omega

/-- The whole result as ONE function of the arrays the call finds: row by row, the rectified row through the second dense
    transform, times the row's coefficient. -/
def res1 (c : Dev nD) : S100000x128.Idx → EReal := fun i =>
  Gcn.scaled (fun n => V c main_v15 (ix2 n (0 : Fin 1)))
    (Gcn.lin2 (Gcn.act (fun n => V c main_v15 (ix2 n (0 : Fin 1))) (fun k => V c main_v39 (ix2 (0 : Fin 1) k))
        (fun n k => V c main_v38 (ix2 n k)))
      (fun j k => V c main_arg5 (ix2 j k)))
    ⟨(i 0).val, idx2_lt0 i⟩ ⟨(i 1).val, idx2_lt1 i⟩

/-- WHAT POINT `t` WRITES BACK is block `t` of that function: rows `5000·t … 5000·t + 4999`. -/
theorem flushed1_eq (c : Dev nD) (t : Fin cfg1.N) :
    (dat1 (F := Ideal) V c).flushed 4 t = ((cfg1.win 4).blk t).view.read (Elt Ideal) (res1 V c) := by
  show (cfg1.win 4).cut (grid1.coords t) ((dat1 (F := Ideal) V c).after 4 t) = _
  rw [after1_4]
  unfold out1_4
  rw [View.canon_unit_zero hz1]
  simp only [View.ld_unit_zero (S := S5000x128) hz1, View.ld_unit_zero (S := S5000x1) hz1, View.ld_unit_zero (S := S1x128) hz1, View.ld_unit_zero (S := S128x128) hz1]
  obtain ⟨-, -, -, -, -, -, -, -, e0, e1⟩ := idx_facts1 t
  funext y
  obtain ⟨r, k, rfl⟩ : ∃ (r : Fin 5000) (k : Fin 128), y = ix2 r k := ⟨y 0, y 1, eq_ix2 y⟩
  have hr : r.val < 5000 := r.isLt
  have ht : t.val < 20 := by have := t.isLt; have hN : cfg1.N = 20 := N_1; omega
  show k1_pay1 (F := Ideal) (colblk V c t) (rawblk V c t) (biasblk V c t) (w2blk V c t) (colblk V c t) (ix2 r k) = res1 V c (((cfg1.win 4).blk t).view.emb (ix2 r k))
  refine (pay1_apply (colblk V c t) (rawblk V c t) (biasblk V c t) (w2blk V c t) (colblk V c t) r k).trans ?_
  have hn : (⟨5000 * t.val + r.val, by omega⟩ : Fin 100000).val = 5000 * t.val + r.val := rfl
  rw [colblk_apply V c t r ⟨5000 * t.val + r.val, by omega⟩ hn]
  rw [Finset.sum_congr rfl fun j _ => by rw [rawblk_apply V c t r j ⟨5000 * t.val + r.val, by omega⟩ hn, biasblk_apply V c t j, w2blk_apply V c t j k]]
  unfold res1 Gcn.scaled Gcn.lin2 Gcn.act
  have a0 : (⟨((((cfg1.win 4).blk t).view.emb (ix2 r k)) 0).val, idx2_lt0 _⟩ : Fin 100000) = ⟨5000 * t.val + r.val, by omega⟩ :=
    Fin.ext (by show win1_4.index t (0 : Fin 2) * 5000 + 1 * r.val = 5000 * t.val + r.val; rw [e0]; omega)
  have a1 : (⟨((((cfg1.win 4).blk t).view.emb (ix2 r k)) 1).val, idx2_lt1 _⟩ : Fin 128) = k :=
    Fin.ext (by show win1_4.index t (1 : Fin 2) * 128 + 1 * k.val = k.val; rw [e1]; omega)
  rw [a0, a1]

/-- An index of the result is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v40).slice (win1_4.rect t)).set ↔ _
  rw [View.set_slice_whole, Rect.mem_set_unit]
  exact Iff.rfl

/-- Row `n` is written by point `n / 5000`. -/
theorem cover1 (i : S100000x128.Idx) :
    ∃ t : Fin cfg1.N, (cfg1.win 4).flush t = true ∧ i ∈ ((cfg1.win 4).blk t).view.set := by
  have h0 : (i 0).val < 100000 := idx2_lt0 i
  have h1 : (i 1).val < 128 := idx2_lt1 i
  refine ⟨⟨(i 0).val / 5000, by rw [show cfg1.N = 20 from N_1]; omega⟩, flush1_4 _, ?_⟩
  obtain ⟨-, -, -, -, -, -, -, -, e0, e1⟩ := idx_facts1 ⟨(i 0).val / 5000, by rw [show cfg1.N = 20 from N_1]; omega⟩
  rw [mem_blk1]
  intro a
  match a with
  | ⟨0, _⟩ => show win1_4.index _ (0 : Fin 2) * 5000 ≤ (i 0).val ∧ (i 0).val < win1_4.index _ (0 : Fin 2) * 5000 + 5000; rw [e0]; show (i 0).val / 5000 * 5000 ≤ (i 0).val ∧ (i 0).val < (i 0).val / 5000 * 5000 + 5000; omega
  | ⟨1, _⟩ => show win1_4.index _ (1 : Fin 2) * 128 ≤ (i 1).val ∧ (i 1).val < win1_4.index _ (1 : Fin 2) * 128 + 128; rw [e1]; omega

/-- THE ARRAY the second call leaves is that function. -/
theorem final1 (c : Dev nD) : (dat1 (F := Ideal) V c).arrAt 4 cfg1.N = res1 V c :=
  (dat1 (F := Ideal) V c).arrAt_eq_of_cover 4 (res1 V c) (fun t _ => flushed1_eq V c t) cover1

end Region1

variable (V : (c : Dev nD) → (b : Ref sig .tc) → Buf (Elt Ideal) ((c : Thread nD τ).loc b))

/-- The array the second call leaves, index by index. -/
theorem region1_value (c : Dev nD) (n : Fin 100000) (k : Fin 128) :
    (dat1 (F := Ideal) V c).arrAt 4 cfg1.N (ix2 n k)
      = Gcn.scaled (fun n => V c main_v15 (ix2 n (0 : Fin 1)))
          (Gcn.lin2 (Gcn.act (fun n => V c main_v15 (ix2 n (0 : Fin 1))) (fun k => V c main_v39 (ix2 (0 : Fin 1) k))
              (fun n k => V c main_v38 (ix2 n k)))
            (fun j k => V c main_arg5 (ix2 j k))) n k := by
  rw [Region1.final1]
  rfl

end Cert.KernelIdeal.Regions

end
-- ==== Proof.KRegion2.lean ====
/- The third call's result array, at the ideal values, from the arrays the call finds: for each half of the rows, the
   one-hot product of the rectified second-layer rows, accumulated over the half's ten blocks from a zero block. -/
import proofs.«414723_j3659312136457_3_alg».proof.Proof.Gen.KernelIdeal.Frame
import proofs.«414723_j3659312136457_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-! ## What one run of the body leaves in the staging buffer -/

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that is not the first of its half, the body leaves the accumulating payload over what the buffer held. -/
theorem out_B {F : FTy → Type} [FloatOps F] (c : Dev nD) (i : grid2.Coords)
    (arg2 : Memref sig .tc .vmem S5000x128 .f32) (harg2 : arg2.IsWhole) (arg3 : Memref sig .tc .vmem S5000x1 .f32) (harg3 : arg3.IsWhole)
    (arg4 : Memref sig .tc .vmem S1x128 .f32) (harg4 : arg4.IsWhole) (arg5 : Memref sig .tc .vmem S5000x64 .bf16) (harg5 : arg5.IsWhole)
    (arg6 : Memref sig .tc .vmem S1x64x128 .f32) (harg6 : arg6.IsWhole) (hc0 : ¬cond2_0 i)
    (x0 : Vec F S5000x128 .f32) (x1 : Vec F S5000x1 .f32) (x2 : Vec F S1x128 .f32) (x3 : Vec F S5000x64 .bf16) (xo : Vec F S1x64x128 .f32) :
    out2_B_4 c i arg2 harg2 arg3 harg3 arg4 harg4 arg5 harg5 arg6 harg6 hc0 x0 x1 x2 x3 xo = k2_pay2 x1 x0 x2 x3 xo := by
  unfold out2_B_4
  rw [View.read_writes_eq_canon _ _ _ (cover2_B_4 c i arg2 harg2 arg3 harg3 arg4 harg4 arg5 harg5 arg6 harg6 hc0 x0 x1 x2 x3 xo)]
  unfold kernelRun2_B
  dsimp only
  sl_unfold_words
  rw [View.canon_unit_zero hz3]
  simp only [View.readAt_eq_ld, harg2.read_unread, harg3.read_unread, harg4.read_unread, harg5.read_unread, harg6.read_unread,
    View.ld_unit_zero (S := S5000x128) hz2, View.ld_unit_zero (S := S5000x1) hz2, View.ld_unit_zero (S := S1x128) hz2,
    View.ld_unit_zero (S := S5000x64) hz2, View.ld_unit_zero (S := S1x64x128) hz3]

/-- At the first point of a half, the body first stores the zero block, so the accumulating payload is over that. -/
theorem out_A {F : FTy → Type} [FloatOps F] (c : Dev nD) (i : grid2.Coords)
    (arg2 : Memref sig .tc .vmem S5000x128 .f32) (harg2 : arg2.IsWhole) (arg3 : Memref sig .tc .vmem S5000x1 .f32) (harg3 : arg3.IsWhole)
    (arg4 : Memref sig .tc .vmem S1x128 .f32) (harg4 : arg4.IsWhole) (arg5 : Memref sig .tc .vmem S5000x64 .bf16) (harg5 : arg5.IsWhole)
    (arg6 : Memref sig .tc .vmem S1x64x128 .f32) (harg6 : arg6.IsWhole) (hc0 : cond2_0 i)
    (x0 : Vec F S5000x128 .f32) (x1 : Vec F S5000x1 .f32) (x2 : Vec F S1x128 .f32) (x3 : Vec F S5000x64 .bf16) :
    out2_A_4 c i arg2 harg2 arg3 harg3 arg4 harg4 arg5 harg5 arg6 harg6 hc0 x0 x1 x2 x3 = k2_pay2 x1 x0 x2 x3 (k2_pay1 (F := F)) := by
  unfold out2_A_4
  rw [View.read_writes_eq_canon _ _ _ (cover2_A_4 c i arg2 harg2 arg3 harg3 arg4 harg4 arg5 harg5 arg6 harg6 hc0 x0 x1 x2 x3)]
  unfold kernelRun2_A
  dsimp only
  sl_unfold_words
  rw [View.canon_cons_unit_zero (S := S1x64x128) hz3]
  simp only [View.readAt_eq_ld, harg2.read_unread, harg3.read_unread, harg4.read_unread, harg5.read_unread,
    View.ld_unit_zero (S := S5000x128) hz2, View.ld_unit_zero (S := S5000x1) hz2, View.ld_unit_zero (S := S1x128) hz2,
    View.ld_unit_zero (S := S5000x64) hz2, View.readCov_unit_zero (S := S1x64x128) _ hz3]

/-! ## The payloads at an index -/

/-- The zero block reads the zero word everywhere. -/
theorem pay1_apply (g : Fin 64) (k : Fin 128) : k2_pay1 (F := Ideal) (ix3 (0 : Fin 1) g k) = Gcn.zero := rfl

/-- The one-hot product's dimension numbers: operand coordinates from the result's and the contraction's. -/
theorem lhs_dot_0 (j : S64x128.Idx) (q : dot_S5000x64_S5000x128_S64x128_0_0_1_1_n_n.contr.Idx) :
    (dot_S5000x64_S5000x128_S64x128_0_0_1_1_n_n.lhsIdx j q 0).val = (q ⟨0, by decide⟩).val :=
  dot_S5000x64_S5000x128_S64x128_0_0_1_1_n_n.lhsIdx_val_of_single rfl j q
theorem lhs_dot_1 (j : S64x128.Idx) (q : dot_S5000x64_S5000x128_S64x128_0_0_1_1_n_n.contr.Idx) :
    (dot_S5000x64_S5000x128_S64x128_0_0_1_1_n_n.lhsIdx j q 1).val = (j 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_dot_0 (j : S64x128.Idx) (q : dot_S5000x64_S5000x128_S64x128_0_0_1_1_n_n.contr.Idx) :
    (dot_S5000x64_S5000x128_S64x128_0_0_1_1_n_n.rhsIdx j q 0).val = (q ⟨0, by decide⟩).val :=
  dot_S5000x64_S5000x128_S64x128_0_0_1_1_n_n.rhsIdx_val_of_single rfl j q
theorem rhs_dot_1 (j : S64x128.Idx) (q : dot_S5000x64_S5000x128_S64x128_0_0_1_1_n_n.contr.Idx) :
    (dot_S5000x64_S5000x128_S64x128_0_0_1_1_n_n.rhsIdx j q 1).val = (j 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The product contracting the row axis of both blocks, into the zero accumulator, at `(g, k)`: the sum over the rows. -/
theorem matmul_rows_apply (l : FVec Ideal S5000x64 .bf16) (r : FVec Ideal S5000x128 .bf16) (g : Fin 64) (k : Fin 128) :
    FloatOps.matmul dot_S5000x64_S5000x128_S64x128_0_0_1_1_n_n none l r (constant S64x128 .f32 0x00000000#32) (ix2 g k)
      = ∑ p : Fin 5000, l (ix2 p g) * r (ix2 p k) := by
  rw [Ideal.matmul_constant_zero_apply, ← Equiv.sum_comp (ValueIdx.contrEquiv1 dot_S5000x64_S5000x128_S64x128_0_0_1_1_n_n 5000 rfl rfl).symm]
  refine Finset.sum_congr rfl fun p _ => ?_
  have hp := ValueIdx.contrEquiv1_symm_val dot_S5000x64_S5000x128_S64x128_0_0_1_1_n_n 5000 rfl rfl p
  have el : dot_S5000x64_S5000x128_S64x128_0_0_1_1_n_n.lhsIdx (ix2 g k) ((ValueIdx.contrEquiv1 dot_S5000x64_S5000x128_S64x128_0_0_1_1_n_n 5000 rfl rfl).symm p) = ix2 p g := funext fun a => Fin.ext (by
    match a with
    | ⟨0, _⟩ => exact (lhs_dot_0 _ _).trans hp
    | ⟨1, _⟩ => exact lhs_dot_1 _ _)
  have er : dot_S5000x64_S5000x128_S64x128_0_0_1_1_n_n.rhsIdx (ix2 g k) ((ValueIdx.contrEquiv1 dot_S5000x64_S5000x128_S64x128_0_0_1_1_n_n 5000 rfl rfl).symm p) = ix2 p k := funext fun a => Fin.ext (by
    match a with
    | ⟨0, _⟩ => exact (rhs_dot_0 _ _).trans hp
    | ⟨1, _⟩ => exact rhs_dot_1 _ _)
  rw [el, er]

/-- A column `[a, 1]` broadcast to `[a, b]` reads, at `(p, c)`, the column's entry of row `p`. -/
theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The accumulating payload at `(0, g, k)`: what the buffer held there plus the block's one-hot product of the rectified rows. -/
theorem pay2_apply (x0 : Vec Ideal S5000x128 .f32) (x1 : Vec Ideal S5000x1 .f32) (x2 : Vec Ideal S1x128 .f32)
    (x3 : Vec Ideal S5000x64 .bf16) (xo : Vec Ideal S1x64x128 .f32) (g : Fin 64) (k : Fin 128) :
    k2_pay2 (F := Ideal) x1 x0 x2 x3 xo (ix3 (0 : Fin 1) g k)
      = xo (ix3 (0 : Fin 1) g k)
        + ∑ p : Fin 5000, x3 (ix2 p g) * max (x0 (ix2 p k) * x1 (ix2 p (0 : Fin 1)) + x2 (ix2 (0 : Fin 1) k)) Gcn.zero := by
  unfold k2_pay2
  refine (shapeCast_ab_1ab_apply _ shapeCasts_S64x128_S1x64x128 (0 : Fin 1) g k).trans ?_
  refine (addf_apply _ _ (ix2 g k)).trans ?_
  refine congrArg₂ (· + ·) (shapeCast_1ab_ab_apply xo shapeCasts_S1x64x128_S64x128 g k) ?_
  refine (matmul_rows_apply _ _ g k).trans ?_
  refine Finset.sum_congr rfl fun p _ => ?_
  refine congrArg₂ (· * ·) (congrFun (shapeCast_self x3 shapeCasts_S5000x64_S5000x64) (ix2 p g)) ?_
  refine (truncf_apply (ψ := .bf16) _ bitsLt_bf16_f32 (ix2 p k)).trans ?_
  refine (maximumf_apply _ _ (ix2 p k)).trans ?_
  refine congrArg₂ max ?_ rfl
  refine (addf_apply _ _ (ix2 p k)).trans ?_
  refine congrArg₂ (· + ·) ?_ ?_
  · refine (mulf_apply _ _ (ix2 p k)).trans ?_
    refine congrArg₂ (· * ·) (congrFun (shapeCast_self x0 shapeCasts_S5000x128_S5000x128) (ix2 p k)) ?_
    refine (bcast_col_apply _ broadcasts_S5000x1_S5000x128 p k).trans ?_
    rw [shapeCast_self, shapeCast_self]
  · refine (broadcastTo_1b_ab_apply _ broadcasts_S1x128_S5000x128 p k).trans ?_
    rw [shapeCast_self]

/-! ## The blocks a point reads, as parts of the arrays

Point `t` reads rows `5000·t …` of the raw rows, of the coefficient column and of the one-hot columns, and the whole bias row;
its output block is bank `t / 10`. -/

/-- The printed index maps, decided over the twenty points. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 3) = t.val / 10 ∧ win2_4.index t (1 : Fin 3) = 0 ∧ win2_4.index t (2 : Fin 3) = 0 :=
  (by decide +kernel : ∀ t : Fin grid2.N, _)

/-- The four input blocks of point `t`, at their literal types. -/
abbrev xb0 (c : Dev nD) (t : Fin cfg2.N) : Vec Ideal S5000x128 .f32 := iblk2 V c 0 t
abbrev xb1 (c : Dev nD) (t : Fin cfg2.N) : Vec Ideal S5000x1 .f32 := iblk2 V c 1 t
abbrev xb2 (c : Dev nD) (t : Fin cfg2.N) : Vec Ideal S1x128 .f32 := iblk2 V c 2 t
abbrev xb3 (c : Dev nD) (t : Fin cfg2.N) : Vec Ideal S5000x64 .bf16 := iblk2 V c 3 t

/-- Row `p` of point `t`'s raw block is row `5000·t + p` of the raw rows. -/
theorem xb0_apply (c : Dev nD) (t : Fin cfg2.N) (p : Fin 5000) (k : Fin 128) (n : Fin 100000) (hn : n.val = t.val * 5000 + p.val) :
    xb0 V c t (ix2 p k) = V c main_v51 (ix2 n k) := by
  show ((cfg2.win 0).blk t).view.read (Elt Ideal) (V c (Pipeline.arrRef spec2 0)) (ix2 p k) = _
  rw [View.read_apply]
  show V c main_v51 (((cfg2.win 0).blk t).view.emb (ix2 p k)) = V c main_v51 (ix2 n k)
  refine congrArg (V c main_v51) (funext fun a => Fin.ext ?_)
  obtain ⟨e0, e1, -⟩ := idx_facts t
  match a with
  | ⟨0, _⟩ => show win2_0.index t (0 : Fin 2) * 5000 + 1 * p.val = n.val; rw [e0, hn]; omega
  | ⟨1, _⟩ => show win2_0.index t (1 : Fin 2) * 128 + 1 * k.val = k.val; rw [e1]; omega

/-- Row `p` of point `t`'s coefficient block is the coefficient of row `5000·t + p`. -/
theorem xb1_apply (c : Dev nD) (t : Fin cfg2.N) (p : Fin 5000) (n : Fin 100000) (hn : n.val = t.val * 5000 + p.val) :
    xb1 V c t (ix2 p (0 : Fin 1)) = V c main_v15 (ix2 n (0 : Fin 1)) := by
  show ((cfg2.win 1).blk t).view.read (Elt Ideal) (V c (Pipeline.arrRef spec2 1)) (ix2 p (0 : Fin 1)) = _
  rw [View.read_apply]
  show V c main_v15 (((cfg2.win 1).blk t).view.emb (ix2 p (0 : Fin 1))) = V c main_v15 (ix2 n (0 : Fin 1))
  refine congrArg (V c main_v15) (funext fun a => Fin.ext ?_)
  obtain ⟨-, -, e0, e1, -⟩ := idx_facts t
  match a with
  | ⟨0, _⟩ => show win2_1.index t (0 : Fin 2) * 5000 + 1 * p.val = n.val; rw [e0, hn]; omega
  | ⟨1, _⟩ => show win2_1.index t (1 : Fin 2) * 1 + 1 * 0 = 0; rw [e1]

/-- Every point's bias block is the bias row. -/
theorem xb2_apply (c : Dev nD) (t : Fin cfg2.N) (k : Fin 128) :
    xb2 V c t (ix2 (0 : Fin 1) k) = V c main_v52 (ix2 (0 : Fin 1) k) := by
  show ((cfg2.win 2).blk t).view.read (Elt Ideal) (V c (Pipeline.arrRef spec2 2)) (ix2 (0 : Fin 1) k) = _
  rw [View.read_apply]
  show V c main_v52 (((cfg2.win 2).blk t).view.emb (ix2 (0 : Fin 1) k)) = V c main_v52 (ix2 (0 : Fin 1) k)
  refine congrArg (V c main_v52) (funext fun a => Fin.ext ?_)
  obtain ⟨-, -, -, -, e0, e1, -⟩ := idx_facts t
  match a with
  | ⟨0, _⟩ => show win2_2.index t (0 : Fin 2) * 1 + 1 * 0 = 0; rw [e0]
  | ⟨1, _⟩ => show win2_2.index t (1 : Fin 2) * 128 + 1 * k.val = k.val; rw [e1]; omega

/-- Row `p` of point `t`'s one-hot block is row `5000·t + p` of the one-hot columns. -/
theorem xb3_apply (c : Dev nD) (t : Fin cfg2.N) (p : Fin 5000) (g : Fin 64) (n : Fin 100000) (hn : n.val = t.val * 5000 + p.val) :
    xb3 V c t (ix2 p g) = V c main_v26 (ix2 n g) := by
  show ((cfg2.win 3).blk t).view.read (Elt Ideal) (V c (Pipeline.arrRef spec2 3)) (ix2 p g) = _
  rw [View.read_apply]
  show V c main_v26 (((cfg2.win 3).blk t).view.emb (ix2 p g)) = V c main_v26 (ix2 n g)
  refine congrArg (V c main_v26) (funext fun a => Fin.ext ?_)
  obtain ⟨-, -, -, -, -, -, e0, e1, -⟩ := idx_facts t
  match a with
  | ⟨0, _⟩ => show win2_3.index t (0 : Fin 2) * 5000 + 1 * p.val = n.val; rw [e0, hn]; omega
  | ⟨1, _⟩ => show win2_3.index t (1 : Fin 2) * 64 + 1 * g.val = g.val; rw [e1]; omega

/-! ## One point's contribution -/

/-- The one-hot columns and the rectified second-layer rows, as functions of the row. -/
abbrev ohF (c : Dev nD) : Fin 100000 → Fin 64 → EReal := fun n g => V c main_v26 (ix2 n g)
abbrev actF (c : Dev nD) : Fin 100000 → Fin 128 → EReal :=
  Gcn.act (fun n => V c main_v15 (ix2 n (0 : Fin 1))) (fun k => V c main_v52 (ix2 (0 : Fin 1) k)) (fun n k => V c main_v51 (ix2 n k))

/-- Row `r` of the `p`-th block of 5000 rows (for every natural `p`; only `p < 20` is used). -/
def rowN (p : ℕ) (r : Fin 5000) : Fin 100000 := ⟨(p * 5000 + r.val) % 100000, Nat.mod_lt _ (by decide)⟩

theorem rowN_val (p : ℕ) (hp : p < 20) (r : Fin 5000) : (rowN p r).val = p * 5000 + r.val := by
  have := r.isLt
  show (p * 5000 + r.val) % 100000 = p * 5000 + r.val
  omega

/-- The `p`-th block's one-hot product at `(g, k)`. -/
def blockSum (c : Dev nD) (p : ℕ) (g : Fin 64) (k : Fin 128) : EReal :=
  ∑ r : Fin 5000, ohF V c (rowN p r) g * actF V c (rowN p r) k

/-- What point `t` adds to the buffer at `(0, g, k)`: its block's one-hot product. -/
theorem step_eq (c : Dev nD) (t : Fin cfg2.N) (xo : Vec Ideal S1x64x128 .f32) (g : Fin 64) (k : Fin 128) :
    k2_pay2 (F := Ideal) (xb1 V c t) (xb0 V c t) (xb2 V c t) (xb3 V c t) xo (ix3 (0 : Fin 1) g k)
      = xo (ix3 (0 : Fin 1) g k) + blockSum V c t.val g k := by
  have hN : t.val < 20 := lt_of_lt_of_eq t.isLt (show cfg2.N = 20 from N_2)
  refine (pay2_apply (xb0 V c t) (xb1 V c t) (xb2 V c t) (xb3 V c t) xo g k).trans ?_
  refine congrArg (xo (ix3 (0 : Fin 1) g k) + ·) (Finset.sum_congr rfl fun p _ => ?_)
  have hr := rowN_val t.val hN p
  rw [xb3_apply V c t p g (rowN t.val p) hr, xb0_apply V c t p k (rowN t.val p) hr, xb1_apply V c t p (rowN t.val p) hr,
    xb2_apply V c t k]
  rfl

/-- At a point that opens a half the buffer ends at the zero word plus that point's contribution. -/
theorem outs_A (c : Dev nD) (t : Fin cfg2.N) (h0 : t.val % 10 = 0) (g : Fin 64) (k : Fin 128) :
    outsAt2 V c t.val t.isLt (ix3 (0 : Fin 1) g k) = Gcn.zero + blockSum V c t.val g k := by
  rw [outsAt2_A V c t h0]
  refine (congrFun (out_A (F := Ideal) c (grid2.coords t) (ms2_0 t) (hs2_0 t) (ms2_1 t) (hs2_1 t) (ms2_2 t) (hs2_2 t) (ms2_3 t) (hs2_3 t)
    (ms2_4 t) (hs2_4 t) ((hcond2_0 t).mpr h0) (xb0 V c t) (xb1 V c t) (xb2 V c t) (xb3 V c t)) (ix3 (0 : Fin 1) g k)).trans ?_
  exact step_eq V c t (k2_pay1 (F := Ideal)) g k

/-- At every other point it ends at what the point before left plus that point's contribution. -/
theorem outs_B (c : Dev nD) (t : Fin cfg2.N) (h0 : ¬t.val % 10 = 0) (g : Fin 64) (k : Fin 128) :
    outsAt2 V c t.val t.isLt (ix3 (0 : Fin 1) g k)
      = outsAt2 V c (t.val - 1) (Nat.lt_of_le_of_lt (Nat.sub_le _ _) t.isLt) (ix3 (0 : Fin 1) g k) + blockSum V c t.val g k := by
  rw [outsAt2_B V c t h0]
  refine (congrFun (out_B (F := Ideal) c (grid2.coords t) (ms2_0 t) (hs2_0 t) (ms2_1 t) (hs2_1 t) (ms2_2 t) (hs2_2 t) (ms2_3 t) (hs2_3 t)
    (ms2_4 t) (hs2_4 t) (fun h => h0 ((hcond2_0 t).mp h)) (xb0 V c t) (xb1 V c t) (xb2 V c t) (xb3 V c t)
    (outsAt2 V c (t.val - 1) (Nat.lt_of_le_of_lt (Nat.sub_le _ _) t.isLt))) (ix3 (0 : Fin 1) g k)).trans ?_
  exact step_eq V c t (outsAt2 V c (t.val - 1) (Nat.lt_of_le_of_lt (Nat.sub_le _ _) t.isLt)) g k

/-! ## The running sum -/

/-- After point `n` the buffer holds the zero word plus the contributions of the points of `n`'s half up to `n`: on the
    extended reals addition is associative, so the sum built point by point is the sum over those points. -/
theorem outs_eq (c : Dev nD) : ∀ (n : ℕ) (hn : n < cfg2.N) (g : Fin 64) (k : Fin 128),
    outsAt2 V c n hn (ix3 (0 : Fin 1) g k)
      = Gcn.zero + ∑ s ∈ Finset.range (n % 10 + 1), blockSum V c (n - n % 10 + s) g k
  | 0, hn, g, k => by
    refine (outs_A V c ⟨0, hn⟩ rfl g k).trans ?_
    show Gcn.zero + blockSum V c 0 g k = Gcn.zero + ∑ s ∈ Finset.range 1, blockSum V c (0 + s) g k
    rw [Finset.sum_range_one]
  | n + 1, hn, g, k => by
    by_cases h0 : (n + 1) % 10 = 0
    · refine (outs_A V c ⟨n + 1, hn⟩ h0 g k).trans ?_
      show Gcn.zero + blockSum V c (n + 1) g k = _
      rw [h0, Finset.sum_range_one]
      rfl
    · refine (outs_B V c ⟨n + 1, hn⟩ h0 g k).trans ?_
      show outsAt2 V c n (Nat.lt_of_succ_lt hn) (ix3 (0 : Fin 1) g k) + blockSum V c (n + 1) g k = _
      rw [outs_eq c n (Nat.lt_of_succ_lt hn) g k]
      have e1 : (n + 1) % 10 = n % 10 + 1 := by omega
      have e2 : n + 1 - (n % 10 + 1) = n - n % 10 := by omega
      have e3 : n - n % 10 + (n % 10 + 1) = n + 1 := by omega
      rw [e1, e2, Finset.sum_range_succ _ (n % 10 + 1), e3, add_assoc]

/-- At the last point of half `h` the buffer holds the half's pooled sum. -/
theorem outs_last (c : Dev nD) (t : Fin cfg2.N) (h9 : t.val % 10 = 9) (h : Fin 2) (hh : h.val = t.val / 10) (g : Fin 64) (k : Fin 128) :
    outsAt2 V c t.val t.isLt (ix3 (0 : Fin 1) g k) = Gcn.poolHalf (ohF V c) (actF V c) h g k := by
  have hN : t.val < 20 := lt_of_lt_of_eq t.isLt (show cfg2.N = 20 from N_2)
  rw [outs_eq V c t.val t.isLt g k, h9, Finset.sum_range]
  show _ = Gcn.zero + ∑ i : Fin 10, ∑ r : Fin 5000, ohF V c (Gcn.rowAt h i r) g * actF V c (Gcn.rowAt h i r) k
  refine congrArg (Gcn.zero + ·) (Finset.sum_congr rfl fun i _ => Finset.sum_congr rfl fun r _ => ?_)
  have hi := i.isLt
  have er : rowN (t.val - 9 + i.val) r = Gcn.rowAt h i r := Fin.ext (by
    rw [rowN_val _ (by omega) r]
    show (t.val - 9 + i.val) * 5000 + r.val = (h.val * 10 + i.val) * 5000 + r.val
    omega)
  rw [er]

/-! ## The result array -/

/-- The result array's contents: bank `h` holds half `h`'s pooled sum. -/
abbrev result (c : Dev nD) : Buf (Elt Ideal) ((c : Thread nD τ).loc main_v53) := fun i =>
  Gcn.poolHalf (ohF V c) (actF V c) ⟨(i 0).val, (i 0).isLt⟩ ⟨(i 1).val, (i 1).isLt⟩ ⟨(i 2).val, (i 2).isLt⟩

/-- What the last point of a half writes back is that bank of the result. -/
theorem flushed_eq (c : Dev nD) (t : Fin cfg2.N) (hf : (cfg2.win 4).flush t = true) :
    (dat2 (F := Ideal) V c).flushed 4 t = ((cfg2.win 4).blk t).view.read (Elt Ideal) (result V c) := by
  have hN : t.val < 20 := lt_of_lt_of_eq t.isLt (show cfg2.N = 20 from N_2)
  have h9 : t.val % 10 = 9 := (flush2_4 t).mp hf
  show (cfg2.win 4).cut (grid2.coords t) ((dat2 (F := Ideal) V c).after 4 t) = _
  rw [after2_4]
  funext j
  rw [View.read_apply]
  have hj0 : (j 0).val = 0 := by have : (j 0).val < 1 := (j 0).isLt; omega
  have hj1 : (j 1).val < 64 := (j 1).isLt
  have hj2 : (j 2).val < 128 := (j 2).isLt
  obtain ⟨-, -, -, -, -, -, -, -, e0, e1, e2⟩ := idx_facts t
  have eL : (cfg2.win 4).xinj (grid2.coords t) j = ix3 (0 : Fin 1) (⟨(j 1).val, hj1⟩ : Fin 64) (⟨(j 2).val, hj2⟩ : Fin 128) :=
    funext fun a => Fin.ext (by
      match a with
      | ⟨0, _⟩ => exact hj0
      | ⟨1, _⟩ => rfl
      | ⟨2, _⟩ => rfl)
  have eR : ((cfg2.win 4).blk t).view.emb j
      = ix3 (⟨t.val / 10, by omega⟩ : Fin 2) (⟨(j 1).val, hj1⟩ : Fin 64) (⟨(j 2).val, hj2⟩ : Fin 128) :=
    funext fun a => Fin.ext (by
      match a with
      | ⟨0, _⟩ => show win2_4.index t (0 : Fin 3) * 1 + 1 * (j 0).val = t.val / 10; rw [e0, hj0]; omega
      | ⟨1, _⟩ => show win2_4.index t (1 : Fin 3) * 64 + 1 * (j 1).val = (j 1).val; rw [e1]; omega
      | ⟨2, _⟩ => show win2_4.index t (2 : Fin 3) * 128 + 1 * (j 2).val = (j 2).val; rw [e2]; omega)
  show outsAt2 V c t.val t.isLt ((cfg2.win 4).xinj (grid2.coords t) j) = result V c (((cfg2.win 4).blk t).view.emb j)
  rw [eL, eR]
  exact outs_last V c t h9 ⟨t.val / 10, by omega⟩ rfl ⟨(j 1).val, hj1⟩ ⟨(j 2).val, hj2⟩

/-- The two write-backs cover the array: bank `h` is written by point `10·h + 9`. -/
theorem final (c : Dev nD) : (dat2 (F := Ideal) V c).arrAt 4 cfg2.N = result V c :=
  (dat2 (F := Ideal) V c).arrAt_eq_of_cover 4 (result V c) (flushed_eq V c) fun i => by
    have hi0 : (i 0).val < 2 := (i 0).isLt
    have hi1 : (i 1).val < 64 := (i 1).isLt
    have hi2 : (i 2).val < 128 := (i 2).isLt
    have hN : cfg2.N = 20 := N_2
    have hlt : 10 * (i 0).val + 9 < cfg2.N := by omega
    refine ⟨⟨10 * (i 0).val + 9, hlt⟩, (flush2_4 _).mpr (by show (10 * (i 0).val + 9) % 10 = 9; omega), ?_⟩
    obtain ⟨-, -, -, -, -, -, -, -, e0, e1, e2⟩ := idx_facts ⟨10 * (i 0).val + 9, hlt⟩
    show i ∈ ((View.whole main_v53).slice (win2_4.rect ⟨10 * (i 0).val + 9, hlt⟩)).set
    rw [View.set_slice_whole, Rect.mem_set_unit]
    intro a
    match a with
    | ⟨0, _⟩ =>
      show win2_4.index ⟨10 * (i 0).val + 9, hlt⟩ (0 : Fin 3) * 1 ≤ (i 0).val ∧ (i 0).val < win2_4.index ⟨10 * (i 0).val + 9, hlt⟩ (0 : Fin 3) * 1 + 1
      rw [e0]; show (10 * (i 0).val + 9) / 10 * 1 ≤ (i 0).val ∧ (i 0).val < (10 * (i 0).val + 9) / 10 * 1 + 1; omega
    | ⟨1, _⟩ =>
      show win2_4.index ⟨10 * (i 0).val + 9, hlt⟩ (1 : Fin 3) * 64 ≤ (i 1).val ∧ (i 1).val < win2_4.index ⟨10 * (i 0).val + 9, hlt⟩ (1 : Fin 3) * 64 + 64
      rw [e1]; omega
    | ⟨2, _⟩ =>
      show win2_4.index ⟨10 * (i 0).val + 9, hlt⟩ (2 : Fin 3) * 128 ≤ (i 2).val ∧ (i 2).val < win2_4.index ⟨10 * (i 0).val + 9, hlt⟩ (2 : Fin 3) * 128 + 128
      rw [e2]; omega

/-- The array the third call leaves, index by index: bank `h`, graph `g`, column `k`. -/
theorem region2_value (c : Dev nD) (h : Fin 2) (g : Fin 64) (k : Fin 128) :
    (dat2 (F := Ideal) V c).arrAt 4 cfg2.N (ix3 h g k)
      = Gcn.poolHalf (fun n g => V c main_v26 (ix2 n g))
          (Gcn.act (fun n => V c main_v15 (ix2 n (0 : Fin 1))) (fun k => V c main_v52 (ix2 (0 : Fin 1) k))
            (fun n k => V c main_v51 (ix2 n k))) h g k := by
  exact congrFun (final V c) (ix3 h g k)

end Cert.KernelIdeal.Regions

end
-- ==== Proof.KRegion3.lean ====
/- The fourth call's result array, at the ideal values, from the arrays the call finds: the pooled rows through the last
   dense layer, plus its bias. -/
import proofs.«414723_j3659312136457_3_alg».proof.Proof.Gen.KernelIdeal.Frame
import proofs.«414723_j3659312136457_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-! ## The product at an index

The contraction is over the one shared axis: the left operand's axis 1 against the right operand's axis 0. The left
index keeps the result's row and takes the contracted coordinate as its column; the right index takes the contracted
coordinate as its row and keeps the result's column. -/

theorem lhs_dense3_0 (i : S64x32.Idx) (q : dot_S64x128_S128x32_S64x32_1_0_0_1_n_n.contr.Idx) :
    (dot_S64x128_S128x32_S64x32_1_0_0_1_n_n.lhsIdx i q 0).val = (i 0).val := by
  unfold DotDims.lhsIdx
  rw [dif_neg (show ¬(0 : Fin S64x128.rank) ∈ dot_S64x128_S128x32_S64x32_1_0_0_1_n_n.lhsBatch by decide), dif_pos (show (0 : Fin S64x128.rank) ∈ dot_S64x128_S128x32_S64x32_1_0_0_1_n_n.lhsNonContracting by decide)]
  rfl
theorem lhs_dense3_1 (i : S64x32.Idx) (q : dot_S64x128_S128x32_S64x32_1_0_0_1_n_n.contr.Idx) :
    (dot_S64x128_S128x32_S64x32_1_0_0_1_n_n.lhsIdx i q 1).val = (q ⟨0, by decide⟩).val :=
  dot_S64x128_S128x32_S64x32_1_0_0_1_n_n.lhsIdx_val_of_single rfl i q
theorem rhs_dense3_0 (i : S64x32.Idx) (q : dot_S64x128_S128x32_S64x32_1_0_0_1_n_n.contr.Idx) :
    (dot_S64x128_S128x32_S64x32_1_0_0_1_n_n.rhsIdx i q 0).val = (q ⟨0, by decide⟩).val :=
  dot_S64x128_S128x32_S64x32_1_0_0_1_n_n.rhsIdx_val_of_single rfl i q
theorem rhs_dense3_1 (i : S64x32.Idx) (q : dot_S64x128_S128x32_S64x32_1_0_0_1_n_n.contr.Idx) :
    (dot_S64x128_S128x32_S64x32_1_0_0_1_n_n.rhsIdx i q 1).val = (i 1).val := by
  unfold DotDims.rhsIdx
  rw [dif_neg (show ¬(1 : Fin S128x32.rank) ∈ dot_S64x128_S128x32_S64x32_1_0_0_1_n_n.rhsBatch by decide), dif_pos (show (1 : Fin S128x32.rank) ∈ dot_S64x128_S128x32_S64x32_1_0_0_1_n_n.rhsNonContracting by decide)]
  rfl

/-- The product into the zero accumulator, at row `g` and column `o`: the sum over the 128 contracted coordinates. -/
theorem dense3_apply {φ₁ φ₂ : FTy} (a : FVec Ideal S64x128 φ₁) (b : FVec Ideal S128x32 φ₂) (g : Fin 64) (o : Fin 32) :
    matmul dot_S64x128_S128x32_S64x32_1_0_0_1_n_n none a b (constant S64x32 .f32 0x00000000#32) (ix2 g o)
      = ∑ k : Fin 128, a (ix2 g k) * b (ix2 k o) := by
  show FloatOps.matmul dot_S64x128_S128x32_S64x32_1_0_0_1_n_n none a b (constant S64x32 .f32 0x00000000#32) (ix2 g o) = _
  rw [Ideal.matmul_constant_zero_apply, ← Equiv.sum_comp (ValueIdx.contrEquiv1 dot_S64x128_S128x32_S64x32_1_0_0_1_n_n 128 rfl rfl).symm]
  refine Finset.sum_congr rfl fun k _ => ?_
  have hk := ValueIdx.contrEquiv1_symm_val dot_S64x128_S128x32_S64x32_1_0_0_1_n_n 128 rfl rfl k
  have el : dot_S64x128_S128x32_S64x32_1_0_0_1_n_n.lhsIdx (ix2 g o) ((ValueIdx.contrEquiv1 dot_S64x128_S128x32_S64x32_1_0_0_1_n_n 128 rfl rfl).symm k) = ix2 g k := funext fun a => Fin.ext (by
    match a with
    | ⟨0, _⟩ => exact lhs_dense3_0 _ _
    | ⟨1, _⟩ => exact (lhs_dense3_1 _ _).trans hk)
  have er : dot_S64x128_S128x32_S64x32_1_0_0_1_n_n.rhsIdx (ix2 g o) ((ValueIdx.contrEquiv1 dot_S64x128_S128x32_S64x32_1_0_0_1_n_n 128 rfl rfl).symm k) = ix2 k o := funext fun a => Fin.ext (by
    match a with
    | ⟨0, _⟩ => exact (rhs_dense3_0 _ _).trans hk
    | ⟨1, _⟩ => exact rhs_dense3_1 _ _)
  rw [el, er]

/-- The bias row laid along every row of the result, at row `g` and column `o`: the bias at column `o`. -/
theorem biasRows3_apply (b : FVec Ideal S1x32 .f32) (g : Fin 64) (o : Fin 32) :
    broadcastTo S64x32 b broadcasts_S1x32_S64x32 (ix2 g o) = b (ix2 (0 : Fin 1) o) := by
  refine broadcastTo_apply b broadcasts_S1x32_S64x32 (ix2 g o) (ix2 (0 : Fin 1) o) ?_
  intro a
  match a with
  | ⟨0, _⟩ => rfl
  | ⟨1, _⟩ => rfl

/-- THE BODY'S RESULT at row `g` and column `o`, from the three blocks it loads: the changes of float format are the
    identity on the extended reals, the product into the zero accumulator is the plain sum, and the bias row is laid along
    every row. -/
theorem pay3_apply (x0 : Vec Ideal S64x128 .f32) (x1 : Vec Ideal S128x32 .f32) (x2 : Vec Ideal S1x32 .f32)
    (g : Fin 64) (o : Fin 32) :
    k3_pay1 (F := Ideal) x0 x1 x2 (ix2 g o)
      = (∑ k : Fin 128, x0 (ix2 g k) * x1 (ix2 k o)) + x2 (ix2 (0 : Fin 1) o) := by
  unfold k3_pay1
  simp only [shapeCast_self]
  rw [addf_apply, dense3_apply, biasRows3_apply]
  rfl

variable (V : (c : Dev nD) → (b : Ref sig .tc) → Buf (Elt Ideal) ((c : Thread nD τ).loc b))

/-! ## From the one block to the array

The grid has one point and every window's block is its whole array, at zero offsets: each input block is the array the
call finds, and the one write-back writes the whole result array. -/

theorem zeros3 : (![0, 0] : Fin 2 → Nat) = fun _ => 0 := funext fun a => by fin_cases a <;> rfl

/-- The arrays the call finds, by their literal types: the pooled rows, the weights, the bias row. -/
abbrev pooledArr (c : Dev nD) : Vec Ideal S64x128 .f32 := V c main_v63
abbrev weightArr (c : Dev nD) : Vec Ideal S128x32 .f32 := V c main_arg7
abbrev biasArr (c : Dev nD) : Vec Ideal S1x32 .f32 := V c main_v64

theorem blk3_pooled (c : Dev nD) : iblk3 (F := Ideal) V c 0 t3_0 = pooledArr V c := by
  unfold iblk3
  have hz' : (fun a => win3_0.index t3_0 a * main_v63.ty.shape.size a) = fun _ => 0 := funext fun a => by fin_cases a <;> decide
  exact Memref.read_access_unit_zero (Elt Ideal) main_v63 hz' (fun a => by rw [congrFun hz' a]; simp) (V c main_v63)

theorem blk3_weight (c : Dev nD) : iblk3 (F := Ideal) V c 1 t3_0 = weightArr V c := by
  unfold iblk3
  have hz' : (fun a => win3_1.index t3_0 a * main_arg7.ty.shape.size a) = fun _ => 0 := funext fun a => by fin_cases a <;> decide
  exact Memref.read_access_unit_zero (Elt Ideal) main_arg7 hz' (fun a => by rw [congrFun hz' a]; simp) (V c main_arg7)

theorem blk3_bias (c : Dev nD) : iblk3 (F := Ideal) V c 2 t3_0 = biasArr V c := by
  unfold iblk3
  have hz' : (fun a => win3_2.index t3_0 a * main_v64.ty.shape.size a) = fun _ => 0 := funext fun a => by fin_cases a <;> decide
  exact Memref.read_access_unit_zero (Elt Ideal) main_v64 hz' (fun a => by rw [congrFun hz' a]; simp) (V c main_v64)

/-- The body's result of the whole arrays, as contents of the result array. -/
abbrev denseArr (c : Dev nD) : Buf (Elt Ideal) ((c : Thread nD τ).loc main_v65) :=
  k3_pay1 (F := Ideal) (pooledArr V c) (weightArr V c) (biasArr V c)

/-- The one write-back writes it: the block at zero offsets of the [64,32] array is the array. -/
theorem flushed3_eq (c : Dev nD) (t : Fin cfg3.N) (hf : (cfg3.win 3).flush t = true) :
    (dat3 (F := Ideal) V c).flushed 3 t = ((cfg3.win 3).blk t).view.read (Elt Ideal) (denseArr V c) := by
  obtain rfl : t = t3_0 := fin_N3 t
  show (cfg3.win 3).cut (grid3.coords t3_0) ((dat3 (F := Ideal) V c).after 3 t3_0) = _
  rw [after3_3, blk3_pooled, blk3_weight, blk3_bias]
  unfold out3_3
  rw [View.canon_unit_zero zeros3]
  simp only [View.ld_unit_zero (S := S64x128) zeros3, View.ld_unit_zero (S := S128x32) zeros3, View.ld_unit_zero (S := S1x32) zeros3]
  have hz' : (fun a => win3_3.index t3_0 a * main_v65.ty.shape.size a) = fun _ => 0 := funext fun a => by fin_cases a <;> decide
  exact (Memref.read_access_unit_zero (Elt Ideal) main_v65 hz' (fun a => by rw [congrFun hz' a]; simp) (denseArr V c)).symm

/-- So the result array ends holding the body's result of the whole arrays: the one point's block covers it. -/
theorem final3 (c : Dev nD) : (dat3 (F := Ideal) V c).arrAt 3 cfg3.N = denseArr V c :=
  (dat3 (F := Ideal) V c).arrAt_eq_of_cover 3 (denseArr V c) (flushed3_eq V c) fun i =>
    ⟨t3_0, flush3_3 t3_0, by
      show i ∈ ((View.whole main_v65).slice (win3_3.rect t3_0)).set
      rw [View.set_slice_whole, Rect.mem_set_unit]
      intro a
      have h0 : (i 0 : Nat) < 64 := (i 0).isLt
      have h1 : (i 1 : Nat) < 32 := (i 1).isLt
      match a with
      | ⟨0, _⟩ => show win3_3.index t3_0 0 * win3_3.size 0 ≤ (i 0 : Nat) ∧ (i 0 : Nat) < win3_3.index t3_0 0 * win3_3.size 0 + win3_3.xsize (grid3.coords t3_0) 0
                  rw [show win3_3.index t3_0 0 * win3_3.size 0 = 0 from by decide +kernel, show win3_3.xsize (grid3.coords t3_0) 0 = 64 from by decide +kernel]; omega
      | ⟨1, _⟩ => show win3_3.index t3_0 1 * win3_3.size 1 ≤ (i 1 : Nat) ∧ (i 1 : Nat) < win3_3.index t3_0 1 * win3_3.size 1 + win3_3.xsize (grid3.coords t3_0) 1
                  rw [show win3_3.index t3_0 1 * win3_3.size 1 = 0 from by decide +kernel, show win3_3.xsize (grid3.coords t3_0) 1 = 32 from by decide +kernel]; omega⟩

/-- The array the fourth call leaves, index by index. -/
theorem region3_value (c : Dev nD) (g : Fin 64) (o : Fin 32) :
    (dat3 (F := Ideal) V c).arrAt 3 cfg3.N (ix2 g o)
      = Gcn.lin3 (fun g k => V c main_v63 (ix2 g k)) (fun k o => V c main_arg7 (ix2 k o))
          (fun o => V c main_v64 (ix2 (0 : Fin 1) o)) g o := by
  rw [final3]
  exact pay3_apply (pooledArr V c) (weightArr V c) (biasArr V c) g o

end Cert.KernelIdeal.Regions

end
-- ==== Proof.KEntry.lean ====
/- What the program's buffers hold when its first call is entered, at the ideal values (the contents `W3` of the generated
   frame's fold): the argument arrays as launched; the destination and source words (a row of the edge array followed by
   the node numbers); the coefficient column, the graph counts; and the one-hot array, read at an index: one where the node's
   graph word is the column's number, zero elsewhere. -/
import proofs.«414723_j3659312136457_3_alg».proof.Proof.Gen.KernelIdeal.Frame
import proofs.«414723_j3659312136457_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.StableHlo.Run
import Idealize.ShloMosaic.Lib.StableHlo.Predicate
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Entry

open Cert.KernelIdeal Cert.KernelIdeal.Gen

variable (m : (ℓ : Loc nD τ sig) → Buf (Elt Ideal) ℓ) (ρ : Dev nD → PrngReg) (c : Dev nD)

/-- The destination words, the source words, the coefficient column and the graph counts as the program has them before
    its first call. -/
abbrev dstVec : IVec S1700000 32 := W3 (F := Ideal) m ρ c (Proc.devRef .tc main_v6)
abbrev srcVec : IVec S1700000 32 := W3 (F := Ideal) m ρ c (Proc.devRef .tc main_v3)
abbrev coeffCol : FVec Ideal S100000x1 .f32 := W3 (F := Ideal) m ρ c (Proc.devRef .tc main_v15)
abbrev cntVec : FVec Ideal S64 .f32 := W3 (F := Ideal) m ρ c (Proc.devRef .tc main_v19)
abbrev onehot : FVec Ideal S100000x64 .bf16 := W3 (F := Ideal) m ρ c (Proc.devRef .tc main_v26)

/-! ## A buffer no operation writes

Each operation of a stretch writes one buffer; a buffer that is none of them is the same after the stretch as before. -/

/-- The goal `after ops V b = V b` for a literal stretch `ops` none of whose operations writes `b`: every written
    reference is another one, decided reference by reference. -/
local macro "buffer_kept" : tactic => `(tactic| (
  refine StableHlo.after_of_forall_not_mem _ _ (List.forall_iff_forall_mem.mp ?_)
  simp only [hostOps0, hostOps0_1, hostOps0_2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- A buffer none of the three stretches writes is as launched. -/
theorem entry_of_kept (b : Ref sig .tc)
    (h2 : StableHlo.after hostOps0_2 (W2 (F := Ideal) m ρ c) (Proc.devRef .tc b) = W2 (F := Ideal) m ρ c (Proc.devRef .tc b))
    (h1 : StableHlo.after hostOps0_1 (W1 (F := Ideal) m ρ c) (Proc.devRef .tc b) = W1 (F := Ideal) m ρ c (Proc.devRef .tc b))
    (h0 : StableHlo.after hostOps0 (W0 (F := Ideal) m ρ c) (Proc.devRef .tc b) = W0 (F := Ideal) m ρ c (Proc.devRef .tc b)) :
    W3 (F := Ideal) m ρ c (Proc.devRef .tc b) = m ((c.tc : Thread nD τ).loc b) :=
  h2.trans (h1.trans (h0.trans rfl))

/-- The argument arrays are as launched. -/
theorem entry_arg0 : W3 (F := Ideal) m ρ c (Proc.devRef .tc main_arg0) = m ((c.tc : Thread nD τ).loc main_arg0) := by
  exact entry_of_kept m ρ c main_arg0 (by buffer_kept) (by buffer_kept) (by buffer_kept)
theorem entry_arg2 : W3 (F := Ideal) m ρ c (Proc.devRef .tc main_arg2) = m ((c.tc : Thread nD τ).loc main_arg2) := by
  exact entry_of_kept m ρ c main_arg2 (by buffer_kept) (by buffer_kept) (by buffer_kept)
theorem entry_arg3 : W3 (F := Ideal) m ρ c (Proc.devRef .tc main_arg3) = m ((c.tc : Thread nD τ).loc main_arg3) := by
  exact entry_of_kept m ρ c main_arg3 (by buffer_kept) (by buffer_kept) (by buffer_kept)
theorem entry_arg4 : W3 (F := Ideal) m ρ c (Proc.devRef .tc main_arg4) = m ((c.tc : Thread nD τ).loc main_arg4) := by
  exact entry_of_kept m ρ c main_arg4 (by buffer_kept) (by buffer_kept) (by buffer_kept)
theorem entry_arg5 : W3 (F := Ideal) m ρ c (Proc.devRef .tc main_arg5) = m ((c.tc : Thread nD τ).loc main_arg5) := by
  exact entry_of_kept m ρ c main_arg5 (by buffer_kept) (by buffer_kept) (by buffer_kept)
theorem entry_arg6 : W3 (F := Ideal) m ρ c (Proc.devRef .tc main_arg6) = m ((c.tc : Thread nD τ).loc main_arg6) := by
  exact entry_of_kept m ρ c main_arg6 (by buffer_kept) (by buffer_kept) (by buffer_kept)
theorem entry_arg7 : W3 (F := Ideal) m ρ c (Proc.devRef .tc main_arg7) = m ((c.tc : Thread nD τ).loc main_arg7) := by
  exact entry_of_kept m ρ c main_arg7 (by buffer_kept) (by buffer_kept) (by buffer_kept)
theorem entry_arg8 : W3 (F := Ideal) m ρ c (Proc.devRef .tc main_arg8) = m ((c.tc : Thread nD τ).loc main_arg8) := by
  exact entry_of_kept m ρ c main_arg8 (by buffer_kept) (by buffer_kept) (by buffer_kept)

/-! ## The one-hot array

The last stretch compares, entry by entry, the graph words laid along the rows with the column numbers laid down the
columns, and turns the one-bit result into a float: one where the words agree, zero elsewhere. -/

/-- The one-hot array as the last stretch composes it from the graph words it finds. -/
theorem last_onehot (X : Valuation τ sig (Elt Ideal)) : StableHlo.after hostOps0_2 X (Proc.devRef .tc main_v26)
    = (uitofp .bf16 (cmpi .eq
        (broadcastInDim S100000x64 ![0, 1] bcast_S100000x1_S100000x64_0_1 (broadcastInDim S100000x1 ![0] bcast_S100000_S100000x1_0 (X (Proc.devRef .tc main_arg2))))
        (broadcastInDim S100000x64 ![0, 1] bcast_S1x64_S100000x64_0_1 (broadcastInDim S1x64 ![1] bcast_S64_S1x64_1 (iotaInDim S64 32 0)))) : FVec Ideal S100000x64 .bf16) := by
  simp only [hostOps0_2]
  after_results

/-- The graph words are as launched when the last stretch starts. -/
theorem graphWords_second : W2 (F := Ideal) m ρ c (Proc.devRef .tc main_arg2) = m ((c.tc : Thread nD τ).loc main_arg2) :=
  (show StableHlo.after hostOps0_1 (W1 (F := Ideal) m ρ c) (Proc.devRef .tc main_arg2) = W1 (F := Ideal) m ρ c (Proc.devRef .tc main_arg2) from by buffer_kept).trans
    ((show StableHlo.after hostOps0 (W0 (F := Ideal) m ρ c) (Proc.devRef .tc main_arg2) = W0 (F := Ideal) m ρ c (Proc.devRef .tc main_arg2) from by buffer_kept).trans rfl)

/-- A vector laid along the rows of a [100000, 64] array (as a column, then across) reads the vector at the row. -/
theorem alongRows_apply {α : Type} (v : S100000.Idx → α) (n : Fin 100000) (g : Fin 64) :
    broadcastInDim S100000x64 ![0, 1] bcast_S100000x1_S100000x64_0_1 (broadcastInDim S100000x1 ![0] bcast_S100000_S100000x1_0 v) (ix2 n g) = v (ix1 n) := by
  rw [broadcastInDim_apply _ bcast_S100000x1_S100000x64_0_1 _ (ix2 n g) (ix2 n (0 : Fin 1)) (fun a => match a with
      | ⟨0, _⟩ => by show n.val = if (100000 : Nat) = 1 then 0 else n.val; rw [if_neg (by decide)]
      | ⟨1, _⟩ => by show 0 = if (1 : Nat) = 1 then 0 else g.val; rw [if_pos rfl])]
  exact broadcastInDim_apply _ bcast_S100000_S100000x1_0 v (ix2 n (0 : Fin 1)) (ix1 n) (fun a => match a with
      | ⟨0, _⟩ => by show n.val = if (100000 : Nat) = 1 then 0 else n.val; rw [if_neg (by decide)])

/-- A vector laid down the columns (as a row, then down) reads the vector at the column. -/
theorem downCols_apply {α : Type} (v : S64.Idx → α) (n : Fin 100000) (g : Fin 64) :
    broadcastInDim S100000x64 ![0, 1] bcast_S1x64_S100000x64_0_1 (broadcastInDim S1x64 ![1] bcast_S64_S1x64_1 v) (ix2 n g) = v (ix1 g) := by
  rw [broadcastInDim_apply _ bcast_S1x64_S100000x64_0_1 _ (ix2 n g) (ix2 (0 : Fin 1) g) (fun a => match a with
      | ⟨0, _⟩ => by show 0 = if (1 : Nat) = 1 then 0 else n.val; rw [if_pos rfl]
      | ⟨1, _⟩ => by show g.val = if (64 : Nat) = 1 then 0 else g.val; rw [if_neg (by decide)])]
  exact broadcastInDim_apply _ bcast_S64_S1x64_1 v (ix2 (0 : Fin 1) g) (ix1 g) (fun a => match a with
      | ⟨0, _⟩ => by show g.val = if (64 : Nat) = 1 then 0 else g.val; rw [if_neg (by decide)])

/-- The float of the equality bit of two words: the real one where they are equal, zero elsewhere. -/
theorem eqBit_real (a b : BitVec 32) :
    (FloatOps.uitofp (F := Ideal) .bf16 (IntOp.cmpi .eq a b) : EReal) = if a = b then (1 : EReal) else 0 := by
  show (((IntOp.cmpi .eq a b).toNat : ℝ) : EReal) = _
  by_cases h : a = b
  · rw [if_pos h, StableHlo.Predicate.cmpi_eq_iff.mpr h]; simp
  · rw [if_neg h, eq_zero_of_ne_one (fun h1 => h (StableHlo.Predicate.cmpi_eq_iff.mp h1))]; simp

/-- The comparison and the conversion read entry by entry. -/
theorem eqFloat_apply (x y : IVec S100000x64 32) (i : S100000x64.Idx) :
    (uitofp .bf16 (cmpi .eq x y) : FVec Ideal S100000x64 .bf16) i = FloatOps.uitofp (F := Ideal) .bf16 (IntOp.cmpi .eq (x i) (y i)) := rfl

/-- The one-hot array at an index: one where node `n`'s graph word is `g`, zero elsewhere. -/
theorem onehot_apply (n : Fin 100000) (g : Fin 64) :
    onehot m ρ c (ix2 n g) = if m ((c.tc : Thread nD τ).loc main_arg2) (ix1 n) = BitVec.ofNat 32 g.val then (1 : EReal) else 0 := by
  show StableHlo.after hostOps0_2 (W2 (F := Ideal) m ρ c) (Proc.devRef .tc main_v26) (ix2 n g) = _
  rw [last_onehot, eqFloat_apply, alongRows_apply, downCols_apply, eqBit_real, graphWords_second]
  rfl

/-- The destination words: row 1 of the edge array, then the node numbers. -/
theorem dstVec_eq : dstVec m ρ c = concatenate S1700000 0 [⟨S1600000, shapeCast _ (extractStridedSlice S1x1600000 ![1, 0] (m ((c.tc : Thread nD τ).loc main_arg1)) slices_S2x1600000_S1x1600000_1_0) shapeCasts_S1x1600000_S1600000⟩, ⟨S100000, iotaInDim S100000 32 0⟩] concatenates_S1600000_S100000_S1700000_d0 := by
  show StableHlo.after hostOps0_2 (StableHlo.after hostOps0_1 (StableHlo.after hostOps0 (W0 (F := Ideal) m ρ c))) (Proc.devRef .tc main_v6) = _
  rw [show StableHlo.after hostOps0_2 (StableHlo.after hostOps0_1 (StableHlo.after hostOps0 (W0 (F := Ideal) m ρ c))) (Proc.devRef .tc main_v6)
        = StableHlo.after hostOps0_1 (StableHlo.after hostOps0 (W0 (F := Ideal) m ρ c)) (Proc.devRef .tc main_v6) from by buffer_kept,
      show StableHlo.after hostOps0_1 (StableHlo.after hostOps0 (W0 (F := Ideal) m ρ c)) (Proc.devRef .tc main_v6)
        = StableHlo.after hostOps0 (W0 (F := Ideal) m ρ c) (Proc.devRef .tc main_v6) from by buffer_kept]
  simp only [hostOps0]
  after_results
  rfl

/-- The source words: row 0 of the edge array, then the node numbers. -/
theorem srcVec_eq : srcVec m ρ c = concatenate S1700000 0 [⟨S1600000, shapeCast _ (extractStridedSlice S1x1600000 ![0, 0] (m ((c.tc : Thread nD τ).loc main_arg1)) slices_S2x1600000_S1x1600000_0_0) shapeCasts_S1x1600000_S1600000⟩, ⟨S100000, iotaInDim S100000 32 0⟩] concatenates_S1600000_S100000_S1700000_d0 := by
  show StableHlo.after hostOps0_2 (StableHlo.after hostOps0_1 (StableHlo.after hostOps0 (W0 (F := Ideal) m ρ c))) (Proc.devRef .tc main_v3) = _
  rw [show StableHlo.after hostOps0_2 (StableHlo.after hostOps0_1 (StableHlo.after hostOps0 (W0 (F := Ideal) m ρ c))) (Proc.devRef .tc main_v3)
        = StableHlo.after hostOps0_1 (StableHlo.after hostOps0 (W0 (F := Ideal) m ρ c)) (Proc.devRef .tc main_v3) from by buffer_kept,
      show StableHlo.after hostOps0_1 (StableHlo.after hostOps0 (W0 (F := Ideal) m ρ c)) (Proc.devRef .tc main_v3)
        = StableHlo.after hostOps0 (W0 (F := Ideal) m ρ c) (Proc.devRef .tc main_v3) from by buffer_kept]
  simp only [hostOps0]
  after_results
  rfl

/-- The degrees: every message adds one to its destination's count. -/
abbrev degOf (dst : IVec S1700000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-! ## The coefficient column

Read back stretch by stretch: the last stretch lays the selected vector as a column; the outlined select takes the
comparison, the reciprocal root and the zero scalar of the first stretch; the first stretch computes those from the
degrees, the scatter-add of a one per message at the destination words. -/

section Stretches
variable (X : Valuation τ sig (Elt Ideal))

/-- The last stretch lays the selected vector as a column. -/
theorem last_coeffCol : StableHlo.after hostOps0_2 X (Proc.devRef .tc main_v15)
    = shapeCast S100000x1 (X (Proc.devRef .tc main_v14)) shapeCasts_S100000_S100000x1 := by
  simp only [hostOps0_2]
  after_results
  rfl

/-- The outlined select: between the second and the broadcast third operand, on the first. -/
theorem where_selected : StableHlo.after hostOps0_1 X (Proc.devRef .tc main_v14)
    = select (X (Proc.devRef .tc main_v12)) (X (Proc.devRef .tc main_v13))
        (broadcastInDim S100000 ![] bcast_S_S100000 (X (Proc.devRef .tc main_cst_2))) := by
  simp only [hostOps0_1]
  after_results
  rfl

/-- The first stretch's degrees, from its destination words. -/
theorem first_degrees : StableHlo.after hostOps0 X (Proc.devRef .tc main_v10)
    = degOf (StableHlo.after hostOps0 X (Proc.devRef .tc main_v6)) := by
  simp only [hostOps0]
  after_results

/-- Its comparison of the degrees with the zero splat, -/
theorem first_positive : StableHlo.after hostOps0 X (Proc.devRef .tc main_v12)
    = cmpf .ogt (StableHlo.after hostOps0 X (Proc.devRef .tc main_v10))
        (broadcastInDim S100000 ![] bcast_S_S100000 (constant (F := Ideal) S_ .f32 0x00000000#32)) := by
  simp only [hostOps0]
  after_results

/-- their reciprocal root, -/
theorem first_rsqrt : StableHlo.after hostOps0 X (Proc.devRef .tc main_v13)
    = (Host.rsqrt (StableHlo.after hostOps0 X (Proc.devRef .tc main_v10) : FVec Ideal S100000 .f32) : FVec Ideal S100000 .f32) := by
  simp only [hostOps0]
  after_results

/-- and the zero scalar. -/
theorem first_zero : StableHlo.after hostOps0 X (Proc.devRef .tc main_cst_2) = constant (F := Ideal) S_ .f32 0x00000000#32 := by
  simp only [hostOps0]
  after_results

end Stretches

/-- The destination words are the first stretch's: the later stretches do not write them. -/
theorem dstVec_first : StableHlo.after hostOps0 (W0 (F := Ideal) m ρ c) (Proc.devRef .tc main_v6) = dstVec m ρ c :=
  ((show StableHlo.after hostOps0_2 (StableHlo.after hostOps0_1 (StableHlo.after hostOps0 (W0 (F := Ideal) m ρ c))) (Proc.devRef .tc main_v6)
        = StableHlo.after hostOps0_1 (StableHlo.after hostOps0 (W0 (F := Ideal) m ρ c)) (Proc.devRef .tc main_v6) from by buffer_kept).trans
    (show StableHlo.after hostOps0_1 (StableHlo.after hostOps0 (W0 (F := Ideal) m ρ c)) (Proc.devRef .tc main_v6)
        = StableHlo.after hostOps0 (W0 (F := Ideal) m ρ c) (Proc.devRef .tc main_v6) from by buffer_kept)).symm

/-- The coefficient column as the operations compose it: the select between the reciprocal root of the degrees and the
    zero splat, on the degrees' comparison with the zero splat, laid as a column. -/
theorem coeffCol_eq : coeffCol m ρ c
    = shapeCast S100000x1 (select (cmpf .ogt (degOf (dstVec m ρ c)) (broadcastInDim S100000 ![] bcast_S_S100000 (constant (F := Ideal) S_ .f32 0x00000000#32)))
        (Host.rsqrt (degOf (dstVec m ρ c))) (broadcastInDim S100000 ![] bcast_S_S100000 (constant (F := Ideal) S_ .f32 0x00000000#32))) shapeCasts_S100000_S100000x1 := by
  show StableHlo.after hostOps0_2 (StableHlo.after hostOps0_1 (StableHlo.after hostOps0 (W0 (F := Ideal) m ρ c))) (Proc.devRef .tc main_v15) = _
  rw [last_coeffCol, where_selected, first_positive, first_rsqrt, first_zero, first_degrees, dstVec_first]

/-- The zero splat reads the zero word everywhere, and the reciprocal root reads element by element. -/
theorem zeroSplat_apply (i : S100000.Idx) :
    broadcastInDim S100000 ![] bcast_S_S100000 (constant (F := Ideal) S_ .f32 0x00000000#32) i = Gcn.zero := rfl
theorem hostRsqrt_apply (x : FVec Ideal S100000 .f32) (i : S100000.Idx) : Host.rsqrt x i = Ideal.rsqrt (x i) := rfl

/-- The coefficient column at a row: `where(deg > 0, rsqrt deg, 0)` of the node's degree. -/
theorem coeffCol_apply (n : Fin 100000) :
    coeffCol m ρ c (ix2 n (0 : Fin 1))
      = Scalar.select (Ideal.cmp .ogt (degOf (dstVec m ρ c) (ix1 n)) Gcn.zero) (Ideal.rsqrt (degOf (dstVec m ρ c) (ix1 n))) Gcn.zero := by
  rw [coeffCol_eq]
  rw [shapeCast_apply _ shapeCasts_S100000_S100000x1 (ix2 n (0 : Fin 1)) (ix1 n) (by
    rw [Shape.rowMajor_val_one, Shape.rowMajor_val_two]; show n.val = n.val * 1 + 0; omega)]
  rw [select_apply, cmpf_apply, Ideal.cmpf_def, zeroSplat_apply, hostRsqrt_apply]

/-- The graph counts: every node adds one to its graph's count. -/
theorem cntVec_eq : cntVec m ρ c = Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg2))) (broadcastInDim S100000 ![] bcast_S_S100000 (constant S_ .f32 0x3F800000#32)) := by
  show StableHlo.after hostOps0_2 (StableHlo.after hostOps0_1 (StableHlo.after hostOps0 (W0 (F := Ideal) m ρ c))) (Proc.devRef .tc main_v19) = _
  simp only [hostOps0, hostOps0_1, hostOps0_2]
  after_results

end Cert.KernelIdeal.Entry

end
-- ==== Proof.KCarry.lean ====
/- Buffers the calls and the host operations in between do not write keep their contents from boundary to boundary of the
   program's run: the destination and source words, the coefficient column, the graph counts and the one-hot array as they
   are when the first call is entered; the argument arrays as launched. -/
import proofs.«414723_j3659312136457_3_alg».proof.Proof.Gen.KernelIdeal.Frame
import proofs.«414723_j3659312136457_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«414723_j3659312136457_3_alg».proof.Proof.KEntry
import Idealize.ShloMosaic.Lib.StableHlo.Run
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Carry

open Cert.KernelIdeal Cert.KernelIdeal.Gen

variable (m : (ℓ : Loc nD τ sig) → Buf (Elt Ideal) ℓ) (ρ : Dev nD → PrngReg) (c : Dev nD)

/-- The goal `after ops V b = V b` for one of the three host stretches between the calls, none of whose operations
    writes `b`: every written reference is another one, decided reference by reference. -/
local macro "stretch_kept" : tactic => `(tactic| (
  refine StableHlo.after_of_forall_not_mem _ _ (List.forall_iff_forall_mem.mp ?_)
  simp only [hostOps1, hostOps2, hostOps3, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

theorem carry_v3_W4 : W4 (F := Ideal) m ρ c (Proc.devRef .tc main_v3) = W3 (F := Ideal) m ρ c (Proc.devRef .tc main_v3) := by
  calc W4 (F := Ideal) m ρ c (Proc.devRef .tc main_v3)
    _ = W3 (F := Ideal) m ρ c (Proc.devRef .tc main_v3) := W4_of_ne m ρ c main_v3 (by decide)

theorem carry_v3_W6 : W6 (F := Ideal) m ρ c (Proc.devRef .tc main_v3) = W3 (F := Ideal) m ρ c (Proc.devRef .tc main_v3) := by
  calc W6 (F := Ideal) m ρ c (Proc.devRef .tc main_v3)
    _ = W5 (F := Ideal) m ρ c (Proc.devRef .tc main_v3) := W6_of_ne m ρ c main_v3 (by decide)
    _ = W4 (F := Ideal) m ρ c (Proc.devRef .tc main_v3) := by stretch_kept
    _ = W3 (F := Ideal) m ρ c (Proc.devRef .tc main_v3) := W4_of_ne m ρ c main_v3 (by decide)

theorem carry_v6_W4 : W4 (F := Ideal) m ρ c (Proc.devRef .tc main_v6) = W3 (F := Ideal) m ρ c (Proc.devRef .tc main_v6) := by
  calc W4 (F := Ideal) m ρ c (Proc.devRef .tc main_v6)
    _ = W3 (F := Ideal) m ρ c (Proc.devRef .tc main_v6) := W4_of_ne m ρ c main_v6 (by decide)

theorem carry_v6_W6 : W6 (F := Ideal) m ρ c (Proc.devRef .tc main_v6) = W3 (F := Ideal) m ρ c (Proc.devRef .tc main_v6) := by
  calc W6 (F := Ideal) m ρ c (Proc.devRef .tc main_v6)
    _ = W5 (F := Ideal) m ρ c (Proc.devRef .tc main_v6) := W6_of_ne m ρ c main_v6 (by decide)
    _ = W4 (F := Ideal) m ρ c (Proc.devRef .tc main_v6) := by stretch_kept
    _ = W3 (F := Ideal) m ρ c (Proc.devRef .tc main_v6) := W4_of_ne m ρ c main_v6 (by decide)

theorem carry_v15_W5 : W5 (F := Ideal) m ρ c (Proc.devRef .tc main_v15) = W3 (F := Ideal) m ρ c (Proc.devRef .tc main_v15) := by
  calc W5 (F := Ideal) m ρ c (Proc.devRef .tc main_v15)
    _ = W4 (F := Ideal) m ρ c (Proc.devRef .tc main_v15) := by stretch_kept
    _ = W3 (F := Ideal) m ρ c (Proc.devRef .tc main_v15) := (W4_arr m ρ c 2).trans (((dat0 (V3 m ρ) c).arrAt_in 2 rfl _).trans (A_eq0 (V3 m ρ) c 2))

theorem carry_v15_W7 : W7 (F := Ideal) m ρ c (Proc.devRef .tc main_v15) = W3 (F := Ideal) m ρ c (Proc.devRef .tc main_v15) := by
  calc W7 (F := Ideal) m ρ c (Proc.devRef .tc main_v15)
    _ = W6 (F := Ideal) m ρ c (Proc.devRef .tc main_v15) := by stretch_kept
    _ = W5 (F := Ideal) m ρ c (Proc.devRef .tc main_v15) := (W6_arr m ρ c 1).trans (((dat1 (V5 m ρ) c).arrAt_in 1 rfl _).trans (A_eq1 (V5 m ρ) c 1))
    _ = W4 (F := Ideal) m ρ c (Proc.devRef .tc main_v15) := by stretch_kept
    _ = W3 (F := Ideal) m ρ c (Proc.devRef .tc main_v15) := (W4_arr m ρ c 2).trans (((dat0 (V3 m ρ) c).arrAt_in 2 rfl _).trans (A_eq0 (V3 m ρ) c 2))

theorem carry_v19_W8 : W8 (F := Ideal) m ρ c (Proc.devRef .tc main_v19) = W3 (F := Ideal) m ρ c (Proc.devRef .tc main_v19) := by
  calc W8 (F := Ideal) m ρ c (Proc.devRef .tc main_v19)
    _ = W7 (F := Ideal) m ρ c (Proc.devRef .tc main_v19) := W8_of_ne m ρ c main_v19 (by decide)
    _ = W6 (F := Ideal) m ρ c (Proc.devRef .tc main_v19) := by stretch_kept
    _ = W5 (F := Ideal) m ρ c (Proc.devRef .tc main_v19) := W6_of_ne m ρ c main_v19 (by decide)
    _ = W4 (F := Ideal) m ρ c (Proc.devRef .tc main_v19) := by stretch_kept
    _ = W3 (F := Ideal) m ρ c (Proc.devRef .tc main_v19) := W4_of_ne m ρ c main_v19 (by decide)

theorem carry_v26_W7 : W7 (F := Ideal) m ρ c (Proc.devRef .tc main_v26) = W3 (F := Ideal) m ρ c (Proc.devRef .tc main_v26) := by
  calc W7 (F := Ideal) m ρ c (Proc.devRef .tc main_v26)
    _ = W6 (F := Ideal) m ρ c (Proc.devRef .tc main_v26) := by stretch_kept
    _ = W5 (F := Ideal) m ρ c (Proc.devRef .tc main_v26) := W6_of_ne m ρ c main_v26 (by decide)
    _ = W4 (F := Ideal) m ρ c (Proc.devRef .tc main_v26) := by stretch_kept
    _ = W3 (F := Ideal) m ρ c (Proc.devRef .tc main_v26) := W4_of_ne m ρ c main_v26 (by decide)

theorem carry_arg4_W4 : W4 (F := Ideal) m ρ c (Proc.devRef .tc main_arg4) = m ((c.tc : Thread nD τ).loc main_arg4) := by
  calc W4 (F := Ideal) m ρ c (Proc.devRef .tc main_arg4)
    _ = W3 (F := Ideal) m ρ c (Proc.devRef .tc main_arg4) := W4_of_ne m ρ c main_arg4 (by decide)
    _ = m ((c.tc : Thread nD τ).loc main_arg4) := Entry.entry_arg4 m ρ c

theorem carry_arg5_W5 : W5 (F := Ideal) m ρ c (Proc.devRef .tc main_arg5) = m ((c.tc : Thread nD τ).loc main_arg5) := by
  calc W5 (F := Ideal) m ρ c (Proc.devRef .tc main_arg5)
    _ = W4 (F := Ideal) m ρ c (Proc.devRef .tc main_arg5) := by stretch_kept
    _ = W3 (F := Ideal) m ρ c (Proc.devRef .tc main_arg5) := W4_of_ne m ρ c main_arg5 (by decide)
    _ = m ((c.tc : Thread nD τ).loc main_arg5) := Entry.entry_arg5 m ρ c

theorem carry_arg6_W6 : W6 (F := Ideal) m ρ c (Proc.devRef .tc main_arg6) = m ((c.tc : Thread nD τ).loc main_arg6) := by
  calc W6 (F := Ideal) m ρ c (Proc.devRef .tc main_arg6)
    _ = W5 (F := Ideal) m ρ c (Proc.devRef .tc main_arg6) := W6_of_ne m ρ c main_arg6 (by decide)
    _ = W4 (F := Ideal) m ρ c (Proc.devRef .tc main_arg6) := by stretch_kept
    _ = W3 (F := Ideal) m ρ c (Proc.devRef .tc main_arg6) := W4_of_ne m ρ c main_arg6 (by decide)
    _ = m ((c.tc : Thread nD τ).loc main_arg6) := Entry.entry_arg6 m ρ c

theorem carry_arg8_W8 : W8 (F := Ideal) m ρ c (Proc.devRef .tc main_arg8) = m ((c.tc : Thread nD τ).loc main_arg8) := by
  calc W8 (F := Ideal) m ρ c (Proc.devRef .tc main_arg8)
    _ = W7 (F := Ideal) m ρ c (Proc.devRef .tc main_arg8) := W8_of_ne m ρ c main_arg8 (by decide)
    _ = W6 (F := Ideal) m ρ c (Proc.devRef .tc main_arg8) := by stretch_kept
    _ = W5 (F := Ideal) m ρ c (Proc.devRef .tc main_arg8) := W6_of_ne m ρ c main_arg8 (by decide)
    _ = W4 (F := Ideal) m ρ c (Proc.devRef .tc main_arg8) := by stretch_kept
    _ = W3 (F := Ideal) m ρ c (Proc.devRef .tc main_arg8) := W4_of_ne m ρ c main_arg8 (by decide)
    _ = m ((c.tc : Thread nD τ).loc main_arg8) := Entry.entry_arg8 m ρ c

theorem carry_arg7_W9 : W9 (F := Ideal) m ρ c (Proc.devRef .tc main_arg7) = m ((c.tc : Thread nD τ).loc main_arg7) := by
  calc W9 (F := Ideal) m ρ c (Proc.devRef .tc main_arg7)
    _ = W8 (F := Ideal) m ρ c (Proc.devRef .tc main_arg7) := by stretch_kept
    _ = W7 (F := Ideal) m ρ c (Proc.devRef .tc main_arg7) := W8_of_ne m ρ c main_arg7 (by decide)
    _ = W6 (F := Ideal) m ρ c (Proc.devRef .tc main_arg7) := by stretch_kept
    _ = W5 (F := Ideal) m ρ c (Proc.devRef .tc main_arg7) := W6_of_ne m ρ c main_arg7 (by decide)
    _ = W4 (F := Ideal) m ρ c (Proc.devRef .tc main_arg7) := by stretch_kept
    _ = W3 (F := Ideal) m ρ c (Proc.devRef .tc main_arg7) := W4_of_ne m ρ c main_arg7 (by decide)
    _ = m ((c.tc : Thread nD τ).loc main_arg7) := Entry.entry_arg7 m ρ c

end Cert.KernelIdeal.Carry

end
-- ==== Proof.KChain.lean ====
/- The program's result, at the ideal values, as the specification's function of the argument arrays: the contents of the
   result buffer at the last boundary of the generated frame's fold, read back call by call — each call's result array by
   its value lemma, each stretch of host operations between two calls by its operations read at an index (the gathers and
   scatter-adds by the specification's index lemmas), a buffer no operation in between writes carried unchanged. -/
import proofs.«414723_j3659312136457_3_alg».proof.Proof.Gen.KernelIdeal.Frame
import proofs.«414723_j3659312136457_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«414723_j3659312136457_3_alg».proof.Proof.KRegion0
import proofs.«414723_j3659312136457_3_alg».proof.Proof.KRegion1
import proofs.«414723_j3659312136457_3_alg».proof.Proof.KRegion2
import proofs.«414723_j3659312136457_3_alg».proof.Proof.KRegion3
import proofs.«414723_j3659312136457_3_alg».proof.Proof.KEntry
import proofs.«414723_j3659312136457_3_alg».proof.Proof.KCarry
import Idealize.ShloMosaic.Lib.StableHlo.Run
import Idealize.ShloMosaic.Lib.StableHlo.Predicate
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen

open Cert.KernelIdeal.Entry Cert.KernelIdeal.Regions

open Cert.KernelIdeal.Carry

variable (m : (ℓ : Loc nD τ sig) → Buf (Elt Ideal) ℓ) (ρ : Dev nD → PrngReg) (c : Dev nD)

/-! ## Layout operations at an index -/

/-- A vector of words broadcast to a column reads, at row `e`, the vector at `e`. -/
theorem bcastCol_apply (x : IVec S1700000 32) (e : Fin 1700000) :
    broadcastInDim S1700000x1 ![0] bcast_S1700000_S1700000x1_0 x (ix2 e (0 : Fin 1)) = x (ix1 e) :=
  broadcastInDim_apply _ bcast_S1700000_S1700000x1_0 x _ (ix1 e) (fun a => match a with
    | ⟨0, _⟩ => by show e.val = if (1700000 : Nat) = 1 then 0 else e.val; rw [if_neg (by decide)])

/-! ## The row scatter-add and the row gather of the program, at an index -/

theorem scRows_uw : (scatter_S100000x128_S1700000x1_S1700000x128_1_0_0_1).updateWindowDims = [1] := rfl
theorem scRows_iw : (scatter_S100000x128_S1700000x1_S1700000x128_1_0_0_1).insertedWindowDims = [0] := rfl
theorem scRows_sd : (scatter_S100000x128_S1700000x1_S1700000x128_1_0_0_1).scatterDimsToOperandDims = [0] := rfl
theorem scRows_iv : (scatter_S100000x128_S1700000x1_S1700000x128_1_0_0_1).indexVectorDim = 1 := rfl

/-- The program's scatter-add is the exact sum's. -/
theorem scRows_ideal (a : FVec Ideal S100000x128 .f32) (b : IVec S1700000x1 32) (u : FVec Ideal S1700000x128 .f32) :
    Host.scatterAdd (F := Ideal) scatter_S100000x128_S1700000x1_S1700000x128_1_0_0_1 a b u
      = Ideal.hostScatterAdd scatter_S100000x128_S1700000x1_S1700000x128_1_0_0_1 a b u := rfl

/-- The program's row scatter-add at `(n, k)`: the operand's entry plus column `k` of the update rows whose start word reads `n`. -/
theorem scRows_apply (a : FVec Ideal S100000x128 .f32) (b : IVec S1700000x1 32) (u : FVec Ideal S1700000x128 .f32)
    (n : Fin 100000) (k : Fin 128) :
    Host.scatterAdd (F := Ideal) scatter_S100000x128_S1700000x1_S1700000x128_1_0_0_1 a b u (ix2 n k)
      = a (ix2 n k) + ∑ e ∈ Finset.univ.filter (fun e : Fin 1700000 => (b (ix2 e (0 : Fin 1))).toInt = (n.val : ℤ)), u (ix2 e k) :=
  (congrFun (scRows_ideal a b u) (ix2 n k)).trans
    (Gcn.scatterAdd_rows_apply scatter_S100000x128_S1700000x1_S1700000x128_1_0_0_1 scRows_uw scRows_iw scRows_sd scRows_iv a b u n k)

theorem gaRows_od : (gather_S100000x128_S1700000x1_S1700000x128_1_0_n_n_0_1_1128).offsetDims = [1] := rfl
theorem gaRows_cs : (gather_S100000x128_S1700000x1_S1700000x128_1_0_n_n_0_1_1128).collapsedSliceDims = [0] := rfl
theorem gaRows_ob : (gather_S100000x128_S1700000x1_S1700000x128_1_0_n_n_0_1_1128).operandBatchingDims = [] := rfl
theorem gaRows_sm : (gather_S100000x128_S1700000x1_S1700000x128_1_0_n_n_0_1_1128).startIndexMap = [0] := rfl
theorem gaRows_iv : (gather_S100000x128_S1700000x1_S1700000x128_1_0_n_n_0_1_1128).indexVectorDim = 1 := rfl
theorem gaRows_ss : (gather_S100000x128_S1700000x1_S1700000x128_1_0_n_n_0_1_1128).sliceSizes = ![1, 128] := rfl

/-- The program's row gather at `(e, k)`: column `k` of the row the start word reads. -/
theorem gaRows_apply (x : FVec Ideal S100000x128 .bf16) (idx : IVec S1700000x1 32) (e : Fin 1700000) (k : Fin 128) :
    Host.gather gather_S100000x128_S1700000x1_S1700000x128_1_0_n_n_0_1_1128 x idx (ix2 e k)
      = x (ix2 (Gcn.rowOf (idx (ix2 e (0 : Fin 1)))) k) :=
  Gcn.gather_rows_apply (by decide) gather_S100000x128_S1700000x1_S1700000x128_1_0_n_n_0_1_1128
    gaRows_od gaRows_cs gaRows_ob gaRows_sm gaRows_iv gaRows_ss x idx e k

/-- The source words as array indexing normalises them: counted from the end when negative. -/
theorem wrapStage_apply (srcw : IVec S1700000 32) (e : Fin 1700000) :
    select (cmpi .slt srcw (broadcastInDim S1700000 ![] bcast_S_S1700000 (constantI S_ 32 0#32)))
        (addi srcw (broadcastInDim S1700000 ![] bcast_S_S1700000 (constantI S_ 32 100000#32))) srcw (ix1 e)
      = Gcn.wrapNeg (srcw (ix1 e)) := rfl

theorem agg_def (dst sn : Fin 1700000 → BitVec 32) (h : Fin 100000 → Fin 128 → EReal) (n : Fin 100000) (k : Fin 128) :
    Gcn.agg dst sn h n k = Gcn.zero + ∑ e ∈ Gcn.into dst n, h (Gcn.rowOf (sn e)) k := rfl

theorem zeroArr_apply (n : Fin 100000) (k : Fin 128) :
    broadcastInDim S100000x128 ![] bcast_S_S100000x128 (constant (F := Ideal) S_ .f32 0x00000000#32) (ix2 n k) = Gcn.zero := rfl

/-! ## The aggregation between two calls: gather the source rows, scatter-add them at the destinations -/

/-- The source words counted from the end when negative, the rows of `h` gathered at them, scatter-added into a zero
    array at the destination words: the specification's aggregation of `h`. -/
theorem aggStretch_apply (dstw srcw : IVec S1700000 32) (h : FVec Ideal S100000x128 .bf16) (n : Fin 100000) (k : Fin 128) :
    Host.scatterAdd (F := Ideal) scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 dstw)
        (extf .f32 (Host.gather gather_S100000x128_S1700000x1_S1700000x128_1_0_n_n_0_1_1128 h
          (broadcastInDim S1700000x1 ![0] bcast_S1700000_S1700000x1_0
            (select (cmpi .slt srcw (broadcastInDim S1700000 ![] bcast_S_S1700000 (constantI S_ 32 0#32)))
              (addi srcw (broadcastInDim S1700000 ![] bcast_S_S1700000 (constantI S_ 32 100000#32))) srcw))) bitsLt_bf16_f32)
        (ix2 n k)
      = Gcn.agg (fun e => dstw (ix1 e)) (fun e => Gcn.wrapNeg (srcw (ix1 e))) (fun n k => h (ix2 n k)) n k := by
  refine (scRows_apply _ _ _ n k).trans ?_
  refine Eq.trans ?_ (agg_def _ _ _ n k).symm
  refine congrArg₂ (· + ·) (zeroArr_apply n k) (Finset.sum_congr ?_ ?_)
  · exact Finset.filter_congr (fun e _ => Iff.of_eq (congrArg (fun v : BitVec 32 => v.toInt = (n.val : ℤ)) (bcastCol_apply dstw e)))
  · intro e _
    exact ((extf_apply _ bitsLt_bf16_f32 (ix2 e k)).trans (gaRows_apply h _ e k)).trans
      (congrArg (fun v : BitVec 32 => h (ix2 (Gcn.rowOf v) k)) ((bcastCol_apply _ e).trans (wrapStage_apply srcw e)))

/-! ## The mean between the third and the fourth call -/

/-- Bank 0 of the pooled sums, as the slice-and-reshape reads it. -/
theorem bank0_apply (p : FVec Ideal S2x64x128 .f32) (g : Fin 64) (k : Fin 128) :
    shapeCast S64x128 (extractStridedSlice S1x64x128 ![0, 0, 0] p slices_S2x64x128_S1x64x128_0_0_0) shapeCasts_S1x64x128_S64x128 (ix2 g k)
      = p (ix3 (0 : Fin 2) g k) :=
  (shapeCast_1ab_ab_apply _ shapeCasts_S1x64x128_S64x128 g k).trans
    (extractStridedSlice_apply _ p slices_S2x64x128_S1x64x128_0_0_0 _ (ix3 (0 : Fin 2) g k) (fun a => match a with
      | ⟨0, _⟩ => rfl
      | ⟨1, _⟩ => by show g.val = 0 + g.val; omega
      | ⟨2, _⟩ => by show k.val = 0 + k.val; omega))

/-- Bank 1 of the pooled sums, as the slice-and-reshape reads it. -/
theorem bank1_apply (p : FVec Ideal S2x64x128 .f32) (g : Fin 64) (k : Fin 128) :
    shapeCast S64x128 (extractStridedSlice S1x64x128 ![1, 0, 0] p slices_S2x64x128_S1x64x128_1_0_0) shapeCasts_S1x64x128_S64x128 (ix2 g k)
      = p (ix3 (1 : Fin 2) g k) :=
  (shapeCast_1ab_ab_apply _ shapeCasts_S1x64x128_S64x128 g k).trans
    (extractStridedSlice_apply _ p slices_S2x64x128_S1x64x128_1_0_0 _ (ix3 (1 : Fin 2) g k) (fun a => match a with
      | ⟨0, _⟩ => rfl
      | ⟨1, _⟩ => by show g.val = 0 + g.val; omega
      | ⟨2, _⟩ => by show k.val = 0 + k.val; omega))

/-- A vector over the graphs broadcast to a column and then along the rows reads, at `(g, k)`, the vector at `g`. -/
theorem graphBcast_apply (v : FVec Ideal S64 .f32) (g : Fin 64) (k : Fin 128) :
    broadcastInDim S64x128 ![0, 1] bcast_S64x1_S64x128_0_1 (broadcastInDim S64x1 ![0] bcast_S64_S64x1_0 v) (ix2 g k) = v (ix1 g) :=
  (broadcastInDim_apply _ bcast_S64x1_S64x128_0_1 _ (ix2 g k) (ix2 g (0 : Fin 1)) (fun a => match a with
    | ⟨0, _⟩ => by show g.val = if (64 : Nat) = 1 then 0 else g.val; rw [if_neg (by decide)]
    | ⟨1, _⟩ => by show 0 = if (1 : Nat) = 1 then 0 else k.val; rw [if_pos rfl])).trans
  (broadcastInDim_apply _ bcast_S64_S64x1_0 v (ix2 g (0 : Fin 1)) (ix1 g) (fun a => match a with
    | ⟨0, _⟩ => by show g.val = if (64 : Nat) = 1 then 0 else g.val; rw [if_neg (by decide)]))

/-- The two banks of pooled sums added, divided by the graph's count (at least one). -/
theorem meanStretch_apply (p : FVec Ideal S2x64x128 .f32) (cnt : FVec Ideal S64 .f32) (g : Fin 64) (k : Fin 128) :
    Host.divf (F := Ideal)
        (addf (shapeCast S64x128 (extractStridedSlice S1x64x128 ![0, 0, 0] p slices_S2x64x128_S1x64x128_0_0_0) shapeCasts_S1x64x128_S64x128)
          (shapeCast S64x128 (extractStridedSlice S1x64x128 ![1, 0, 0] p slices_S2x64x128_S1x64x128_1_0_0) shapeCasts_S1x64x128_S64x128))
        (broadcastInDim S64x128 ![0, 1] bcast_S64x1_S64x128_0_1
          (broadcastInDim S64x1 ![0] bcast_S64_S64x1_0
            (maximumf cnt (broadcastInDim S64 ![] bcast_S_S64 (constant (F := Ideal) S_ .f32 0x3F800000#32)))))
        (ix2 g k)
      = Ideal.div (p (ix3 (0 : Fin 2) g k) + p (ix3 (1 : Fin 2) g k)) (max (cnt (ix1 g)) Gcn.one) := by
  show Ideal.div (_ + _) _ = _
  rw [bank0_apply p g k, bank1_apply p g k, graphBcast_apply _ g k]
  rfl

/-! ## The three stretches of host operations, each result the next call reads at an index, from the contents before it -/

theorem W5_v38_apply (n : Fin 100000) (k : Fin 128) :
    W5 (F := Ideal) m ρ c (Proc.devRef .tc main_v38) (ix2 n k)
      = Gcn.agg (fun e => W4 (F := Ideal) m ρ c (Proc.devRef .tc main_v6) (ix1 e))
          (fun e => Gcn.wrapNeg (W4 (F := Ideal) m ρ c (Proc.devRef .tc main_v3) (ix1 e)))
          (fun n k => W4 (F := Ideal) m ρ c (Proc.devRef .tc main_v27) (ix2 n k)) n k := by
  show StableHlo.after hostOps1 _ (Proc.devRef .tc main_v38) (ix2 n k) = _
  after_results_simp
  exact aggStretch_apply _ _ _ n k

theorem W5_v39_apply (k : Fin 128) :
    W5 (F := Ideal) m ρ c (Proc.devRef .tc main_v39) (ix2 (0 : Fin 1) k)
      = W4 (F := Ideal) m ρ c (Proc.devRef .tc main_arg4) (ix1 k) := by
  show StableHlo.after hostOps1 _ (Proc.devRef .tc main_v39) (ix2 (0 : Fin 1) k) = _
  after_results
  exact shapeCast_a_1a_apply _ shapeCasts_S128_S1x128 0 k

theorem W7_v51_apply (n : Fin 100000) (k : Fin 128) :
    W7 (F := Ideal) m ρ c (Proc.devRef .tc main_v51) (ix2 n k)
      = Gcn.agg (fun e => W6 (F := Ideal) m ρ c (Proc.devRef .tc main_v6) (ix1 e))
          (fun e => Gcn.wrapNeg (W6 (F := Ideal) m ρ c (Proc.devRef .tc main_v3) (ix1 e)))
          (fun n k => W6 (F := Ideal) m ρ c (Proc.devRef .tc main_v40) (ix2 n k)) n k := by
  show StableHlo.after hostOps2 _ (Proc.devRef .tc main_v51) (ix2 n k) = _
  after_results_simp
  exact aggStretch_apply _ _ _ n k

theorem W7_v52_apply (k : Fin 128) :
    W7 (F := Ideal) m ρ c (Proc.devRef .tc main_v52) (ix2 (0 : Fin 1) k)
      = W6 (F := Ideal) m ρ c (Proc.devRef .tc main_arg6) (ix1 k) := by
  show StableHlo.after hostOps2 _ (Proc.devRef .tc main_v52) (ix2 (0 : Fin 1) k) = _
  after_results
  exact shapeCast_a_1a_apply _ shapeCasts_S128_S1x128 0 k

/-- The third call's result array (both banks) and the graph counts as the third stretch finds them, under their literal types. -/
abbrev bankArr : FVec Ideal S2x64x128 .f32 := W8 (F := Ideal) m ρ c (Proc.devRef .tc main_v53)
abbrev cntArr : FVec Ideal S64 .f32 := W8 (F := Ideal) m ρ c (Proc.devRef .tc main_v19)

theorem W9_v63_apply (g : Fin 64) (k : Fin 128) :
    W9 (F := Ideal) m ρ c (Proc.devRef .tc main_v63) (ix2 g k)
      = Ideal.div (bankArr m ρ c (ix3 (0 : Fin 2) g k) + bankArr m ρ c (ix3 (1 : Fin 2) g k))
          (max (cntArr m ρ c (ix1 g)) Gcn.one) := by
  show StableHlo.after hostOps3 _ (Proc.devRef .tc main_v63) (ix2 g k) = _
  after_results_simp
  exact meanStretch_apply _ _ g k

theorem W9_v64_apply (o : Fin 32) :
    W9 (F := Ideal) m ρ c (Proc.devRef .tc main_v64) (ix2 (0 : Fin 1) o)
      = W8 (F := Ideal) m ρ c (Proc.devRef .tc main_arg8) (ix1 o) := by
  show StableHlo.after hostOps3 _ (Proc.devRef .tc main_v64) (ix2 (0 : Fin 1) o) = _
  after_results
  exact shapeCast_a_1a_apply _ shapeCasts_S32_S1x32 0 o

/-! ## The specification's arguments, as the program has them -/

abbrev xA : Fin 100000 → Fin 64 → EReal := fun n j => m ((c.tc : Thread nD τ).loc main_arg0) (ix2 n j)
abbrev w1A : Fin 64 → Fin 128 → EReal := fun j k => m ((c.tc : Thread nD τ).loc main_arg3) (ix2 j k)
abbrev b1A : Fin 128 → EReal := fun k => m ((c.tc : Thread nD τ).loc main_arg4) (ix1 k)
abbrev w2A : Fin 128 → Fin 128 → EReal := fun j k => m ((c.tc : Thread nD τ).loc main_arg5) (ix2 j k)
abbrev b2A : Fin 128 → EReal := fun k => m ((c.tc : Thread nD τ).loc main_arg6) (ix1 k)
abbrev wlA : Fin 128 → Fin 32 → EReal := fun k o => m ((c.tc : Thread nD τ).loc main_arg7) (ix2 k o)
abbrev blA : Fin 32 → EReal := fun o => m ((c.tc : Thread nD τ).loc main_arg8) (ix1 o)
abbrev btA : Fin 100000 → BitVec 32 := fun n => m ((c.tc : Thread nD τ).loc main_arg2) (ix1 n)
abbrev dstF : Fin 1700000 → BitVec 32 := fun e => dstVec m ρ c (ix1 e)
abbrev snF : Fin 1700000 → BitVec 32 := fun e => Gcn.wrapNeg (srcVec m ρ c (ix1 e))
abbrev dC : Fin 100000 → EReal := fun n => coeffCol m ρ c (ix2 n (0 : Fin 1))
abbrev cntF : Fin 64 → EReal := fun g => cntVec m ρ c (ix1 g)
abbrev ohF : Fin 100000 → Fin 64 → EReal := fun n g => onehot m ρ c (ix2 n g)

/-- The first layer's scaled transform, its aggregation, the second layer's scaled transform, its aggregation, and the
    second layer's activations. -/
abbrev L0 : Fin 100000 → Fin 128 → EReal := Gcn.scaled (dC m ρ c) (Gcn.lin1 (xA m c) (w1A m c))
abbrev A1 : Fin 100000 → Fin 128 → EReal := Gcn.agg (dstF m ρ c) (snF m ρ c) (L0 m ρ c)
abbrev L1 : Fin 100000 → Fin 128 → EReal :=
  Gcn.scaled (dC m ρ c) (Gcn.lin2 (Gcn.act (dC m ρ c) (b1A m c) (A1 m ρ c)) (w2A m c))
abbrev A2 : Fin 100000 → Fin 128 → EReal := Gcn.agg (dstF m ρ c) (snF m ρ c) (L1 m ρ c)
abbrev H2 : Fin 100000 → Fin 128 → EReal := Gcn.act (dC m ρ c) (b2A m c) (A2 m ρ c)

/-- The specification's result with its layers written out. -/
theorem out_unfold (x : Fin 100000 → Fin 64 → EReal) (W1 : Fin 64 → Fin 128 → EReal) (b1 : Fin 128 → EReal)
    (W2 : Fin 128 → Fin 128 → EReal) (b2 : Fin 128 → EReal) (Wl : Fin 128 → Fin 32 → EReal) (bl : Fin 32 → EReal)
    (dst sn : Fin 1700000 → BitVec 32) (d : Fin 100000 → EReal) (bt : Fin 100000 → BitVec 32) (cnt : Fin 64 → EReal)
    (g : Fin 64) (o : Fin 32) :
    Gcn.out x W1 b1 W2 b2 Wl bl dst sn d bt cnt g o
      = Gcn.lin3 (fun g k => Ideal.div (Gcn.pool bt (Gcn.act d b2 (Gcn.agg dst sn (Gcn.scaled d (Gcn.lin2 (Gcn.act d b1
          (Gcn.agg dst sn (Gcn.scaled d (Gcn.lin1 x W1)))) W2)))) g k) (max (cnt g) Gcn.one)) Wl bl g o := rfl

/-! ## The chain: each call's result and each stretch's, from the arguments -/

/-- The first call's result: the dense transform of the features, every row times its node's coefficient. -/
theorem layer0_value (n : Fin 100000) (k : Fin 128) :
    W4 (F := Ideal) m ρ c (Proc.devRef .tc main_v27) (ix2 n k) = L0 m ρ c n k := by
  refine (congrFun (W4_arr m ρ c 3) (ix2 n k)).trans ?_
  refine (region0_value (V3 m ρ) c n k).trans ?_
  have hx : (fun n j => V3 (F := Ideal) m ρ c main_arg0 (ix2 n j)) = xA m c := by
    funext n j; exact congrFun (entry_arg0 m ρ c) (ix2 n j)
  have hw : (fun j k => V3 (F := Ideal) m ρ c main_arg3 (ix2 j k)) = w1A m c := by
    funext j k; exact congrFun (entry_arg3 m ρ c) (ix2 j k)
  rw [hx, hw] <;> rfl

/-- Its aggregation over the messages. -/
theorem agg1_value (n : Fin 100000) (k : Fin 128) :
    W5 (F := Ideal) m ρ c (Proc.devRef .tc main_v38) (ix2 n k) = A1 m ρ c n k := by
  refine (W5_v38_apply m ρ c n k).trans ?_
  have h27 : (fun n k => W4 (F := Ideal) m ρ c (Proc.devRef .tc main_v27) (ix2 n k)) = L0 m ρ c := by
    funext n k; exact layer0_value m ρ c n k
  rw [carry_v6_W4 m ρ c, carry_v3_W4 m ρ c, h27] <;> rfl

/-- The second call's result: the first layer's activations through the second dense transform, scaled. -/
theorem layer1_value (n : Fin 100000) (k : Fin 128) :
    W6 (F := Ideal) m ρ c (Proc.devRef .tc main_v40) (ix2 n k) = L1 m ρ c n k := by
  refine (congrFun (W6_arr m ρ c 4) (ix2 n k)).trans ?_
  refine (region1_value (V5 m ρ) c n k).trans ?_
  have hd : (fun n => V5 (F := Ideal) m ρ c main_v15 (ix2 n (0 : Fin 1))) = dC m ρ c := by
    funext n; exact congrFun (carry_v15_W5 m ρ c) (ix2 n (0 : Fin 1))
  have hb : (fun k => V5 (F := Ideal) m ρ c main_v39 (ix2 (0 : Fin 1) k)) = b1A m c := by
    funext k; exact (W5_v39_apply m ρ c k).trans (congrFun (carry_arg4_W4 m ρ c) (ix1 k))
  have ha : (fun n k => V5 (F := Ideal) m ρ c main_v38 (ix2 n k)) = A1 m ρ c := by
    funext n k; exact agg1_value m ρ c n k
  have hw : (fun j k => V5 (F := Ideal) m ρ c main_arg5 (ix2 j k)) = w2A m c := by
    funext j k; exact congrFun (carry_arg5_W5 m ρ c) (ix2 j k)
  rw [hd, hb, ha, hw] <;> rfl

/-- Its aggregation over the messages. -/
theorem agg2_value (n : Fin 100000) (k : Fin 128) :
    W7 (F := Ideal) m ρ c (Proc.devRef .tc main_v51) (ix2 n k) = A2 m ρ c n k := by
  refine (W7_v51_apply m ρ c n k).trans ?_
  have h40 : (fun n k => W6 (F := Ideal) m ρ c (Proc.devRef .tc main_v40) (ix2 n k)) = L1 m ρ c := by
    funext n k; exact layer1_value m ρ c n k
  rw [carry_v6_W6 m ρ c, carry_v3_W6 m ρ c, h40] <;> rfl

/-- The third call's result: each half's one-hot product of the second layer's activations. -/
theorem pool_value (h : Fin 2) (g : Fin 64) (k : Fin 128) :
    bankArr m ρ c (ix3 h g k) = Gcn.poolHalf (ohF m ρ c) (H2 m ρ c) h g k := by
  refine (congrFun (W8_arr m ρ c 4) (ix3 h g k)).trans ?_
  refine (region2_value (V7 m ρ) c h g k).trans ?_
  have ho : (fun n g => V7 (F := Ideal) m ρ c main_v26 (ix2 n g)) = ohF m ρ c := by
    funext n g; exact congrFun (carry_v26_W7 m ρ c) (ix2 n g)
  have hd : (fun n => V7 (F := Ideal) m ρ c main_v15 (ix2 n (0 : Fin 1))) = dC m ρ c := by
    funext n; exact congrFun (carry_v15_W7 m ρ c) (ix2 n (0 : Fin 1))
  have hb : (fun k => V7 (F := Ideal) m ρ c main_v52 (ix2 (0 : Fin 1) k)) = b2A m c := by
    funext k; exact (W7_v52_apply m ρ c k).trans (congrFun (carry_arg6_W6 m ρ c) (ix1 k))
  have ha : (fun n k => V7 (F := Ideal) m ρ c main_v51 (ix2 n k)) = A2 m ρ c := by
    funext n k; exact agg2_value m ρ c n k
  rw [ho, hd, hb, ha] <;> rfl

/-- The mean over each graph: the two halves' sums are the sum over the graph's nodes (the pooling law). -/
theorem mean_value (g : Fin 64) (k : Fin 128) :
    W9 (F := Ideal) m ρ c (Proc.devRef .tc main_v63) (ix2 g k)
      = Ideal.div (Gcn.pool (btA m c) (H2 m ρ c) g k) (max (cntF m ρ c g) Gcn.one) := by
  refine (W9_v63_apply m ρ c g k).trans ?_
  have hc : cntArr m ρ c (ix1 g) = cntF m ρ c g := congrFun (carry_v19_W8 m ρ c) (ix1 g)
  rw [pool_value m ρ c 0 g k, pool_value m ρ c 1 g k, hc,
    Gcn.pool_law (btA m c) (ohF m ρ c) (fun n g => onehot_apply m ρ c n g) (H2 m ρ c) g k]

/-- THE PROGRAM'S RESULT at an index: the specification's function of the argument arrays, with the destination words,
    the source words (counted from the end when negative), the coefficients and the graph counts the ones the program
    has before its first call. -/
theorem kernel_value (g : Fin 64) (o : Fin 32) :
    W10 (F := Ideal) m ρ c (Proc.devRef .tc main_v65) (ix2 g o)
      = Gcn.out (fun n j => m ((c.tc : Thread nD τ).loc main_arg0) (ix2 n j)) (fun j k => m ((c.tc : Thread nD τ).loc main_arg3) (ix2 j k))
          (fun k => m ((c.tc : Thread nD τ).loc main_arg4) (ix1 k)) (fun j k => m ((c.tc : Thread nD τ).loc main_arg5) (ix2 j k))
          (fun k => m ((c.tc : Thread nD τ).loc main_arg6) (ix1 k)) (fun k o => m ((c.tc : Thread nD τ).loc main_arg7) (ix2 k o))
          (fun o => m ((c.tc : Thread nD τ).loc main_arg8) (ix1 o))
          (fun e => dstVec m ρ c (ix1 e)) (fun e => Gcn.wrapNeg (srcVec m ρ c (ix1 e)))
          (fun n => coeffCol m ρ c (ix2 n (0 : Fin 1))) (fun n => m ((c.tc : Thread nD τ).loc main_arg2) (ix1 n))
          (fun g => cntVec m ρ c (ix1 g)) g o := by
  refine Eq.trans ?_ (out_unfold _ _ _ _ _ _ _ _ _ _ _ _ g o).symm
  refine (congrFun (W10_arr m ρ c 3) (ix2 g o)).trans ?_
  refine (region3_value (V9 m ρ) c g o).trans ?_
  have hp : (fun g k => V9 (F := Ideal) m ρ c main_v63 (ix2 g k))
      = fun g k => Ideal.div (Gcn.pool (btA m c) (H2 m ρ c) g k) (max (cntF m ρ c g) Gcn.one) := by
    funext g k; exact mean_value m ρ c g k
  have hw : (fun k o => V9 (F := Ideal) m ρ c main_arg7 (ix2 k o)) = wlA m c := by
    funext k o; exact congrFun (carry_arg7_W9 m ρ c) (ix2 k o)
  have hb : (fun o => V9 (F := Ideal) m ρ c main_v64 (ix2 (0 : Fin 1) o)) = blA m c := by
    funext o; exact (W9_v64_apply m ρ c o).trans (congrFun (carry_arg8_W8 m ρ c) (ix1 o))
  rw [hp, hw, hb] <;> rfl

end Cert.KernelIdeal.Chain

end
-- ==== Proof.RefWords.lean ====
/- The reference's index columns and message weights, at an index, for both layers: a destination column's entry is the
   message's destination word; a source column's entry is the source word counted from the end when negative; a message's
   weight is the product of the coefficients at the rows a gather reads at its source word and at its destination word
   (each counted from the end when negative, read signed, clamped into the rows). -/
import proofs.«414723_j3659312136457_3_alg».proof.Proof.RefRead
import proofs.«414723_j3659312136457_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

open Idealize.ShloMosaic Idealize.ShloMosaic.TcCoe Idealize.SL.Sem Idealize.ShloMosaic.ValueIdx

namespace Cert.ReferenceIdeal.RefWords

open Cert.ReferenceIdeal Cert.ReferenceIdeal.Gen Cert.ReferenceIdeal.Read

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x32, .f32⟩ : BufTy).Contents (Elt Ideal))
  (x8 : (⟨S32, .f32⟩ : BufTy).Contents (Elt Ideal))

/-! ## The columns of words -/

/-- The destination column of the first layer's scatter holds the destination words. -/
theorem dstcol42 (e : Fin 1700000) : val_main_v42 (F := Ideal) x1 (ix2 e (0 : Fin 1)) = val_main_v6 (F := Ideal) x1 (ix1 e) := by
  have hi : idx_main_v42 (ix2 e (0 : Fin 1)) = ix1 e := funext fun a => match a with | ⟨0, _⟩ => rfl
  rw [val_main_v42_apply, hi]
/-- The destination column of the second layer's scatter holds the destination words. -/
theorem dstcol75 (e : Fin 1700000) : val_main_v75 (F := Ideal) x1 (ix2 e (0 : Fin 1)) = val_main_v6 (F := Ideal) x1 (ix1 e) := by
  have hi : idx_main_v75 (ix2 e (0 : Fin 1)) = ix1 e := funext fun a => match a with | ⟨0, _⟩ => rfl
  rw [val_main_v75_apply, hi]
/-- The source column of the first layer's row gather: each source word, counted from the end when negative. -/
theorem srccol36 (e : Fin 1700000) : val_main_v36 (F := Ideal) x1 (ix2 e (0 : Fin 1)) = Gcn.wrapNeg (val_main_v3 (F := Ideal) x1 (ix1 e)) := by
  have hi : idx_main_v36 (ix2 e (0 : Fin 1)) = ix1 e := funext fun a => match a with | ⟨0, _⟩ => rfl
  rw [val_main_v36_apply, hi, val_main_v35_apply, val_main_v32_apply, val_main_v34_apply, val_main_v31_apply, val_main_v33_apply,
    val_main_c_6_apply, val_main_c_7_apply]
  rfl
/-- The source column of the second layer's row gather: the same words. -/
theorem srccol69 (e : Fin 1700000) : val_main_v69 (F := Ideal) x1 (ix2 e (0 : Fin 1)) = Gcn.wrapNeg (val_main_v3 (F := Ideal) x1 (ix1 e)) := by
  have hi : idx_main_v69 (ix2 e (0 : Fin 1)) = ix1 e := funext fun a => match a with | ⟨0, _⟩ => rfl
  rw [val_main_v69_apply, hi, val_main_v68_apply, val_main_v65_apply, val_main_v67_apply, val_main_v64_apply, val_main_v66_apply,
    val_main_c_13_apply, val_main_c_14_apply]
  rfl

/-! ## The columns the coefficient gathers read, both layers -/

/-- The first layer's coefficient gather at the source: its start column is the source words counted from the end when negative. -/
theorem srccol21 (e : Fin 1700000) : val_main_v21 (F := Ideal) x1 (ix2 e (0 : Fin 1)) = Gcn.wrapNeg (val_main_v3 (F := Ideal) x1 (ix1 e)) := by
  have hi : idx_main_v21 (ix2 e (0 : Fin 1)) = ix1 e := funext fun a => match a with | ⟨0, _⟩ => rfl
  rw [val_main_v21_apply, hi, val_main_v20_apply, val_main_v17_apply, val_main_v19_apply, val_main_v16_apply, val_main_v18_apply,
    val_main_c_apply, val_main_c_3_apply]
  rfl
/-- The first layer's coefficient gather at the destination: its start column is the destination words counted from the end when negative. -/
theorem dstcol28 (e : Fin 1700000) : val_main_v28 (F := Ideal) x1 (ix2 e (0 : Fin 1)) = Gcn.wrapNeg (val_main_v6 (F := Ideal) x1 (ix1 e)) := by
  have hi : idx_main_v28 (ix2 e (0 : Fin 1)) = ix1 e := funext fun a => match a with | ⟨0, _⟩ => rfl
  rw [val_main_v28_apply, hi, val_main_v27_apply, val_main_v24_apply, val_main_v26_apply, val_main_v23_apply, val_main_v25_apply,
    val_main_c_4_apply, val_main_c_5_apply]
  rfl
/-- The second layer's coefficient gather at the source. -/
theorem srccol54 (e : Fin 1700000) : val_main_v54 (F := Ideal) x1 (ix2 e (0 : Fin 1)) = Gcn.wrapNeg (val_main_v3 (F := Ideal) x1 (ix1 e)) := by
  have hi : idx_main_v54 (ix2 e (0 : Fin 1)) = ix1 e := funext fun a => match a with | ⟨0, _⟩ => rfl
  rw [val_main_v54_apply, hi, val_main_v53_apply, val_main_v50_apply, val_main_v52_apply, val_main_v49_apply, val_main_v51_apply,
    val_main_c_9_apply, val_main_c_10_apply]
  rfl
/-- The second layer's coefficient gather at the destination. -/
theorem dstcol61 (e : Fin 1700000) : val_main_v61 (F := Ideal) x1 (ix2 e (0 : Fin 1)) = Gcn.wrapNeg (val_main_v6 (F := Ideal) x1 (ix1 e)) := by
  have hi : idx_main_v61 (ix2 e (0 : Fin 1)) = ix1 e := funext fun a => match a with | ⟨0, _⟩ => rfl
  rw [val_main_v61_apply, hi, val_main_v60_apply, val_main_v57_apply, val_main_v59_apply, val_main_v56_apply, val_main_v58_apply,
    val_main_c_11_apply, val_main_c_12_apply]
  rfl

/-! ## The gather of one coefficient per message -/

theorem take_coll : gather_S100000_S1700000x1_S1700000_n_0_n_n_0_1_1.collapsedSliceDims = [0] := rfl
theorem take_ob : gather_S100000_S1700000x1_S1700000_n_0_n_n_0_1_1.operandBatchingDims = [] := rfl
theorem take_sim : gather_S100000_S1700000x1_S1700000_n_0_n_n_0_1_1.startIndexMap = [0] := rfl
theorem take_ivd : gather_S100000_S1700000x1_S1700000_n_0_n_n_0_1_1.indexVectorDim = 1 := rfl

/-- Entry `e` of a gather of single coefficients is the coefficient at the row its start word reads: signed, clamped into the rows. -/
theorem take_apply (x : FVec Ideal S100000 .f32) (idx : IVec S1700000x1 32) (e : Fin 1700000) :
    Host.gather gather_S100000_S1700000x1_S1700000_n_0_n_n_0_1_1 x idx (ix1 e) = x (ix1 (Gcn.rowOf (idx (ix2 e (0 : Fin 1))))) := by
  have e1 : (ix1 e : S1700000.Idx) = Shape.Idx.ofFin e := funext fun a => match a with | ⟨0, _⟩ => rfl
  have e2 : (StableHlo.Predicate.ixP e : S1700000x1.Idx) = ix2 e (0 : Fin 1) := funext fun a => match a with | ⟨0, _⟩ => rfl | ⟨1, _⟩ => rfl
  rw [e1]
  refine (StableHlo.Predicate.gather_take gather_S100000_S1700000x1_S1700000_n_0_n_n_0_1_1 take_coll take_ob take_sim take_ivd x idx e (by decide)).trans ?_
  refine congrArg x (funext fun a => ?_)
  match a with
  | ⟨0, _⟩ => exact Fin.ext (by show min (idx (StableHlo.Predicate.ixP e)).toInt.toNat (100000 - 1) = min (idx (ix2 e (0 : Fin 1))).toInt.toNat (100000 - 1); rw [e2])

/-! ## The message weights -/

/-- The first layer's weight of message `e`, the same in every column: the coefficient at its source row times the coefficient at its destination row. -/
theorem weight39 (e : Fin 1700000) (k : Fin 128) : val_main_v39 (F := Ideal) x1 (ix2 e k)
    = val_main_v14 (F := Ideal) x1 (ix1 (Gcn.rowOf (Gcn.wrapNeg (val_main_v3 (F := Ideal) x1 (ix1 e)))))
      * val_main_v14 (F := Ideal) x1 (ix1 (Gcn.rowOf (Gcn.wrapNeg (val_main_v6 (F := Ideal) x1 (ix1 e))))) := by
  have h39 : idx_main_v39 (ix2 e k) = ix2 e (0 : Fin 1) := funext fun a => match a with | ⟨0, _⟩ => rfl | ⟨1, _⟩ => rfl
  have h38 : idx_main_v38 (ix2 e (0 : Fin 1)) = ix1 e := funext fun a => match a with | ⟨0, _⟩ => rfl
  have g22 : val_main_v22 (F := Ideal) x1 (ix1 e) = val_main_v14 (F := Ideal) x1 (ix1 (Gcn.rowOf (val_main_v21 (F := Ideal) x1 (ix2 e (0 : Fin 1))))) := by
    unfold val_main_v22; exact take_apply _ _ e
  have g29 : val_main_v29 (F := Ideal) x1 (ix1 e) = val_main_v14 (F := Ideal) x1 (ix1 (Gcn.rowOf (val_main_v28 (F := Ideal) x1 (ix2 e (0 : Fin 1))))) := by
    unfold val_main_v29; exact take_apply _ _ e
  rw [val_main_v39_apply, h39, val_main_v38_apply, h38, val_main_v30_apply, g22, g29, srccol21 x1 e, dstcol28 x1 e]
  rfl
/-- The second layer's weight of message `e`: the same product. -/
theorem weight72 (e : Fin 1700000) (k : Fin 128) : val_main_v72 (F := Ideal) x1 (ix2 e k)
    = val_main_v14 (F := Ideal) x1 (ix1 (Gcn.rowOf (Gcn.wrapNeg (val_main_v3 (F := Ideal) x1 (ix1 e)))))
      * val_main_v14 (F := Ideal) x1 (ix1 (Gcn.rowOf (Gcn.wrapNeg (val_main_v6 (F := Ideal) x1 (ix1 e))))) := by
  have h72 : idx_main_v72 (ix2 e k) = ix2 e (0 : Fin 1) := funext fun a => match a with | ⟨0, _⟩ => rfl | ⟨1, _⟩ => rfl
  have h71 : idx_main_v71 (ix2 e (0 : Fin 1)) = ix1 e := funext fun a => match a with | ⟨0, _⟩ => rfl
  have g55 : val_main_v55 (F := Ideal) x1 (ix1 e) = val_main_v14 (F := Ideal) x1 (ix1 (Gcn.rowOf (val_main_v54 (F := Ideal) x1 (ix2 e (0 : Fin 1))))) := by
    unfold val_main_v55; exact take_apply _ _ e
  have g62 : val_main_v62 (F := Ideal) x1 (ix1 e) = val_main_v14 (F := Ideal) x1 (ix1 (Gcn.rowOf (val_main_v61 (F := Ideal) x1 (ix2 e (0 : Fin 1))))) := by
    unfold val_main_v62; exact take_apply _ _ e
  rw [val_main_v72_apply, h72, val_main_v71_apply, h71, val_main_v63_apply, g55, g62, srccol54 x1 e, dstcol61 x1 e]
  rfl

end Cert.ReferenceIdeal.RefWords

end
-- ==== Proof.RefTail.lean ====
/- The reference's last stages, at the ideal values: from the second layer's activations (any array `H` they are known to be)
   to the result — the rows of each graph summed (a scatter-add at the graph words into zeros), divided by the graph's count
   (at least one), through the last dense layer, plus its bias: the specification's `head` of `pool`. -/
import proofs.«414723_j3659312136457_3_alg».proof.Proof.RefRead
import proofs.«414723_j3659312136457_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

open Idealize.ShloMosaic Idealize.ShloMosaic.TcCoe Idealize.SL.Sem Idealize.ShloMosaic.ValueIdx

namespace Cert.ReferenceIdeal.RefTail

open Cert.ReferenceIdeal Cert.ReferenceIdeal.Gen Cert.ReferenceIdeal.Read

/-! The steps from the activations to the result, in a namespace of their own. -/
namespace Tail

/-! ## The pooling scatter-add at an index -/

theorem pool_uw : scatter_S64x128_S100000x1_S100000x128_1_0_0_1.updateWindowDims = [1] := rfl
theorem pool_iw : scatter_S64x128_S100000x1_S100000x128_1_0_0_1.insertedWindowDims = [0] := rfl
theorem pool_sd : scatter_S64x128_S100000x1_S100000x128_1_0_0_1.scatterDimsToOperandDims = [0] := rfl
theorem pool_iv : scatter_S64x128_S100000x1_S100000x128_1_0_0_1.indexVectorDim = 1 := rfl

/-- At the ideal values the host's scatter-add is the exact one, whatever its operands. -/
theorem pool_host (a : FVec Ideal S64x128 .f32) (b : IVec S100000x1 32) (u : FVec Ideal S100000x128 .f32) :
    Host.scatterAdd (F := Ideal) scatter_S64x128_S100000x1_S100000x128_1_0_0_1 a b u = Ideal.hostScatterAdd scatter_S64x128_S100000x1_S100000x128_1_0_0_1 a b u := rfl

/-- Row `g`, column `k` of the scatter-add: the operand's entry plus column `k` of the update rows whose word reads `g`. -/
theorem pool_scatter_apply (a : FVec Ideal S64x128 .f32) (b : IVec S100000x1 32) (u : FVec Ideal S100000x128 .f32)
    (g : Fin 64) (k : Fin 128) :
    Host.scatterAdd (F := Ideal) scatter_S64x128_S100000x1_S100000x128_1_0_0_1 a b u (ix2 g k)
      = a (ix2 g k) + ∑ n ∈ Finset.univ.filter (fun n : Fin 100000 => (b (ix2 n (0 : Fin 1))).toInt = (g.val : ℤ)), u (ix2 n k) :=
  (congrFun (pool_host a b u) (ix2 g k)).trans (Gcn.scatterAdd_rows_apply scatter_S64x128_S100000x1_S100000x128_1_0_0_1 pool_uw pool_iw pool_sd pool_iv a b u g k)

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x32, .f32⟩ : BufTy).Contents (Elt Ideal))
  (x8 : (⟨S32, .f32⟩ : BufTy).Contents (Elt Ideal))

/-- The graph words as a column read, at row `n`, node `n`'s word. -/
theorem words_apply (n : Fin 100000) : val_main_v82 (F := Ideal) x2 (ix2 n (0 : Fin 1)) = x2 (ix1 n) := by
  rw [val_main_v82_apply]
  exact congrArg x2 (funext fun a => match a with | ⟨0, _⟩ => rfl)

/-- THE POOLED SUMS: the scatter-add of the activations at the graph words into zeros is, at graph `g` and column `k`,
    zero plus the sum of column `k` over the nodes whose word reads `g`. -/
theorem pooled_apply (H : Fin 100000 → Fin 128 → EReal)
    (hH : ∀ (n : Fin 100000) (k : Fin 128), val_main_v80 (F := Ideal) x0 x1 x3 x4 x5 x6 (ix2 n k) = H n k) (g : Fin 64) (k : Fin 128) :
    val_main_v83 (F := Ideal) x0 x1 x2 x3 x4 x5 x6 (ix2 g k) = Gcn.pool (fun n => x2 (ix1 n)) H g k := by
  unfold val_main_v83
  refine (pool_scatter_apply _ _ _ g k).trans ?_
  unfold Gcn.pool
  refine congrArg₂ (fun a b : EReal => a + b) ?_ ?_
  · rw [val_main_v81_apply]; rfl
  · exact Finset.sum_congr (Finset.filter_congr fun n _ => by rw [words_apply x2 n]) fun n _ => hH n k

/-- THE DIVISOR at graph `g`, whatever the column: the graph's count, at least one. -/
theorem divisor_apply (g : Fin 64) (k : Fin 128) :
    val_main_v91 (F := Ideal) x2 (ix2 g k) = max (val_main_v87 (F := Ideal) x2 (ix1 g)) Gcn.one := by
  rw [val_main_v91_apply, val_main_v90_apply, val_main_v89_apply, val_main_v88_apply, val_main_cst_19_apply]
  have e : idx_main_v90 (idx_main_v91 (ix2 g k)) = ix1 g := funext fun a => match a with | ⟨0, _⟩ => rfl
  rw [e]
  rfl

/-- The bias row spread down the 64 graphs reads, at column `o`, its entry `o`. -/
theorem bias_apply (g : Fin 64) (o : Fin 32) : val_main_v95 (F := Ideal) x8 (ix2 g o) = x8 (ix1 o) := by
  rw [val_main_v95_apply, val_main_v94_apply]
  exact congrArg x8 (funext fun a => match a with | ⟨0, _⟩ => rfl)

end Tail

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x32, .f32⟩ : BufTy).Contents (Elt Ideal))
  (x8 : (⟨S32, .f32⟩ : BufTy).Contents (Elt Ideal))

/-- From the second layer's activations to the result. -/
theorem ref_tail (H : Fin 100000 → Fin 128 → EReal)
    (hH : ∀ (n : Fin 100000) (k : Fin 128), val_main_v80 (F := Ideal) x0 x1 x3 x4 x5 x6 (ix2 n k) = H n k) (g : Fin 64) (o : Fin 32) :
    val_main_v96 (F := Ideal) x0 x1 x2 x3 x4 x5 x6 x7 x8 (ix2 g o)
      = Gcn.head (fun g => val_main_v87 (F := Ideal) x2 (ix1 g)) (fun k o => x7 (ix2 k o)) (fun o => x8 (ix1 o))
          (Gcn.pool (fun n => x2 (ix1 n)) H) g o := by
  rw [val_main_v96_apply, val_main_v93_apply, Tail.bias_apply x8 g o]
  unfold Gcn.head Gcn.lin3
  show _ + _ = _ + _
  refine congrArg₂ (fun a b : EReal => a + b) ?_ rfl
  refine Finset.sum_congr rfl fun k _ => ?_
  have el : lidx_main_v93 (ix2 g o) k = ix2 g k := funext fun a => match a with | ⟨0, _⟩ => rfl | ⟨1, _⟩ => rfl
  have er : ridx_main_v93 (ix2 g o) k = ix2 k o := funext fun a => match a with | ⟨0, _⟩ => rfl | ⟨1, _⟩ => rfl
  rw [el, er, val_main_v92_apply, Ideal.hostDivf_def, Tail.pooled_apply x0 x1 x2 x3 x4 x5 x6 H hH g k, Tail.divisor_apply x2 g k]

end Cert.ReferenceIdeal.RefTail

end
-- ==== Proof.RefValue.lean ====
/- The reference program's result, at the ideal values, as the specification's function of the argument arrays. Stage by
   stage (the generated read-at-an-index lemmas; the gathers and scatter-adds by the specification's index lemmas): the
   degrees are counts, so every coefficient is a non-negative real; each layer's scatter-add of the gathered rows weighted
   by `d(source) · d(destination)` is, by the layer law, the aggregation of the rows scaled by their own coefficient, times the
   destination's; the sum over each graph, the division by the count, the last dense layer. -/
import proofs.«414723_j3659312136457_3_alg».proof.Proof.RefRead
import proofs.«414723_j3659312136457_3_alg».proof.Proof.Spec
import proofs.«414723_j3659312136457_3_alg».proof.Proof.RefWords
import proofs.«414723_j3659312136457_3_alg».proof.Proof.RefTail
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.StableHlo.Predicate

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x32, .f32⟩ : BufTy).Contents (Elt Ideal))
  (x8 : (⟨S32, .f32⟩ : BufTy).Contents (Elt Ideal))

/-! ## The scatter-adds and the row gather of this program, read at an index

Each is stated over arbitrary operand arrays. -/

theorem sv_uw : scatter_S100000_S1700000x1_S1700000_n_0_0_1.updateWindowDims = [] := rfl
theorem sv_iw : scatter_S100000_S1700000x1_S1700000_n_0_0_1.insertedWindowDims = [0] := rfl
theorem sv_sd : scatter_S100000_S1700000x1_S1700000_n_0_0_1.scatterDimsToOperandDims = [0] := rfl
theorem sv_iv : scatter_S100000_S1700000x1_S1700000_n_0_0_1.indexVectorDim = 1 := rfl

/-- At the ideal values the host's scatter-add of a vector is the exact sum. -/
theorem scatter_vec_ideal (a : FVec Ideal S100000 .f32) (b : IVec S1700000x1 32) (u : FVec Ideal S1700000 .f32) :
    Host.scatterAdd (F := Ideal) scatter_S100000_S1700000x1_S1700000_n_0_0_1 a b u = Ideal.hostScatterAdd scatter_S100000_S1700000x1_S1700000_n_0_0_1 a b u := rfl

/-- Element `n` of a scatter-add into a vector: the operand's plus the updates whose start word reads `n`. -/
theorem scatter_vec_read (a : FVec Ideal S100000 .f32) (b : IVec S1700000x1 32) (u : FVec Ideal S1700000 .f32) (n : Fin 100000) :
    Host.scatterAdd (F := Ideal) scatter_S100000_S1700000x1_S1700000_n_0_0_1 a b u (ix1 n)
      = a (ix1 n) + ∑ e ∈ Finset.univ.filter (fun e : Fin 1700000 => (b (ix2 e (0 : Fin 1))).toInt = (n.val : ℤ)), u (ix1 e) :=
  (congrFun (scatter_vec_ideal a b u) (ix1 n)).trans (Gcn.scatterAdd_vec_apply scatter_S100000_S1700000x1_S1700000_n_0_0_1 sv_uw sv_iw sv_sd sv_iv a b u n)

theorem sr_uw : scatter_S100000x128_S1700000x1_S1700000x128_1_0_0_1.updateWindowDims = [1] := rfl
theorem sr_iw : scatter_S100000x128_S1700000x1_S1700000x128_1_0_0_1.insertedWindowDims = [0] := rfl
theorem sr_sd : scatter_S100000x128_S1700000x1_S1700000x128_1_0_0_1.scatterDimsToOperandDims = [0] := rfl
theorem sr_iv : scatter_S100000x128_S1700000x1_S1700000x128_1_0_0_1.indexVectorDim = 1 := rfl

/-- At the ideal values the host's scatter-add of rows is the exact sum. -/
theorem scatter_rows_ideal (a : FVec Ideal S100000x128 .f32) (b : IVec S1700000x1 32) (u : FVec Ideal S1700000x128 .f32) :
    Host.scatterAdd (F := Ideal) scatter_S100000x128_S1700000x1_S1700000x128_1_0_0_1 a b u = Ideal.hostScatterAdd scatter_S100000x128_S1700000x1_S1700000x128_1_0_0_1 a b u := rfl

/-- Element `(n, k)` of a scatter-add of rows: the operand's plus column `k` of the update rows whose start word reads `n`. -/
theorem scatter_rows_read (a : FVec Ideal S100000x128 .f32) (b : IVec S1700000x1 32) (u : FVec Ideal S1700000x128 .f32)
    (n : Fin 100000) (k : Fin 128) :
    Host.scatterAdd (F := Ideal) scatter_S100000x128_S1700000x1_S1700000x128_1_0_0_1 a b u (ix2 n k)
      = a (ix2 n k) + ∑ e ∈ Finset.univ.filter (fun e : Fin 1700000 => (b (ix2 e (0 : Fin 1))).toInt = (n.val : ℤ)), u (ix2 e k) :=
  (congrFun (scatter_rows_ideal a b u) (ix2 n k)).trans (Gcn.scatterAdd_rows_apply scatter_S100000x128_S1700000x1_S1700000x128_1_0_0_1 sr_uw sr_iw sr_sd sr_iv a b u n k)

theorem gr_off : gather_S100000x128_S1700000x1_S1700000x128_1_0_n_n_0_1_1128.offsetDims = [1] := rfl
theorem gr_coll : gather_S100000x128_S1700000x1_S1700000x128_1_0_n_n_0_1_1128.collapsedSliceDims = [0] := rfl
theorem gr_ob : gather_S100000x128_S1700000x1_S1700000x128_1_0_n_n_0_1_1128.operandBatchingDims = [] := rfl
theorem gr_sim : gather_S100000x128_S1700000x1_S1700000x128_1_0_n_n_0_1_1128.startIndexMap = [0] := rfl
theorem gr_ivd : gather_S100000x128_S1700000x1_S1700000x128_1_0_n_n_0_1_1128.indexVectorDim = 1 := rfl
theorem gr_ss : gather_S100000x128_S1700000x1_S1700000x128_1_0_n_n_0_1_1128.sliceSizes = ![1, 128] := rfl

/-- Element `(e, k)` of a gather of rows: column `k` of the row the start word reads. -/
theorem gather_rows_read (y : FVec Ideal S100000x128 .f32) (b : IVec S1700000x1 32) (e : Fin 1700000) (k : Fin 128) :
    Host.gather gather_S100000x128_S1700000x1_S1700000x128_1_0_n_n_0_1_1128 y b (ix2 e k) = y (ix2 (Gcn.rowOf (b (ix2 e (0 : Fin 1)))) k) :=
  Gcn.gather_rows_apply (by decide) gather_S100000x128_S1700000x1_S1700000x128_1_0_n_n_0_1_1128 gr_off gr_coll gr_ob gr_sim gr_ivd gr_ss y b e k

/-! ## The degrees and the coefficients -/

/-- The coefficient at a node: `where(deg > 0, rsqrt deg, 0)` of the node's degree. -/
theorem coeff_apply (n : Fin 100000) :
    val_main_v14 (F := Ideal) x1 (ix1 n)
      = Scalar.select (Ideal.cmp .ogt (val_main_v10 (F := Ideal) x1 (ix1 n)) Gcn.zero)
          (Ideal.rsqrt (val_main_v10 (F := Ideal) x1 (ix1 n))) Gcn.zero := by
  rw [val_main_v14_apply, val_main_v12_apply, val_main_v13_apply, val_main_call0_v1_apply, val_main_call0_v0_apply,
    val_main_cst_2_apply, val_main_v11_apply, val_main_cst_1_apply]
  generalize val_main_v10 (F := Ideal) x1 (ix1 n) = v
  rfl

/-- The degree of a node is a count: ones scatter-added into zeros. -/
theorem deg_apply (n : Fin 100000) : ∃ m : ℕ, val_main_v10 (F := Ideal) x1 (ix1 n) = ((m : ℝ) : EReal) := by
  have h : val_main_v10 (F := Ideal) x1 (ix1 n)
      = val_main_v8 (F := Ideal) (ix1 n) + ∑ e ∈ Finset.univ.filter (fun e : Fin 1700000 =>
          (val_main_v9 (F := Ideal) x1 (ix2 e (0 : Fin 1))).toInt = (n.val : ℤ)), val_main_v7 (F := Ideal) (ix1 e) := by
    unfold val_main_v10
    exact scatter_vec_read _ _ _ n
  rw [h, val_main_v8_apply, val_main_cst_0_apply,
    Finset.sum_congr rfl (fun e _ => (val_main_v7_apply (F := Ideal) (ix1 e)).trans (val_main_cst_apply (F := Ideal) _)),
    Finset.sum_const]
  generalize Finset.card _ = m
  refine ⟨m, ?_⟩
  rw [Ideal.ofBits_def, Ideal.ofBits_zero_f32, zero_add, Ideal.ofBits_def, Ideal.ofBits_one_f32, nsmul_one]
  exact EReal.coe_natCast.symm

/-- Every coefficient is a non-negative real: a degree is a count. -/
theorem coeff_nonneg (n : Fin 100000) : ∃ r : ℝ, 0 ≤ r ∧ val_main_v14 (F := Ideal) x1 (ix1 n) = (r : EReal) := by
  obtain ⟨m, hm⟩ := deg_apply x1 n
  obtain ⟨r, hr, h⟩ := Gcn.coeff_nonneg_real m
  exact ⟨r, hr, by rw [coeff_apply, hm]; exact h⟩

/-! ## One layer's aggregation -/

/-- A scatter-add, at the destination words and into zeros, of message rows `h(source) · (d(source) · d(destination))` is, by the
    layer law, the aggregation of the rows scaled by their own coefficient, times the destination's coefficient. -/
theorem layer_read (d : Fin 100000 → EReal) (hd : ∀ n, ∃ r : ℝ, 0 ≤ r ∧ d n = (r : EReal))
    (h : Fin 100000 → Fin 128 → EReal) (dst sn : Fin 1700000 → BitVec 32)
    (z : FVec Ideal S100000x128 .f32) (b : IVec S1700000x1 32) (u : FVec Ideal S1700000x128 .f32)
    (hz : ∀ (n : Fin 100000) (k : Fin 128), z (ix2 n k) = Gcn.zero)
    (hb : ∀ e : Fin 1700000, b (ix2 e (0 : Fin 1)) = dst e)
    (hu : ∀ (e : Fin 1700000) (k : Fin 128),
      u (ix2 e k) = h (Gcn.rowOf (sn e)) k * (d (Gcn.rowOf (sn e)) * d (Gcn.rowOf (Gcn.wrapNeg (dst e)))))
    (n : Fin 100000) (k : Fin 128) :
    Host.scatterAdd (F := Ideal) scatter_S100000x128_S1700000x1_S1700000x128_1_0_0_1 z b u (ix2 n k) = Gcn.agg dst sn (Gcn.scaled d h) n k * d n := by
  have hfil : (Finset.univ.filter fun e : Fin 1700000 => (b (ix2 e (0 : Fin 1))).toInt = (n.val : ℤ)) = Gcn.into dst n :=
    Finset.filter_congr fun e _ => by rw [hb]
  rw [scatter_rows_read, hz, hfil, Finset.sum_congr rfl (fun e _ => hu e k)]
  exact Gcn.layer_law dst sn d hd h n k

/-! ## The first layer -/

/-- The first dense transform at an index. -/
theorem lin1_apply (n : Fin 100000) (k : Fin 128) :
    val_main_v15 (F := Ideal) x0 x3 (ix2 n k) = Gcn.lin1 (fun n j => x0 (ix2 n j)) (fun j k => x3 (ix2 j k)) n k := by
  rw [val_main_v15_apply]
  unfold Gcn.lin1
  refine Finset.sum_congr rfl fun j _ => ?_
  have e1 : lidx_main_v15 (ix2 n k) j = ix2 n j := (funext fun a => match a with | ⟨0, _⟩ => rfl | ⟨1, _⟩ => rfl)
  have e2 : ridx_main_v15 (ix2 n k) j = ix2 j k := (funext fun a => match a with | ⟨0, _⟩ => rfl | ⟨1, _⟩ => rfl)
  rw [e1, e2]

/-- The zero array the first layer's messages are added into. -/
theorem zeros41 (n : Fin 100000) (k : Fin 128) : val_main_v41 (F := Ideal) (ix2 n k) = Gcn.zero := by
  rw [val_main_v41_apply, val_main_cst_8_apply]; rfl

/-- A gathered row of the first layer: the transformed row of the message's source. -/
theorem row37 (e : Fin 1700000) (k : Fin 128) :
    val_main_v37 (F := Ideal) x0 x1 x3 (ix2 e k) = Gcn.lin1 (fun n j => x0 (ix2 n j)) (fun j k => x3 (ix2 j k)) (Gcn.rowOf (Gcn.wrapNeg (val_main_v3 (F := Ideal) x1 (ix1 e)))) k := by
  have h : val_main_v37 (F := Ideal) x0 x1 x3 (ix2 e k)
      = val_main_v15 (F := Ideal) x0 x3 (ix2 (Gcn.rowOf (val_main_v36 (F := Ideal) x1 (ix2 e (0 : Fin 1)))) k) := by
    unfold val_main_v37
    exact gather_rows_read _ _ e k
  rw [h, RefWords.srccol36, lin1_apply]

/-- A message of the first layer: the source's transformed row times the two coefficients. -/
theorem msg40 (e : Fin 1700000) (k : Fin 128) :
    val_main_v40 (F := Ideal) x0 x1 x3 (ix2 e k)
      = Gcn.lin1 (fun n j => x0 (ix2 n j)) (fun j k => x3 (ix2 j k)) (Gcn.rowOf (Gcn.wrapNeg (val_main_v3 (F := Ideal) x1 (ix1 e)))) k
        * (val_main_v14 (F := Ideal) x1 (ix1 (Gcn.rowOf (Gcn.wrapNeg (val_main_v3 (F := Ideal) x1 (ix1 e)))))
          * val_main_v14 (F := Ideal) x1 (ix1 (Gcn.rowOf (Gcn.wrapNeg (val_main_v6 (F := Ideal) x1 (ix1 e)))))) := by
  rw [val_main_v40_apply, Ideal.mulf_def, row37, RefWords.weight39]

/-- The first layer's aggregation at an index. -/
theorem agg43 (n : Fin 100000) (k : Fin 128) :
    val_main_v43 (F := Ideal) x0 x1 x3 (ix2 n k)
      = Gcn.agg (fun e => val_main_v6 (F := Ideal) x1 (ix1 e)) (fun e => Gcn.wrapNeg (val_main_v3 (F := Ideal) x1 (ix1 e))) (Gcn.scaled (fun n => val_main_v14 (F := Ideal) x1 (ix1 n)) (Gcn.lin1 (fun n j => x0 (ix2 n j)) (fun j k => x3 (ix2 j k)))) n k * val_main_v14 (F := Ideal) x1 (ix1 n) := by
  unfold val_main_v43
  exact layer_read (fun n => val_main_v14 (F := Ideal) x1 (ix1 n)) (coeff_nonneg x1) (Gcn.lin1 (fun n j => x0 (ix2 n j)) (fun j k => x3 (ix2 j k))) (fun e => val_main_v6 (F := Ideal) x1 (ix1 e)) (fun e => Gcn.wrapNeg (val_main_v3 (F := Ideal) x1 (ix1 e))) _ _ _ (zeros41) (RefWords.dstcol42 x1) (msg40 x0 x1 x3) n k

/-- The first layer's activations at an index. -/
theorem act47 (n : Fin 100000) (k : Fin 128) :
    val_main_v47 (F := Ideal) x0 x1 x3 x4 (ix2 n k) = (Gcn.act (fun n => val_main_v14 (F := Ideal) x1 (ix1 n)) (fun k => x4 (ix1 k)) (Gcn.agg (fun e => val_main_v6 (F := Ideal) x1 (ix1 e)) (fun e => Gcn.wrapNeg (val_main_v3 (F := Ideal) x1 (ix1 e))) (Gcn.scaled (fun n => val_main_v14 (F := Ideal) x1 (ix1 n)) (Gcn.lin1 (fun n j => x0 (ix2 n j)) (fun j k => x3 (ix2 j k)))))) n k := by
  have hb : val_main_v45 (F := Ideal) x4 (ix2 n k) = x4 (ix1 k) := by
    rw [val_main_v45_apply, val_main_v44_apply]
    exact congrArg x4 (funext fun a => match a with | ⟨0, _⟩ => rfl)
  unfold Gcn.act
  rw [val_main_v47_apply, val_main_v46_apply, agg43, hb, val_main_call1_v0_apply, val_main_call1_cst_apply,
    Ideal.maximumf_def, Ideal.addf_def, Ideal.ofBits_def]

/-- The activation at an index. -/
theorem act_apply (d : Fin 100000 → EReal) (b : Fin 128 → EReal) (raw : Fin 100000 → Fin 128 → EReal) (n : Fin 100000) (k : Fin 128) :
    Gcn.act d b raw n k = max (raw n k * d n + b k) Gcn.zero := rfl

/-! ## The second layer -/

/-- The second dense transform at an index: over the first layer's activations. -/
theorem lin2_apply (n : Fin 100000) (k : Fin 128) :
    val_main_v48 (F := Ideal) x0 x1 x3 x4 x5 (ix2 n k) = Gcn.lin2 (Gcn.act (fun n => val_main_v14 (F := Ideal) x1 (ix1 n)) (fun k => x4 (ix1 k)) (Gcn.agg (fun e => val_main_v6 (F := Ideal) x1 (ix1 e)) (fun e => Gcn.wrapNeg (val_main_v3 (F := Ideal) x1 (ix1 e))) (Gcn.scaled (fun n => val_main_v14 (F := Ideal) x1 (ix1 n)) (Gcn.lin1 (fun n j => x0 (ix2 n j)) (fun j k => x3 (ix2 j k)))))) (fun j k => x5 (ix2 j k)) n k := by
  rw [val_main_v48_apply]
  unfold Gcn.lin2
  refine Finset.sum_congr rfl fun j _ => ?_
  have e1 : lidx_main_v48 (ix2 n k) j = ix2 n j := (funext fun a => match a with | ⟨0, _⟩ => rfl | ⟨1, _⟩ => rfl)
  have e2 : ridx_main_v48 (ix2 n k) j = ix2 j k := (funext fun a => match a with | ⟨0, _⟩ => rfl | ⟨1, _⟩ => rfl)
  rw [e1, e2, act47]

/-- The zero array the second layer's messages are added into. -/
theorem zeros74 (n : Fin 100000) (k : Fin 128) : val_main_v74 (F := Ideal) (ix2 n k) = Gcn.zero := by
  rw [val_main_v74_apply, val_main_cst_15_apply]; rfl

/-- A gathered row of the second layer: the transformed row of the message's source. -/
theorem row70 (e : Fin 1700000) (k : Fin 128) :
    val_main_v70 (F := Ideal) x0 x1 x3 x4 x5 (ix2 e k)
      = Gcn.lin2 (Gcn.act (fun n => val_main_v14 (F := Ideal) x1 (ix1 n)) (fun k => x4 (ix1 k)) (Gcn.agg (fun e => val_main_v6 (F := Ideal) x1 (ix1 e)) (fun e => Gcn.wrapNeg (val_main_v3 (F := Ideal) x1 (ix1 e))) (Gcn.scaled (fun n => val_main_v14 (F := Ideal) x1 (ix1 n)) (Gcn.lin1 (fun n j => x0 (ix2 n j)) (fun j k => x3 (ix2 j k)))))) (fun j k => x5 (ix2 j k)) (Gcn.rowOf (Gcn.wrapNeg (val_main_v3 (F := Ideal) x1 (ix1 e)))) k := by
  have h : val_main_v70 (F := Ideal) x0 x1 x3 x4 x5 (ix2 e k)
      = val_main_v48 (F := Ideal) x0 x1 x3 x4 x5 (ix2 (Gcn.rowOf (val_main_v69 (F := Ideal) x1 (ix2 e (0 : Fin 1)))) k) := by
    unfold val_main_v70
    exact gather_rows_read _ _ e k
  rw [h, RefWords.srccol69, lin2_apply]

/-- A message of the second layer: the source's transformed row times the two coefficients. -/
theorem msg73 (e : Fin 1700000) (k : Fin 128) :
    val_main_v73 (F := Ideal) x0 x1 x3 x4 x5 (ix2 e k)
      = Gcn.lin2 (Gcn.act (fun n => val_main_v14 (F := Ideal) x1 (ix1 n)) (fun k => x4 (ix1 k)) (Gcn.agg (fun e => val_main_v6 (F := Ideal) x1 (ix1 e)) (fun e => Gcn.wrapNeg (val_main_v3 (F := Ideal) x1 (ix1 e))) (Gcn.scaled (fun n => val_main_v14 (F := Ideal) x1 (ix1 n)) (Gcn.lin1 (fun n j => x0 (ix2 n j)) (fun j k => x3 (ix2 j k)))))) (fun j k => x5 (ix2 j k)) (Gcn.rowOf (Gcn.wrapNeg (val_main_v3 (F := Ideal) x1 (ix1 e)))) k
        * (val_main_v14 (F := Ideal) x1 (ix1 (Gcn.rowOf (Gcn.wrapNeg (val_main_v3 (F := Ideal) x1 (ix1 e)))))
          * val_main_v14 (F := Ideal) x1 (ix1 (Gcn.rowOf (Gcn.wrapNeg (val_main_v6 (F := Ideal) x1 (ix1 e)))))) := by
  rw [val_main_v73_apply, Ideal.mulf_def, row70, RefWords.weight72]

/-- The second layer's aggregation at an index. -/
theorem agg76 (n : Fin 100000) (k : Fin 128) :
    val_main_v76 (F := Ideal) x0 x1 x3 x4 x5 (ix2 n k)
      = Gcn.agg (fun e => val_main_v6 (F := Ideal) x1 (ix1 e)) (fun e => Gcn.wrapNeg (val_main_v3 (F := Ideal) x1 (ix1 e))) (Gcn.scaled (fun n => val_main_v14 (F := Ideal) x1 (ix1 n)) (Gcn.lin2 (Gcn.act (fun n => val_main_v14 (F := Ideal) x1 (ix1 n)) (fun k => x4 (ix1 k)) (Gcn.agg (fun e => val_main_v6 (F := Ideal) x1 (ix1 e)) (fun e => Gcn.wrapNeg (val_main_v3 (F := Ideal) x1 (ix1 e))) (Gcn.scaled (fun n => val_main_v14 (F := Ideal) x1 (ix1 n)) (Gcn.lin1 (fun n j => x0 (ix2 n j)) (fun j k => x3 (ix2 j k)))))) (fun j k => x5 (ix2 j k)))) n k * val_main_v14 (F := Ideal) x1 (ix1 n) := by
  unfold val_main_v76
  exact layer_read (fun n => val_main_v14 (F := Ideal) x1 (ix1 n)) (coeff_nonneg x1) (Gcn.lin2 (Gcn.act (fun n => val_main_v14 (F := Ideal) x1 (ix1 n)) (fun k => x4 (ix1 k)) (Gcn.agg (fun e => val_main_v6 (F := Ideal) x1 (ix1 e)) (fun e => Gcn.wrapNeg (val_main_v3 (F := Ideal) x1 (ix1 e))) (Gcn.scaled (fun n => val_main_v14 (F := Ideal) x1 (ix1 n)) (Gcn.lin1 (fun n j => x0 (ix2 n j)) (fun j k => x3 (ix2 j k)))))) (fun j k => x5 (ix2 j k))) (fun e => val_main_v6 (F := Ideal) x1 (ix1 e)) (fun e => Gcn.wrapNeg (val_main_v3 (F := Ideal) x1 (ix1 e))) _ _ _ (zeros74) (RefWords.dstcol75 x1) (msg73 x0 x1 x3 x4 x5) n k

/-- The second layer's activations at an index: the specification's hidden array. -/
theorem act80 (n : Fin 100000) (k : Fin 128) :
    val_main_v80 (F := Ideal) x0 x1 x3 x4 x5 x6 (ix2 n k) = (Gcn.hidden (fun n j => x0 (ix2 n j)) (fun j k => x3 (ix2 j k)) (fun k => x4 (ix1 k)) (fun j k => x5 (ix2 j k)) (fun k => x6 (ix1 k)) (fun e => val_main_v6 (F := Ideal) x1 (ix1 e)) (fun e => Gcn.wrapNeg (val_main_v3 (F := Ideal) x1 (ix1 e))) (fun n => val_main_v14 (F := Ideal) x1 (ix1 n))) n k := by
  have hb : val_main_v78 (F := Ideal) x6 (ix2 n k) = x6 (ix1 k) := by
    rw [val_main_v78_apply, val_main_v77_apply]
    exact congrArg x6 (funext fun a => match a with | ⟨0, _⟩ => rfl)
  unfold Gcn.hidden
  rw [act_apply, val_main_v80_apply, val_main_v79_apply, agg76, hb, val_main_call2_v0_apply, val_main_call2_cst_apply,
    Ideal.maximumf_def, Ideal.addf_def, Ideal.ofBits_def]

/-- THE REFERENCE'S RESULT at an index: the specification's function of the argument arrays, with the destination words,
    the source words (counted from the end when negative), the coefficients and the graph counts the reference's own stages. -/
theorem ref_value (g : Fin 64) (o : Fin 32) :
    val_main_v96 (F := Ideal) x0 x1 x2 x3 x4 x5 x6 x7 x8 (ix2 g o)
      = Gcn.out (fun n j => x0 (ix2 n j)) (fun j k => x3 (ix2 j k)) (fun k => x4 (ix1 k)) (fun j k => x5 (ix2 j k))
          (fun k => x6 (ix1 k)) (fun k o => x7 (ix2 k o)) (fun o => x8 (ix1 o))
          (fun e => val_main_v6 (F := Ideal) x1 (ix1 e)) (fun e => Gcn.wrapNeg (val_main_v3 (F := Ideal) x1 (ix1 e)))
          (fun n => val_main_v14 (F := Ideal) x1 (ix1 n)) (fun n => x2 (ix1 n))
          (fun g => val_main_v87 (F := Ideal) x2 (ix1 g)) g o := by
  unfold Gcn.out
  exact RefTail.ref_tail x0 x1 x2 x3 x4 x5 x6 x7 x8 (Gcn.hidden (fun n j => x0 (ix2 n j)) (fun j k => x3 (ix2 j k)) (fun k => x4 (ix1 k)) (fun j k => x5 (ix2 j k)) (fun k => x6 (ix1 k)) (fun e => val_main_v6 (F := Ideal) x1 (ix1 e)) (fun e => Gcn.wrapNeg (val_main_v3 (F := Ideal) x1 (ix1 e))) (fun n => val_main_v14 (F := Ideal) x1 (ix1 n))) (act80 x0 x1 x3 x4 x5 x6) g o

end Cert.ReferenceIdeal.RefValue

end
-- ==== Proof.lean ====
/- A two-layer graph convolution with mean pooling and a linear head, computed by four tiled calls with the gathers and
   scatter-adds between them, against the plain reference: the certificate's five claims.
   The three frames: the two kernel programs' are the generated frame certificates; the reference's is its run with the
   result dropped. `preserves` has nothing to state (the idealization rewrote no operation). `algebraic`: at the ideal
   values both programs end with the result array at ONE function of the argument arrays, the specification `Gcn.out`
   (Proof/Spec.lean) — the kernel program by reading its four calls and the host operations between them back from the
   last boundary of its run (Proof/KChain.lean over Proof/KRegion0…3.lean and Proof/KEntry.lean; the run with its result
   is Proof/KRun.lean), the reference by its stages (Proof/RefValue.lean), where the one law is that a node's coefficient,
   a non-negative real, moves out of the aggregation. The destination words, source words, coefficients and graph counts
   are computed by the same host operations in both programs: equal terms of equal arguments. -/
import proofs.«414723_j3659312136457_3_alg».proof.Defs
import proofs.«414723_j3659312136457_3_alg».proof.Proof.Gen.Kernel
import proofs.«414723_j3659312136457_3_alg».proof.Proof.Gen.Kernel.Frame
import proofs.«414723_j3659312136457_3_alg».proof.Proof.Gen.KernelIdeal
import proofs.«414723_j3659312136457_3_alg».proof.Proof.Gen.KernelIdeal.Frame
import proofs.«414723_j3659312136457_3_alg».proof.Proof.Gen.ReferenceIdeal
import proofs.«414723_j3659312136457_3_alg».proof.Proof.Gen.Pre_finite_inputs
import proofs.«414723_j3659312136457_3_alg».proof.Proof.KRun
import proofs.«414723_j3659312136457_3_alg».proof.Proof.KChain
import proofs.«414723_j3659312136457_3_alg».proof.Proof.RefValue
import Idealize.ShloMosaic.Adequacy
import Idealize.ShloMosaic.Init

set_option maxRecDepth 16384

noncomputable section

open Idealize.ShloMosaic Idealize.ShloMosaic.TcCoe Idealize.SL.Sem Idealize.ShloMosaic.ValueIdx

namespace Cert.Proof

/-! ## The shared host terms: the two programs compute them by the same operations -/

section Shared

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (x1 : (⟨Cert.ReferenceIdeal.S2x1600000, .i32⟩ : BufTy).Contents (Elt Ideal))
  (x2 : (⟨Cert.ReferenceIdeal.S100000, .i32⟩ : BufTy).Contents (Elt Ideal))

/-- The destination words are the same vector in both programs. -/
theorem dst_eq (h1 : x1 = m ((c.tc : Thread Cert.KernelIdeal.nD Cert.KernelIdeal.τ).loc Cert.KernelIdeal.main_arg1)) :
    Cert.KernelIdeal.Entry.dstVec m ρ c = Cert.ReferenceIdeal.Read.val_main_v6 (F := Ideal) x1 := by
  rw [Cert.KernelIdeal.Entry.dstVec_eq, h1]
  unfold Cert.ReferenceIdeal.Read.val_main_v6 Cert.ReferenceIdeal.Read.val_main_v5 Cert.ReferenceIdeal.Read.val_main_v4 Cert.ReferenceIdeal.Read.val_main_v0
  rfl

/-- The source words are the same vector in both programs. -/
theorem src_eq (h1 : x1 = m ((c.tc : Thread Cert.KernelIdeal.nD Cert.KernelIdeal.τ).loc Cert.KernelIdeal.main_arg1)) :
    Cert.KernelIdeal.Entry.srcVec m ρ c = Cert.ReferenceIdeal.Read.val_main_v3 (F := Ideal) x1 := by
  rw [Cert.KernelIdeal.Entry.srcVec_eq, h1]
  unfold Cert.ReferenceIdeal.Read.val_main_v3 Cert.ReferenceIdeal.Read.val_main_v2 Cert.ReferenceIdeal.Read.val_main_v1 Cert.ReferenceIdeal.Read.val_main_v0
  rfl

/-- The coefficients are the same in both programs (a column in one, a vector in the other). -/
theorem coeff_eq (h1 : x1 = m ((c.tc : Thread Cert.KernelIdeal.nD Cert.KernelIdeal.τ).loc Cert.KernelIdeal.main_arg1)) (n : Fin 100000) :
    Cert.KernelIdeal.Entry.coeffCol m ρ c (ix2 n (0 : Fin 1)) = Cert.ReferenceIdeal.Read.val_main_v14 (F := Ideal) x1 (ix1 n) := by
  rw [Cert.KernelIdeal.Entry.coeffCol_apply, Cert.ReferenceIdeal.RefValue.coeff_apply, dst_eq m ρ c x1 h1]
  have hdeg : Cert.KernelIdeal.Entry.degOf (Cert.ReferenceIdeal.Read.val_main_v6 (F := Ideal) x1) = Cert.ReferenceIdeal.Read.val_main_v10 (F := Ideal) x1 := by
    unfold Cert.ReferenceIdeal.Read.val_main_v10 Cert.ReferenceIdeal.Read.val_main_v8 Cert.ReferenceIdeal.Read.val_main_v9 Cert.ReferenceIdeal.Read.val_main_v7 Cert.ReferenceIdeal.Read.val_main_cst_0 Cert.ReferenceIdeal.Read.val_main_cst
    rfl
  rw [hdeg]

/-- The graph counts are the same vector in both programs. -/
theorem cnt_eq (h2 : x2 = m ((c.tc : Thread Cert.KernelIdeal.nD Cert.KernelIdeal.τ).loc Cert.KernelIdeal.main_arg2)) :
    Cert.KernelIdeal.Entry.cntVec m ρ c = Cert.ReferenceIdeal.Read.val_main_v87 (F := Ideal) x2 := by
  rw [Cert.KernelIdeal.Entry.cntVec_eq, h2]
  unfold Cert.ReferenceIdeal.Read.val_main_v87 Cert.ReferenceIdeal.Read.val_main_v85 Cert.ReferenceIdeal.Read.val_main_v86 Cert.ReferenceIdeal.Read.val_main_v84 Cert.ReferenceIdeal.Read.val_main_cst_18 Cert.ReferenceIdeal.Read.val_main_cst_17
  rfl

end Shared

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the specification's function of the argument arrays. -/
theorem algebraic : Cert.algebraic_KernelIdeal_ReferenceIdeal := by
  intro m ρ m' ρ' _ hagree
  refine ⟨fun c => Cert.KernelIdeal.Gen.W10 (F := Ideal) m ρ c (Proc.devRef .tc Cert.KernelIdeal.main_v65),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v96_eq]
  funext i
  obtain ⟨g, o, rfl⟩ : ∃ (g : Fin 64) (o : Fin 32), i = ix2 g o := ⟨i 0, i 1, eq_ix2 i⟩
  rw [Cert.ReferenceIdeal.RefValue.ref_value]
  refine Eq.trans ?_ (Cert.KernelIdeal.Chain.kernel_value m ρ c g o).symm
  rw [h0, h3, h4, h5, h6, h7, h8,
    ← dst_eq m ρ c _ h1, ← src_eq m ρ c _ h1, ← cnt_eq m ρ c _ h2, h2]
  simp only [← coeff_eq m ρ c _ h1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
